-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S2048x32000 : Shape := ⟨2, ![2048, 32000]⟩
abbrev S4x1024 : Shape := ⟨2, ![4, 1024]⟩
abbrev S4x3 : Shape := ⟨2, ![4, 3]⟩
abbrev S2049x100 : Shape := ⟨2, ![2049, 100]⟩
abbrev S100 : Shape := ⟨1, ![100]⟩
abbrev S103x5 : Shape := ⟨2, ![103, 5]⟩
abbrev S5 : Shape := ⟨1, ![5]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S2048x32000 : S_.BroadcastsInDim S2048x32000 (![] : Fin 0 → Fin S2048x32000.rank)
  reducesTo_S2048x32000_S_d0_1 : S2048x32000.ReducesTo [0, 1] S_
  bcast_S_S4x3 : S_.BroadcastsInDim S4x3 (![] : Fin 0 → Fin S4x3.rank)
  reducesTo_S4x3_S_d0_1 : S4x3.ReducesTo [0, 1] S_
  bcast_S_S2049x100 : S_.BroadcastsInDim S2049x100 (![] : Fin 0 → Fin S2049x100.rank)
  reducesTo_S2049x100_S_d0_1 : S2049x100.ReducesTo [0, 1] S_
  bcast_S_S100 : S_.BroadcastsInDim S100 (![] : Fin 0 → Fin S100.rank)
  reducesTo_S100_S_d0 : S100.ReducesTo [0] S_
  bcast_S_S103x5 : S_.BroadcastsInDim S103x5 (![] : Fin 0 → Fin S103x5.rank)
  reducesTo_S103x5_S_d0_1 : S103x5.ReducesTo [0, 1] S_
  bcast_S_S5 : S_.BroadcastsInDim S5 (![] : Fin 0 → Fin S5.rank)
  reducesTo_S5_S_d0 : S5.ReducesTo [0] S_
  bcast_S_S4x1024 : S_.BroadcastsInDim S4x1024 (![] : Fin 0 → Fin S4x1024.rank)
  reducesTo_S4x1024_S_d0_1 : S4x1024.ReducesTo [0, 1] S_

variable [Facts]

def fn_part2 {F : FTy → Type} [FloatOps F] (main_arg2 : IVec S4x1024 32) (main_v33 : IVec S_ 1) : IVec S_ 1 :=
  let main_c_12 : IVec S_ 32 := constantI S_ 32 0#32
  let main_v34 : IVec S4x1024 32 := broadcastInDim S4x1024 ![] bcast_S_S4x1024 main_c_12
  let main_v35 : IVec S4x1024 1 := cmpi .sge main_arg2 main_v34
  let main_c_13 : IVec S_ 32 := constantI S_ 32 32000#32
  let main_v36 : IVec S4x1024 32 := broadcastInDim S4x1024 ![] bcast_S_S4x1024 main_c_13
  let main_v37 : IVec S4x1024 1 := cmpi .slt main_arg2 main_v36
  let main_v38 : IVec S4x1024 1 := andi main_v35 main_v37
  let main_c_14 : IVec S_ 1 := constantI S_ 1 1#1
  let main_v39 : IVec S_ 1 := (fun x v => Host.reduce IntOp.andi x v reducesTo_S4x1024_S_d0_1 h_S_) main_v38 main_c_14
  let main_v40 : IVec S_ 1 := andi main_v33 main_v39
  main_v40

def fn_part1 {F : FTy → Type} [FloatOps F] (main_arg2 : IVec S4x1024 32) (main_arg6 : FVec F S100 .f32) (main_arg7 : FVec F S103x5 .f32) (main_arg8 : FVec F S5 .f32) (main_v13 : IVec S_ 1) (main_v16 : IVec S2049x100 1) : IVec S_ 1 :=
  let main_c_5 : IVec S_ 1 := constantI S_ 1 1#1
  let main_v17 : IVec S_ 1 := (fun x v => Host.reduce IntOp.andi x v reducesTo_S2049x100_S_d0_1 h_S_) main_v16 main_c_5
  let main_v18 : IVec S_ 1 := andi main_v13 main_v17
  let main_v19 : FVec F S100 .f32 := Host.absf main_arg6
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S103x5 .f32 := Host.absf main_arg7
  let main_cst_8 : FVec F S_ .f32 := constant S_ .f32 0x7F800000#32
  let main_v25 : FVec F S103x5 .f32 := broadcastInDim S103x5 ![] bcast_S_S103x5 main_cst_8
  let main_v26 : IVec S103x5 1 := cmpf .olt main_v24 main_v25
  let main_c_9 : IVec S_ 1 := constantI S_ 1 1#1
  let main_v27 : IVec S_ 1 := (fun x v => Host.reduce IntOp.andi x v reducesTo_S103x5_S_d0_1 h_S_) main_v26 main_c_9
  let main_v28 : IVec S_ 1 := andi main_v23 main_v27
  let main_v29 : FVec F S5 .f32 := Host.absf main_arg8
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  fn_part2 (F := F) main_arg2 main_v33

def fn {F : FTy → Type} [FloatOps F] (main_arg0 : FVec F S4x1024x2048 .f32) (main_arg1 : FVec F S2048x32000 .f32) (main_arg2 : IVec S4x1024 32) (main_arg3 : IVec S4x1024 32) (main_arg4 : FVec F S4x3 .f32) (main_arg5 : FVec F S2049x100 .f32) (main_arg6 : FVec F S100 .f32) (main_arg7 : FVec F S103x5 .f32) (main_arg8 : FVec F S5 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S2048x32000 .f32 := Host.absf main_arg1
  let main_cst_0 : FVec F S_ .f32 := constant S_ .f32 0x7F800000#32
  let main_v5 : FVec F S2048x32000 .f32 := broadcastInDim S2048x32000 ![] bcast_S_S2048x32000 main_cst_0
  let main_v6 : IVec S2048x32000 1 := cmpf .olt main_v4 main_v5
  let main_c_1 : IVec S_ 1 := constantI S_ 1 1#1
  let main_v7 : IVec S_ 1 := (fun x v => Host.reduce IntOp.andi x v reducesTo_S2048x32000_S_d0_1 h_S_) main_v6 main_c_1
  let main_v8 : IVec S_ 1 := andi main_v3 main_v7
  let main_v9 : FVec F S4x3 .f32 := Host.absf main_arg4
  let main_cst_2 : FVec F S_ .f32 := constant S_ .f32 0x7F800000#32
  let main_v10 : FVec F S4x3 .f32 := broadcastInDim S4x3 ![] bcast_S_S4x3 main_cst_2
  let main_v11 : IVec S4x3 1 := cmpf .olt main_v9 main_v10
  let main_c_3 : IVec S_ 1 := constantI S_ 1 1#1
  let main_v12 : IVec S_ 1 := (fun x v => Host.reduce IntOp.andi x v reducesTo_S4x3_S_d0_1 h_S_) main_v11 main_c_3
  let main_v13 : IVec S_ 1 := andi main_v8 main_v12
  let main_v14 : FVec F S2049x100 .f32 := Host.absf main_arg5
  let main_cst_4 : FVec F S_ .f32 := constant S_ .f32 0x7F800000#32
  let main_v15 : FVec F S2049x100 .f32 := broadcastInDim S2049x100 ![] bcast_S_S2049x100 main_cst_4
  let main_v16 : IVec S2049x100 1 := cmpf .olt main_v14 main_v15
  fn_part1 (F := F) main_arg2 main_arg6 main_arg7 main_arg8 main_v13 main_v16
-- ==== Kernel.lean ====
abbrev S4x1024x2048 : Shape := ⟨3, ![4, 1024, 2048]⟩
abbrev S2048x32000 : Shape := ⟨2, ![2048, 32000]⟩
abbrev S4x1024 : Shape := ⟨2, ![4, 1024]⟩
abbrev S4x3 : Shape := ⟨2, ![4, 3]⟩
abbrev S2049x100 : Shape := ⟨2, ![2049, 100]⟩
abbrev S100 : Shape := ⟨1, ![100]⟩
abbrev S103x5 : Shape := ⟨2, ![103, 5]⟩
abbrev S5 : Shape := ⟨1, ![5]⟩
abbrev S4096x2048 : Shape := ⟨2, ![4096, 2048]⟩
abbrev S_ : Shape := ⟨0, ![]⟩
abbrev S4096x1 : Shape := ⟨2, ![4096, 1]⟩
abbrev S4x1x1 : Shape := ⟨3, ![4, 1, 1]⟩
abbrev S1024x2048 : Shape := ⟨2, ![1024, 2048]⟩
abbrev S2048x1280 : Shape := ⟨2, ![2048, 1280]⟩
abbrev S1024x1 : Shape := ⟨2, ![1024, 1]⟩
abbrev S1x1x1 : Shape := ⟨3, ![1, 1, 1]⟩
abbrev S1024x1280 : Shape := ⟨2, ![1024, 1280]⟩
abbrev S1x1280 : Shape := ⟨2, ![1, 1280]⟩
abbrev S1024 : Shape := ⟨1, ![1024]⟩
abbrev S1 : Shape := ⟨1, ![1]⟩
abbrev S1x1 : Shape := ⟨2, ![1, 1]⟩
abbrev S4x1 : Shape := ⟨2, ![4, 1]⟩
abbrev S4x2048 : Shape := ⟨2, ![4, 2048]⟩
abbrev S4x2049 : Shape := ⟨2, ![4, 2049]⟩
abbrev S4x100 : Shape := ⟨2, ![4, 100]⟩
abbrev S1x100 : Shape := ⟨2, ![1, 100]⟩
abbrev S4x103 : Shape := ⟨2, ![4, 103]⟩
abbrev S4x5 : Shape := ⟨2, ![4, 5]⟩
abbrev S1x5 : Shape := ⟨2, ![1, 5]⟩

abbrev nBuf : Space → Nat
  | .hbm => 51
  | .vmem => 13
  | .smem => 0
  | _ => 0

abbrev bufTy : (tb : Table) → Fin (tcTables nBuf tb) → BufTy
  | .hbm, ⟨0, _⟩ => ⟨S4x1024x2048, .f32⟩
  | .hbm, ⟨1, _⟩ => ⟨S2048x32000, .f32⟩
  | .hbm, ⟨2, _⟩ => ⟨S4x1024, .i32⟩
  | .hbm, ⟨3, _⟩ => ⟨S4x1024, .i32⟩
  | .hbm, ⟨4, _⟩ => ⟨S4x3, .f32⟩
  | .hbm, ⟨5, _⟩ => ⟨S2049x100, .f32⟩
  | .hbm, ⟨6, _⟩ => ⟨S100, .f32⟩
  | .hbm, ⟨7, _⟩ => ⟨S103x5, .f32⟩
  | .hbm, ⟨8, _⟩ => ⟨S5, .f32⟩
  | .hbm, ⟨9, _⟩ => ⟨S4096x2048, .f32⟩
  | .hbm, ⟨10, _⟩ => ⟨S4096x2048, .bf16⟩
  | .hbm, ⟨11, _⟩ => ⟨S2048x32000, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x1024, .i32⟩
  | .hbm, ⟨16, _⟩ => ⟨S4x1024, .i32⟩
  | .hbm, ⟨17, _⟩ => ⟨S_, .i32⟩
  | .hbm, ⟨18, _⟩ => ⟨S4x1024, .i32⟩
  | .hbm, ⟨19, _⟩ => ⟨S4x1024, .i32⟩
  | .hbm, ⟨20, _⟩ => ⟨S4096x1, .i32⟩
  | .hbm, ⟨21, _⟩ => ⟨S4x1024, .f32⟩
  | .hbm, ⟨22, _⟩ => ⟨S4096x1, .f32⟩
  | .hbm, ⟨23, _⟩ => ⟨S4x1x1, .f32⟩
  | .hbm, ⟨24, _⟩ => ⟨S4x1, .f32⟩
  | .hbm, ⟨25, _⟩ => ⟨S_, .f32⟩
  | .hbm, ⟨26, _⟩ => ⟨S4x1, .f32⟩
  | .hbm, ⟨27, _⟩ => ⟨S4x1, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2049, .f32⟩
  | .hbm, ⟨34, _⟩ => ⟨S4x100, .f32⟩
  | .hbm, ⟨35, _⟩ => ⟨S1x100, .f32⟩
  | .hbm, ⟨36, _⟩ => ⟨S4x100, .f32⟩
  | .hbm, ⟨37, _⟩ => ⟨S4x100, .f32⟩
  | .hbm, ⟨38, _⟩ => ⟨S_, .f32⟩
  | .hbm, ⟨39, _⟩ => ⟨S_, .f32⟩
  | .hbm, ⟨40, _⟩ => ⟨S4x100, .f32⟩
  | .hbm, ⟨41, _⟩ => ⟨S4x100, .i1⟩
  | .hbm, ⟨42, _⟩ => ⟨S_, .f32⟩
  | .hbm, ⟨43, _⟩ => ⟨S4x100, .f32⟩
  | .hbm, ⟨44, _⟩ => ⟨S4x100, .f32⟩
  | .hbm, ⟨45, _⟩ => ⟨S4x100, .f32⟩
  | .hbm, ⟨46, _⟩ => ⟨S4x103, .f32⟩
  | .hbm, ⟨47, _⟩ => ⟨S4x5, .f32⟩
  | .hbm, ⟨48, _⟩ => ⟨S1x5, .f32⟩
  | .hbm, ⟨49, _⟩ => ⟨S4x5, .f32⟩
  | .hbm, ⟨50, _⟩ => ⟨S4x5, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1x1x1, .f32⟩
  | .local _ .vmem, ⟨9, _⟩ => ⟨S1x1x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v47 : BitVec 1 := Scalar.cmpi .eq arg1 c24_i32
  let v48 : BitVec 32 := Scalar.extui v47
  let c0_i32_24 : BitVec 32 := 0#32
  let v49 : BitVec 1 := Scalar.cmpi .ne v48 c0_i32_24
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x1024x2048_S4096x2048 : S4x1024x2048.ShapeCasts S4096x2048
  bitsLt_bf16_f32 : FTy.bits .bf16 < FTy.bits .f32
  bcast_S_S4x1024 : S_.BroadcastsInDim S4x1024 (![] : Fin 0 → Fin S4x1024.rank)
  shapeCasts_S4x1024_S4096x1 : S4x1024.ShapeCasts S4096x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1280_S2048x1280_0_0 : ∀ a, (![0, 0] : Fin 2 → Nat) a + S2048x1280.size a ≤ S2048x1280.size a
  h_S2048x1280 : 0 < S2048x1280.numel
  shapeCasts_S2048x1280_S2048x1280 : S2048x1280.ShapeCasts S2048x1280
  iota_S1x1280_d1_w32 : S1x1280.Iotas .tc 32 [1]
  broadcasts_S1x1280_S1024x1280 : S1x1280.Broadcasts S1024x1280
  broadcasts_S1024x1_S1024x1280 : S1024x1.Broadcasts S1024x1280
  reduces_S1024x1280_S1024 : S1024x1280.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S4x1x1_S4x1 : S4x1x1.ShapeCasts S4x1
  bcast_S_S4x1 : S_.BroadcastsInDim S4x1 (![] : Fin 0 → Fin S4x1.rank)
  reducesTo_S4x1024x2048_S4x2048_d1 : S4x1024x2048.ReducesTo [1] S4x2048
  h_S_ : 0 < S_.numel
  bcast_S_S4x2048 : S_.BroadcastsInDim S4x2048 (![] : Fin 0 → Fin S4x2048.rank)
  concatenates_S4x2048_S4x1_S4x2049_d1 : Shape.Concatenates [S4x2048, S4x1] S4x2049 1
  bcast_S100_S1x100_1 : S100.BroadcastsInDim S1x100 (![1] : Fin 1 → Fin S1x100.rank)
  bcast_S1x100_S4x100_0_1 : S1x100.BroadcastsInDim S4x100 (![0, 1] : Fin 2 → Fin S4x100.rank)
  bcast_S_S4x100 : S_.BroadcastsInDim S4x100 (![] : Fin 0 → Fin S4x100.rank)
  concatenates_S4x100_S4x3_S4x103_d1 : Shape.Concatenates [S4x100, S4x3] S4x103 1
  bcast_S5_S1x5_1 : S5.BroadcastsInDim S1x5 (![1] : Fin 1 → Fin S1x5.rank)
  bcast_S1x5_S4x5_0_1 : S1x5.BroadcastsInDim S4x5 (![0, 1] : Fin 2 → Fin S4x5.rank)
  dot_S1024x2048_S2048x1280_S1024x1280_1_0_0_1_n_n_wf : DotDims.WF S1024x2048 S2048x1280 S1024x1280 [1] [0] [0] [1] [] []
  dot_S4x2049_S2049x100_S4x100_1_0_0_1_n_n_wf : DotDims.WF S4x2049 S2049x100 S4x100 [1] [0] [0] [1] [] []
  dot_S4x103_S103x5_S4x5_1_0_0_1_n_n_wf : DotDims.WF S4x103 S103x5 S4x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1280.size a ≤ S2048x32000.size a
  hwx0_1 : ∀ i : grid0.Coords, EltTy.bits .bf16 = 32 ∨ (Rect.block (s := S2048x32000) S2048x1280.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S4x1x1.size a
  hwx0_4 : ∀ i : grid0.Coords, EltTy.bits .f32 = 32 ∨ (Rect.block (s := S4x1x1) S1x1x1.size (cc0_transform_4 i) (hinb0_4 i)).WholeWords (EltTy.packing .f32)

variable [Facts₀]

def dot_S1024x2048_S2048x1280_S1024x1280_1_0_0_1_n_n : DotDims S1024x2048 S2048x1280 S1024x1280 where
  lhsContracting := [1]
  rhsContracting := [0]
  lhsNonContracting := [0]
  rhsNonContracting := [1]
  lhsBatch := []
  rhsBatch := []
  wf := dot_S1024x2048_S2048x1280_S1024x1280_1_0_0_1_n_n_wf
def dot_S4x2049_S2049x100_S4x100_1_0_0_1_n_n : DotDims S4x2049 S2049x100 S4x100 where
  lhsContracting := [1]
  rhsContracting := [0]
  lhsNonContracting := [0]
  rhsNonContracting := [1]
  lhsBatch := []
  rhsBatch := []
  wf := dot_S4x2049_S2049x100_S4x100_1_0_0_1_n_n_wf
def dot_S4x103_S103x5_S4x5_1_0_0_1_n_n : DotDims S4x103 S103x5 S4x5 where
  lhsContracting := [1]
  rhsContracting := [0]
  lhsNonContracting := [0]
  rhsNonContracting := [1]
  lhsBatch := []
  rhsBatch := []
  wf := dot_S4x103_S103x5_S4x5_1_0_0_1_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x1024x2048 : Shape := ⟨3, ![4, 1024, 2048]⟩
abbrev S2048x32000 : Shape := ⟨2, ![2048, 32000]⟩
abbrev S4x1024 : Shape := ⟨2, ![4, 1024]⟩
abbrev S4x3 : Shape := ⟨2, ![4, 3]⟩
abbrev S2049x100 : Shape := ⟨2, ![2049, 100]⟩
abbrev S100 : Shape := ⟨1, ![100]⟩
abbrev S103x5 : Shape := ⟨2, ![103, 5]⟩
abbrev S5 : Shape := ⟨1, ![5]⟩
abbrev S4x1024x32000 : Shape := ⟨3, ![4, 1024, 32000]⟩
abbrev S_ : Shape := ⟨0, ![]⟩
abbrev S4x1024x1 : Shape := ⟨3, ![4, 1024, 1]⟩
abbrev S4x1024x1x1 : Shape := ⟨4, ![4, 1024, 1, 1]⟩
abbrev S1 : Shape := ⟨1, ![1]⟩
abbrev S1x1x1x1 : Shape := ⟨4, ![1, 1, 1, 1]⟩
abbrev S4x1024x2049 : Shape := ⟨3, ![4, 1024, 2049]⟩
abbrev S4x2049 : Shape := ⟨2, ![4, 2049]⟩
abbrev S4x100 : Shape := ⟨2, ![4, 100]⟩
abbrev S1x100 : Shape := ⟨2, ![1, 100]⟩
abbrev S4x103 : Shape := ⟨2, ![4, 103]⟩
abbrev S4x5 : Shape := ⟨2, ![4, 5]⟩
abbrev S1x5 : Shape := ⟨2, ![1, 5]⟩

abbrev nBuf : Space → Nat
  | .hbm => 79
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S2048x32000, .f32⟩
  | .hbm, ⟨2, _⟩ => ⟨S4x1024, .i32⟩
  | .hbm, ⟨3, _⟩ => ⟨S4x1024, .i32⟩
  | .hbm, ⟨4, _⟩ => ⟨S4x3, .f32⟩
  | .hbm, ⟨5, _⟩ => ⟨S2049x100, .f32⟩
  | .hbm, ⟨6, _⟩ => ⟨S100, .f32⟩
  | .hbm, ⟨7, _⟩ => ⟨S103x5, .f32⟩
  | .hbm, ⟨8, _⟩ => ⟨S5, .f32⟩
  | .hbm, ⟨9, _⟩ => ⟨S4x1024x32000, .f32⟩
  | .hbm, ⟨10, _⟩ => ⟨S_, .f32⟩
  | .hbm, ⟨11, _⟩ => ⟨S4x1024, .f32⟩
  | .hbm, ⟨12, _⟩ => ⟨S_, .f32⟩
  | .hbm, ⟨13, _⟩ => ⟨S4x1024, .f32⟩
  | .hbm, ⟨14, _⟩ => ⟨S4x1024, .f32⟩
  | .hbm, ⟨15, _⟩ => ⟨S4x1024x1, .f32⟩
  | .hbm, ⟨16, _⟩ => ⟨S4x1024x32000, .f32⟩
  | .hbm, ⟨17, _⟩ => ⟨S4x1024x32000, .f32⟩
  | .hbm, ⟨18, _⟩ => ⟨S4x1024x32000, .f32⟩
  | .hbm, ⟨19, _⟩ => ⟨S_, .f32⟩
  | .hbm, ⟨20, _⟩ => ⟨S4x1024, .f32⟩
  | .hbm, ⟨21, _⟩ => ⟨S4x1024x1, .f32⟩
  | .hbm, ⟨22, _⟩ => ⟨S4x1024x1, .f32⟩
  | .hbm, ⟨23, _⟩ => ⟨S4x1024x32000, .f32⟩
  | .hbm, ⟨24, _⟩ => ⟨S4x1024x32000, .f32⟩
  | .hbm, ⟨25, _⟩ => ⟨S4x1024x1, .i32⟩
  | .hbm, ⟨26, _⟩ => ⟨S_, .i32⟩
  | .hbm, ⟨27, _⟩ => ⟨S4x1024x1, .i32⟩
  | .hbm, ⟨28, _⟩ => ⟨S4x1024x1, .i1⟩
  | .hbm, ⟨29, _⟩ => ⟨S_, .i32⟩
  | .hbm, ⟨30, _⟩ => ⟨S4x1024x1, .i32⟩
  | .hbm, ⟨31, _⟩ => ⟨S4x1024x1, .i32⟩
  | .hbm, ⟨32, _⟩ => ⟨S4x1024x1, .i32⟩
  | .hbm, ⟨33, _⟩ => ⟨S4x1024x1x1, .i32⟩
  | .hbm, ⟨34, _⟩ => ⟨S1, .i32⟩
  | .hbm, ⟨35, _⟩ => ⟨S_, .i32⟩
  | .hbm, ⟨36, _⟩ => ⟨S4x1024x1x1, .i32⟩
  | .hbm, ⟨37, _⟩ => ⟨S4x1024x1x1, .i1⟩
  | .hbm, ⟨38, _⟩ => ⟨S1x1x1x1, .i32⟩
  | .hbm, ⟨39, _⟩ => ⟨S4x1024x1x1, .i32⟩
  | .hbm, ⟨40, _⟩ => ⟨S4x1024x1x1, .i1⟩
  | .hbm, ⟨41, _⟩ => ⟨S4x1024x1x1, .i1⟩
  | .hbm, ⟨42, _⟩ => ⟨S_, .i1⟩
  | .hbm, ⟨43, _⟩ => ⟨S4x1024x1, .i1⟩
  | .hbm, ⟨44, _⟩ => ⟨S4x1024x1, .f32⟩
  | .hbm, ⟨45, _⟩ => ⟨S_, .f32⟩
  | .hbm, ⟨46, _⟩ => ⟨S4x1024x1, .f32⟩
  | .hbm, ⟨47, _⟩ => ⟨S4x1024x1, .f32⟩
  | .hbm, ⟨48, _⟩ => ⟨S4x1024, .f32⟩
  | .hbm, ⟨49, _⟩ => ⟨S4x1024, .f32⟩
  | .hbm, ⟨50, _⟩ => ⟨S_, .f32⟩
  | .hbm, ⟨51, _⟩ => ⟨S4x1024, .f32⟩
  | .hbm, ⟨52, _⟩ => ⟨S4x1024, .f32⟩
  | .hbm, ⟨53, _⟩ => ⟨S4x1024, .f32⟩
  | .hbm, ⟨54, _⟩ => ⟨S4x1024, .f32⟩
  | .hbm, ⟨55, _⟩ => ⟨S4x1024x1, .f32⟩
  | .hbm, ⟨56, _⟩ => ⟨S4x1024x2049, .f32⟩
  | .hbm, ⟨57, _⟩ => ⟨S_, .f32⟩
  | .hbm, ⟨58, _⟩ => ⟨S4x2049, .f32⟩
  | .hbm, ⟨59, _⟩ => ⟨S_, .f32⟩
  | .hbm, ⟨60, _⟩ => ⟨S4x2049, .f32⟩
  | .hbm, ⟨61, _⟩ => ⟨S4x2049, .f32⟩
  | .hbm, ⟨62, _⟩ => ⟨S4x100, .f32⟩
  | .hbm, ⟨63, _⟩ => ⟨S1x100, .f32⟩
  | .hbm, ⟨64, _⟩ => ⟨S4x100, .f32⟩
  | .hbm, ⟨65, _⟩ => ⟨S4x100, .f32⟩
  | .hbm, ⟨66, _⟩ => ⟨S_, .f32⟩
  | .hbm, ⟨67, _⟩ => ⟨S_, .f32⟩
  | .hbm, ⟨68, _⟩ => ⟨S4x100, .f32⟩
  | .hbm, ⟨69, _⟩ => ⟨S4x100, .i1⟩
  | .hbm, ⟨70, _⟩ => ⟨S_, .f32⟩
  | .hbm, ⟨71, _⟩ => ⟨S4x100, .f32⟩
  | .hbm, ⟨72, _⟩ => ⟨S4x100, .f32⟩
  | .hbm, ⟨73, _⟩ => ⟨S4x100, .f32⟩
  | .hbm, ⟨74, _⟩ => ⟨S4x103, .f32⟩
  | .hbm, ⟨75, _⟩ => ⟨S4x5, .f32⟩
  | .hbm, ⟨76, _⟩ => ⟨S1x5, .f32⟩
  | .hbm, ⟨77, _⟩ => ⟨S4x5, .f32⟩
  | .hbm, ⟨78, _⟩ => ⟨S4x5, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v1 : Ref sig .tc := ⟨.hbm, 24, rfl⟩
abbrev main_v2 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_cst : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_cst_0 : Ref sig .tc := ⟨.hbm, 57, rfl⟩
abbrev main_v12 : Ref sig .tc := ⟨.hbm, 58, rfl⟩
abbrev main_cst_1 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_2 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩

abbrev nD : Nat := 1
abbrev τ : Topo := Topo.v7x

variable {F : FTy → Type} [FloatOps F]

class Facts₀ : Prop where
  reducesTo_S4x1024x32000_S4x1024_d2 : S4x1024x32000.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x32000_0_1_2 : S4x1024x1.BroadcastsInDim S4x1024x32000 (![0, 1, 2] : Fin 3 → Fin S4x1024x32000.rank)
  bcast_S_S4x1024x1 : S_.BroadcastsInDim S4x1024x1 (![] : Fin 0 → Fin S4x1024x1.rank)
  shapeCasts_S4x1024x1_S4x1024x1x1 : S4x1024x1.ShapeCasts S4x1024x1x1
  bcast_S_S4x1024x1x1 : S_.BroadcastsInDim S4x1024x1x1 (![] : Fin 0 → Fin S4x1024x1x1.rank)
  bcast_S1_S1x1x1x1_3 : S1.BroadcastsInDim S1x1x1x1 (![3] : Fin 1 → Fin S1x1x1x1.rank)
  bcast_S1x1x1x1_S4x1024x1x1_0_1_2_3 : S1x1x1x1.BroadcastsInDim S4x1024x1x1 (![0, 1, 2, 3] : Fin 4 → Fin S4x1024x1x1.rank)
  reducesTo_S4x1024x1x1_S4x1024x1_d3 : S4x1024x1x1.ReducesTo [3] S4x1024x1
  shapeCasts_S4x1024x1_S4x1024 : S4x1024x1.ShapeCasts S4x1024
  concatenates_S4x1024x2048_S4x1024x1_S4x1024x2049_d2 : Shape.Concatenates [S4x1024x2048, S4x1024x1] S4x1024x2049 2
  reducesTo_S4x1024x2049_S4x2049_d1 : S4x1024x2049.ReducesTo [1] S4x2049
  bcast_S_S4x2049 : S_.BroadcastsInDim S4x2049 (![] : Fin 0 → Fin S4x2049.rank)
  bcast_S100_S1x100_1 : S100.BroadcastsInDim S1x100 (![1] : Fin 1 → Fin S1x100.rank)
  bcast_S1x100_S4x100_0_1 : S1x100.BroadcastsInDim S4x100 (![0, 1] : Fin 2 → Fin S4x100.rank)
  bcast_S_S4x100 : S_.BroadcastsInDim S4x100 (![] : Fin 0 → Fin S4x100.rank)
  concatenates_S4x100_S4x3_S4x103_d1 : Shape.Concatenates [S4x100, S4x3] S4x103 1
  bcast_S5_S1x5_1 : S5.BroadcastsInDim S1x5 (![1] : Fin 1 → Fin S1x5.rank)
  bcast_S1x5_S4x5_0_1 : S1x5.BroadcastsInDim S4x5 (![0, 1] : Fin 2 → Fin S4x5.rank)
  dot_S4x1024x2048_S2048x32000_S4x1024x32000_2_0_01_1_n_n_wf : DotDims.WF S4x1024x2048 S2048x32000 S4x1024x32000 [2] [0] [0, 1] [1] [] []
  gather_S4x1024x32000_S4x1024x1x1_S4x1024x1_n_2_01_01_2_3_111_wf : GatherDims.WF S4x1024x32000 S4x1024x1x1 S4x1024x1 [] [2] [0, 1] [2] [0, 1] 3 ![1, 1, 1]
  dot_S4x2049_S2049x100_S4x100_1_0_0_1_n_n_wf : DotDims.WF S4x2049 S2049x100 S4x100 [1] [0] [0] [1] [] []
  dot_S4x103_S103x5_S4x5_1_0_0_1_n_n_wf : DotDims.WF S4x103 S103x5 S4x5 [1] [0] [0] [1] [] []

variable [Facts₀]

def dot_S4x1024x2048_S2048x32000_S4x1024x32000_2_0_01_1_n_n : DotDims S4x1024x2048 S2048x32000 S4x1024x32000 where
  lhsContracting := [2]
  rhsContracting := [0]
  lhsNonContracting := [0, 1]
  rhsNonContracting := [1]
  lhsBatch := []
  rhsBatch := []
  wf := dot_S4x1024x2048_S2048x32000_S4x1024x32000_2_0_01_1_n_n_wf
def gather_S4x1024x32000_S4x1024x1x1_S4x1024x1_n_2_01_01_2_3_111 : GatherDims S4x1024x32000 S4x1024x1x1 S4x1024x1 where
  offsetDims := []
  collapsedSliceDims := [2]
  operandBatchingDims := [0, 1]
  startIndicesBatchingDims := [0, 1]
  startIndexMap := [2]
  indexVectorDim := 3
  sliceSizes := ![1, 1, 1]
  wf := gather_S4x1024x32000_S4x1024x1x1_S4x1024x1_n_2_01_01_2_3_111_wf
def dot_S4x2049_S2049x100_S4x100_1_0_0_1_n_n : DotDims S4x2049 S2049x100 S4x100 where
  lhsContracting := [1]
  rhsContracting := [0]
  lhsNonContracting := [0]
  rhsNonContracting := [1]
  lhsBatch := []
  rhsBatch := []
  wf := dot_S4x2049_S2049x100_S4x100_1_0_0_1_n_n_wf
def dot_S4x103_S103x5_S4x5_1_0_0_1_n_n : DotDims S4x103 S103x5 S4x5 where
  lhsContracting := [1]
  rhsContracting := [0]
  lhsNonContracting := [0]
  rhsNonContracting := [1]
  lhsBatch := []
  rhsBatch := []
  wf := dot_S4x103_S103x5_S4x5_1_0_0_1_n_n_wf

class Facts : Prop extends Facts₀ where

variable [Facts]
-- ==== Proof.RefTerms.lean ====
/-
  The reference program's result as a composition of named pure stages of its argument arrays: the logits
  `hidden · lm_head_w`, the row-wise log-softmax (shift by the row maximum, subtract the log of the sum of
  exponentials), the token's log-probability picked by a gather along the vocabulary axis (a negative index
  wrapped once, an index still out of range answered by the fill value), the masked surprisal
  `(-logp / log 2) · mask`, its mean over the sequence beside the mean of the hidden states, and the small
  two-layer head.  Nothing is proved here; the stages are what the program's run is stated over.
-/
import proofs.«417803_j80221399155116_3_alg».proof.ReferenceIdeal

noncomputable section

namespace Cert.ReferenceIdeal.Terms

open Idealize.ShloMosaic Cert.ReferenceIdeal
open Cert.ReferenceIdeal.Facts₀ Cert.ReferenceIdeal.Facts

variable {F : FTy → Type} [FloatOps F] [Facts]

/-- `hidden · lm_head_w`: one logit per (batch, position, vocabulary entry). -/
def logits (a0 : FVec F S4x1024x2048 .f32) (a1 : FVec F S2048x32000 .f32) : FVec F S4x1024x32000 .f32 :=
  Host.dotGeneral dot_S4x1024x2048_S2048x32000_S4x1024x32000_2_0_01_1_n_n none a0 a1

/-- The row maximum over the vocabulary axis (the reduce from -inf, then the maximum with a -inf fill). -/
def rowMax (x : FVec F S4x1024x32000 .f32) : FVec F S4x1024 .f32 :=
  maximumf (broadcastInDim S4x1024 ![] bcast_S_S4x1024 (constant S_ .f32 0xFF800000#32))
    (Host.reduce FloatOps.maximumf x (constant S_ .f32 0xFF800000#32) reducesTo_S4x1024x32000_S4x1024_d2 h_S_)

/-- The logits shifted by their row maximum. -/
def shifted (x : FVec F S4x1024x32000 .f32) : FVec F S4x1024x32000 .f32 :=
  subf x (broadcastInDim S4x1024x32000 ![0, 1, 2] bcast_S4x1024x1_S4x1024x32000_0_1_2
    (broadcastInDim S4x1024x1 ![0, 1] bcast_S4x1024_S4x1024x1_0_1 (rowMax x)))

/-- The log of the row sum of the exponentials of the shifted logits, as a column. -/
def logSumExp (x : FVec F S4x1024x32000 .f32) : FVec F S4x1024x1 .f32 :=
  Host.log (broadcastInDim S4x1024x1 ![0, 1] bcast_S4x1024_S4x1024x1_0_1
    (Host.reduceAdd (Host.exp (shifted x)) (constant S_ .f32 0x00000000#32) reducesTo_S4x1024x32000_S4x1024_d2 h_S_))

/-- Row-wise log-softmax. -/
def logSoftmax (x : FVec F S4x1024x32000 .f32) : FVec F S4x1024x32000 .f32 :=
  subf (shifted x) (broadcastInDim S4x1024x32000 ![0, 1, 2] bcast_S4x1024x1_S4x1024x32000_0_1_2 (logSumExp x))

/-- The gather's start indices: a negative index has the axis length added once. -/
def takeIdx (i : IVec S4x1024x1 32) : IVec S4x1024x1x1 32 :=
  shapeCast S4x1024x1x1
    (select (cmpi .slt i (broadcastInDim S4x1024x1 ![] bcast_S_S4x1024x1 (constantI S_ 32 0#32)))
      (addi i (broadcastInDim S4x1024x1 ![] bcast_S_S4x1024x1 (constantI S_ 32 32000#32))) i)
    shapeCasts_S4x1024x1_S4x1024x1x1

/-- Whether a start index lies in `[0, 31999]`. -/
def takeOk (j : IVec S4x1024x1x1 32) : IVec S4x1024x1 1 :=
  Host.reduce IntOp.andi
    (andi (cmpi .sge j (broadcastInDim S4x1024x1x1 ![] bcast_S_S4x1024x1x1 (constantI S_ 32 0#32)))
      (cmpi .sle j (broadcastInDim S4x1024x1x1 ![0, 1, 2, 3] bcast_S1x1x1x1_S4x1024x1x1_0_1_2_3
        (broadcastInDim S1x1x1x1 ![3] bcast_S1_S1x1x1x1_3 (constantI S1 32 31999#32)))))
    (constantI S_ 1 1#1) reducesTo_S4x1024x1x1_S4x1024x1_d3 h_S_

/-- `take_along_axis` over the vocabulary axis, out-of-range indices answered by the fill pattern. -/
def takeAlong (lp : FVec F S4x1024x32000 .f32) (i : IVec S4x1024x1 32) : FVec F S4x1024x1 .f32 :=
  select (takeOk (takeIdx i))
    (Host.gather gather_S4x1024x32000_S4x1024x1x1_S4x1024x1_n_2_01_01_2_3_111 lp (takeIdx i))
    (broadcastInDim S4x1024x1 ![] bcast_S_S4x1024x1 (constant S_ .f32 0x7FC00000#32))

/-- The masked surprisal `(-logp[token] / log 2) · mask`, per (batch, position). -/
def surp (a0 : FVec F S4x1024x2048 .f32) (a1 : FVec F S2048x32000 .f32) (a2 a3 : IVec S4x1024 32) : FVec F S4x1024 .f32 :=
  mulf
    (Host.divf
      (Host.negf (shapeCast S4x1024
        (takeAlong (logSoftmax (logits a0 a1)) (broadcastInDim S4x1024x1 ![0, 1] bcast_S4x1024_S4x1024x1_0_1 a2))
        shapeCasts_S4x1024x1_S4x1024))
      (broadcastInDim S4x1024 ![] bcast_S_S4x1024 (constant S_ .f32 0x3F317218#32)))
    (sitofp .f32 a3)

/-- The mean over the sequence of the hidden states with the surprisal appended as one more feature. -/
def pooled (a0 : FVec F S4x1024x2048 .f32) (s : FVec F S4x1024 .f32) : FVec F S4x2049 .f32 :=
  Host.divf
    (Host.reduceAdd
      (concatenate S4x1024x2049 2 [⟨S4x1024x2048, a0⟩, ⟨S4x1024x1, broadcastInDim S4x1024x1 ![0, 1] bcast_S4x1024_S4x1024x1_0_1 s⟩]
        concatenates_S4x1024x2048_S4x1024x1_S4x1024x2049_d2)
      (constant S_ .f32 0x00000000#32) reducesTo_S4x1024x2049_S4x2049_d1 h_S_)
    (broadcastInDim S4x2049 ![] bcast_S_S4x2049 (constant S_ .f32 0x44800000#32))

/-- The first layer before its activation: `pooled · reducer_w + reducer_b`. -/
def pre (p : FVec F S4x2049 .f32) (a5 : FVec F S2049x100 .f32) (a6 : FVec F S100 .f32) : FVec F S4x100 .f32 :=
  addf (Host.dotGeneral dot_S4x2049_S2049x100_S4x100_1_0_0_1_n_n none p a5)
    (broadcastInDim S4x100 ![0, 1] bcast_S1x100_S4x100_0_1 (broadcastInDim S1x100 ![1] bcast_S100_S1x100_1 a6))

/-- The leaky rectifier with slope `0.01`. -/
def leaky (h : FVec F S4x100 .f32) : FVec F S4x100 .f32 :=
  select (cmpf .oge h (broadcastInDim S4x100 ![] bcast_S_S4x100 (constant S_ .f32 0x00000000#32))) h
    (mulf (broadcastInDim S4x100 ![] bcast_S_S4x100 (id (constant S_ .f32 0x3C23D70A#32))) h)

/-- The head: activation, the sentiment features appended, the classifier layer. -/
def tail (p : FVec F S4x2049 .f32) (a4 : FVec F S4x3 .f32) (a5 : FVec F S2049x100 .f32) (a6 : FVec F S100 .f32)
    (a7 : FVec F S103x5 .f32) (a8 : FVec F S5 .f32) : FVec F S4x5 .f32 :=
  addf
    (Host.dotGeneral dot_S4x103_S103x5_S4x5_1_0_0_1_n_n none
      (concatenate S4x103 1 [⟨S4x100, leaky (pre p a5 a6)⟩, ⟨S4x3, a4⟩] concatenates_S4x100_S4x3_S4x103_d1) a7)
    (broadcastInDim S4x5 ![0, 1] bcast_S1x5_S4x5_0_1 (broadcastInDim S1x5 ![1] bcast_S5_S1x5_1 a8))

/-- The program's result as a function of its nine argument arrays. -/
def out (a0 : FVec F S4x1024x2048 .f32) (a1 : FVec F S2048x32000 .f32) (a2 a3 : IVec S4x1024 32) (a4 : FVec F S4x3 .f32)
    (a5 : FVec F S2049x100 .f32) (a6 : FVec F S100 .f32) (a7 : FVec F S103x5 .f32) (a8 : FVec F S5 .f32) : FVec F S4x5 .f32 :=
  tail (pooled a0 (surp a0 a1 a2 a3)) a4 a5 a6 a7 a8

end Cert.ReferenceIdeal.Terms

end
-- ==== Proof.RefRun.lean ====
/-
  The reference program run: every weakly fair execution of its @main ends with the result buffer at the
  composition of the program's pure stages (`Terms.out`) of the argument arrays, and leaves the arguments as
  they were.  The program is one straight line of host operations once its four outlined functions are unfolded
  at their calls.
-/
import proofs.«417803_j80221399155116_3_alg».proof.Proof.RefTerms
import proofs.«417803_j80221399155116_3_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The logits' contraction and `log_softmax`'s fifteen operations: they end with the row-wise log-softmax of the logits. -/
abbrev ops1 : List (HloOp τ sig (Elt F)) :=
  [ binary main_arg0 main_arg1 main_v0 ((fun l r => Host.dotGeneral dot_S4x1024x2048_S2048x32000_S4x1024x32000_2_0_01_1_n_n none l r) : (⟨S4x1024x2048, .f32⟩ : BufTy).Contents (Elt F) → (⟨S2048x32000, .f32⟩ : BufTy).Contents (Elt F) → (⟨S4x1024x32000, .f32⟩ : BufTy).Contents (Elt F)),
    TRef.nullary main_call0.cst (constant S_ .f32 0xFF800000#32),
    TRef.binary (.of main_v0 : TRef sig ⟨S4x1024x32000, .f32⟩) main_call0.cst main_call0.v0 (fun x v => Host.reduce FloatOps.maximumf x v reducesTo_S4x1024x32000_S4x1024_d2 h_S_),
    TRef.nullary main_call0.cst_0 (constant S_ .f32 0xFF800000#32),
    TRef.unary main_call0.cst_0 main_call0.v1 (broadcastInDim S4x1024 ![] bcast_S_S4x1024),
    TRef.binary main_call0.v1 main_call0.v0 main_call0.v2 maximumf,
    TRef.unary main_call0.v2 main_call0.v3 (broadcastInDim S4x1024x1 ![0, 1] bcast_S4x1024_S4x1024x1_0_1),
    TRef.unary main_call0.v3 main_call0.v4 (broadcastInDim S4x1024x32000 ![0, 1, 2] bcast_S4x1024x1_S4x1024x32000_0_1_2),
    TRef.binary (.of main_v0 : TRef sig ⟨S4x1024x32000, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S4x1024x32000_S4x1024_d2 h_S_),
    TRef.unary main_call0.v7 main_call0.v8 (broadcastInDim S4x1024x1 ![0, 1] bcast_S4x1024_S4x1024x1_0_1),
    TRef.unary main_call0.v8 main_call0.v9 Host.log,
    TRef.unary main_call0.v9 main_call0.v10 (broadcastInDim S4x1024x32000 ![0, 1, 2] bcast_S4x1024x1_S4x1024x32000_0_1_2),
    TRef.binary main_call0.v5 main_call0.v10 main_call0.v11 subf ]

/-- The index's broadcast and `take_along_axis`'s twenty-two operations: they end with the picked log-probabilities. -/
abbrev ops2 : List (HloOp τ sig (Elt F)) :=
  [ unary main_arg2 main_v2 (broadcastInDim S4x1024x1 ![0, 1] bcast_S4x1024_S4x1024x1_0_1 : (⟨S4x1024, .i32⟩ : BufTy).Contents (Elt F) → (⟨S4x1024x1, .i32⟩ : BufTy).Contents (Elt F)),
    TRef.nullary main_call1.c (constantI S_ 32 0#32),
    TRef.unary main_call1.c main_call1.v0 (broadcastInDim S4x1024x1 ![] bcast_S_S4x1024x1),
    TRef.binary (.of main_v2 : TRef sig ⟨S4x1024x1, .i32⟩) main_call1.v0 main_call1.v1 (cmpi .slt),
    TRef.nullary main_call1.c_0 (constantI S_ 32 32000#32),
    TRef.unary main_call1.c_0 main_call1.v2 (broadcastInDim S4x1024x1 ![] bcast_S_S4x1024x1),
    TRef.binary (.of main_v2 : TRef sig ⟨S4x1024x1, .i32⟩) main_call1.v2 main_call1.v3 addi,
    TRef.ternary main_call1.v1 main_call1.v3 (.of main_v2 : TRef sig ⟨S4x1024x1, .i32⟩) main_call1.v4 select,
    TRef.reshape main_call1.v4 main_call1.v5 rfl shapeCasts_S4x1024x1_S4x1024x1x1,
    TRef.nullary main_call1.c_1 (constantI S1 32 31999#32),
    TRef.nullary main_call1.c_2 (constantI S_ 32 0#32),
    TRef.unary main_call1.c_2 main_call1.v6 (broadcastInDim S4x1024x1x1 ![] bcast_S_S4x1024x1x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S4x1024x1x1 ![0, 1, 2, 3] bcast_S1x1x1x1_S4x1024x1x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x1024x1x1_S4x1024x1_d3 h_S_),
    TRef.binary (.of main_v1 : TRef sig ⟨S4x1024x32000, .f32⟩) main_call1.v5 main_call1.v13 (fun x i => Host.gather gather_S4x1024x32000_S4x1024x1x1_S4x1024x1_n_2_01_01_2_3_111 x i),
    TRef.nullary main_call1.cst (constant S_ .f32 0x7FC00000#32),
    TRef.unary main_call1.cst main_call1.v14 (broadcastInDim S4x1024x1 ![] bcast_S_S4x1024x1),
    TRef.ternary main_call1.v12 main_call1.v13 main_call1.v14 main_call1.v15 select ]

/-- The reshape, the negation, the division by `log 2`, the mask's conversion and product, and the column broadcast: the masked surprisal as a column. -/
abbrev ops3 : List (HloOp τ sig (Elt F)) :=
  [ reshape main_v3 main_v4 rfl shapeCasts_S4x1024x1_S4x1024,
    unary main_v4 main_v5 (Host.negf : (⟨S4x1024, .f32⟩ : BufTy).Contents (Elt F) → (⟨S4x1024, .f32⟩ : BufTy).Contents (Elt F)),
    nullary main_cst (constant S_ .f32 0x3F317218#32),
    unary main_cst main_v6 (broadcastInDim S4x1024 ![] bcast_S_S4x1024 : (⟨S_, .f32⟩ : BufTy).Contents (Elt F) → (⟨S4x1024, .f32⟩ : BufTy).Contents (Elt F)),
    binary main_v5 main_v6 main_v7 (Host.divf : (⟨S4x1024, .f32⟩ : BufTy).Contents (Elt F) → (⟨S4x1024, .f32⟩ : BufTy).Contents (Elt F) → (⟨S4x1024, .f32⟩ : BufTy).Contents (Elt F)),
    unary main_arg3 main_v8 (sitofp (F := F) .f32 : (⟨S4x1024, .i32⟩ : BufTy).Contents (Elt F) → (⟨S4x1024, .f32⟩ : BufTy).Contents (Elt F)),
    binary main_v7 main_v8 main_v9 (mulf : (⟨S4x1024, .f32⟩ : BufTy).Contents (Elt F) → (⟨S4x1024, .f32⟩ : BufTy).Contents (Elt F) → (⟨S4x1024, .f32⟩ : BufTy).Contents (Elt F)),
    unary main_v9 main_v10 (broadcastInDim S4x1024x1 ![0, 1] bcast_S4x1024_S4x1024x1_0_1 : (⟨S4x1024, .f32⟩ : BufTy).Contents (Elt F) → (⟨S4x1024x1, .f32⟩ : BufTy).Contents (Elt F)) ]

/-- The concatenate with the hidden states, the mean over the sequence, the first layer and `leaky_relu`'s seven operations. -/
abbrev ops4 : List (HloOp τ sig (Elt F)) :=
  [ binary main_arg0 main_v10 main_v11 ((fun a b => concatenate S4x1024x2049 2 [⟨S4x1024x2048, a⟩, ⟨S4x1024x1, b⟩] concatenates_S4x1024x2048_S4x1024x1_S4x1024x2049_d2) : (⟨S4x1024x2048, .f32⟩ : BufTy).Contents (Elt F) → (⟨S4x1024x1, .f32⟩ : BufTy).Contents (Elt F) → (⟨S4x1024x2049, .f32⟩ : BufTy).Contents (Elt F)),
    nullary main_cst_0 (constant S_ .f32 0x00000000#32),
    binary main_v11 main_cst_0 main_v12 ((fun x v => Host.reduceAdd x v reducesTo_S4x1024x2049_S4x2049_d1 h_S_) : (⟨S4x1024x2049, .f32⟩ : BufTy).Contents (Elt F) → (⟨S_, .f32⟩ : BufTy).Contents (Elt F) → (⟨S4x2049, .f32⟩ : BufTy).Contents (Elt F)),
    nullary main_cst_1 (constant S_ .f32 0x44800000#32),
    unary main_cst_1 main_v13 (broadcastInDim S4x2049 ![] bcast_S_S4x2049 : (⟨S_, .f32⟩ : BufTy).Contents (Elt F) → (⟨S4x2049, .f32⟩ : BufTy).Contents (Elt F)),
    binary main_v12 main_v13 main_v14 (Host.divf : (⟨S4x2049, .f32⟩ : BufTy).Contents (Elt F) → (⟨S4x2049, .f32⟩ : BufTy).Contents (Elt F) → (⟨S4x2049, .f32⟩ : BufTy).Contents (Elt F)),
    binary main_v14 main_arg5 main_v15 ((fun l r => Host.dotGeneral dot_S4x2049_S2049x100_S4x100_1_0_0_1_n_n none l r) : (⟨S4x2049, .f32⟩ : BufTy).Contents (Elt F) → (⟨S2049x100, .f32⟩ : BufTy).Contents (Elt F) → (⟨S4x100, .f32⟩ : BufTy).Contents (Elt F)),
    unary main_arg6 main_v16 (broadcastInDim S1x100 ![1] bcast_S100_S1x100_1 : (⟨S100, .f32⟩ : BufTy).Contents (Elt F) → (⟨S1x100, .f32⟩ : BufTy).Contents (Elt F)),
    unary main_v16 main_v17 (broadcastInDim S4x100 ![0, 1] bcast_S1x100_S4x100_0_1 : (⟨S1x100, .f32⟩ : BufTy).Contents (Elt F) → (⟨S4x100, .f32⟩ : BufTy).Contents (Elt F)),
    binary main_v15 main_v17 main_v18 (addf : (⟨S4x100, .f32⟩ : BufTy).Contents (Elt F) → (⟨S4x100, .f32⟩ : BufTy).Contents (Elt F) → (⟨S4x100, .f32⟩ : BufTy).Contents (Elt F)),
    nullary main_cst_2 (constant S_ .f32 0x3C23D70A#32),
    TRef.nullary main_call2.cst (constant S_ .f32 0x00000000#32),
    TRef.unary main_call2.cst main_call2.v0 (broadcastInDim S4x100 ![] bcast_S_S4x100),
    TRef.binary (.of main_v18 : TRef sig ⟨S4x100, .f32⟩) main_call2.v0 main_call2.v1 (cmpf (F := F) .oge),
    TRef.unary (.of main_cst_2 : TRef sig ⟨S_, .f32⟩) main_call2.v2 id,
    TRef.unary main_call2.v2 main_call2.v3 (broadcastInDim S4x100 ![] bcast_S_S4x100),
    TRef.binary main_call2.v3 (.of main_v18 : TRef sig ⟨S4x100, .f32⟩) main_call2.v4 mulf,
    TRef.ternary main_call2.v1 (.of main_v18 : TRef sig ⟨S4x100, .f32⟩) main_call2.v4 main_call2.call0.v0 select ]

/-- The concatenate with the sentiment features and the classifier layer. -/
abbrev ops5 : List (HloOp τ sig (Elt F)) :=
  [ binary main_v19 main_arg4 main_v20 ((fun a b => concatenate S4x103 1 [⟨S4x100, a⟩, ⟨S4x3, b⟩] concatenates_S4x100_S4x3_S4x103_d1) : (⟨S4x100, .f32⟩ : BufTy).Contents (Elt F) → (⟨S4x3, .f32⟩ : BufTy).Contents (Elt F) → (⟨S4x103, .f32⟩ : BufTy).Contents (Elt F)),
    binary main_v20 main_arg7 main_v21 ((fun l r => Host.dotGeneral dot_S4x103_S103x5_S4x5_1_0_0_1_n_n none l r) : (⟨S4x103, .f32⟩ : BufTy).Contents (Elt F) → (⟨S103x5, .f32⟩ : BufTy).Contents (Elt F) → (⟨S4x5, .f32⟩ : BufTy).Contents (Elt F)),
    unary main_arg8 main_v22 (broadcastInDim S1x5 ![1] bcast_S5_S1x5_1 : (⟨S5, .f32⟩ : BufTy).Contents (Elt F) → (⟨S1x5, .f32⟩ : BufTy).Contents (Elt F)),
    unary main_v22 main_v23 (broadcastInDim S4x5 ![0, 1] bcast_S1x5_S4x5_0_1 : (⟨S1x5, .f32⟩ : BufTy).Contents (Elt F) → (⟨S4x5, .f32⟩ : BufTy).Contents (Elt F)),
    binary main_v21 main_v23 main_v24 (addf : (⟨S4x5, .f32⟩ : BufTy).Contents (Elt F) → (⟨S4x5, .f32⟩ : BufTy).Contents (Elt F) → (⟨S4x5, .f32⟩ : BufTy).Contents (Elt F)) ]

/-! ## The stages between the cuts, over typed arrays -/

/-- The log-softmax of the logits. -/
def stage1 (a0 : FVec F S4x1024x2048 .f32) (a1 : FVec F S2048x32000 .f32) : FVec F S4x1024x32000 .f32 :=
  Terms.logSoftmax (Terms.logits a0 a1)

/-- The log-probabilities picked along the vocabulary axis by the token ids. -/
def stage2 (lp : FVec F S4x1024x32000 .f32) (a2 : IVec S4x1024 32) : FVec F S4x1024x1 .f32 :=
  Terms.takeAlong lp (broadcastInDim S4x1024x1 ![0, 1] bcast_S4x1024_S4x1024x1_0_1 a2)

/-- The masked surprisal `(-t / log 2) · mask`, as a column. -/
def stage3 (t : FVec F S4x1024x1 .f32) (a3 : IVec S4x1024 32) : FVec F S4x1024x1 .f32 :=
  broadcastInDim S4x1024x1 ![0, 1] bcast_S4x1024_S4x1024x1_0_1
    (mulf
      (Host.divf (Host.negf (shapeCast S4x1024 t shapeCasts_S4x1024x1_S4x1024))
        (broadcastInDim S4x1024 ![] bcast_S_S4x1024 (constant S_ .f32 0x3F317218#32)))
      (sitofp (F := F) .f32 a3))

/-- The mean over the sequence of the hidden states with the column `b` appended, through the first layer and its
    activation. -/
def stage4 (a0 : FVec F S4x1024x2048 .f32) (b : FVec F S4x1024x1 .f32) (a5 : FVec F S2049x100 .f32) (a6 : FVec F S100 .f32) :
    FVec F S4x100 .f32 :=
  Terms.leaky (Terms.pre
    (Host.divf
      (Host.reduceAdd
        (concatenate S4x1024x2049 2 [⟨S4x1024x2048, a0⟩, ⟨S4x1024x1, b⟩] concatenates_S4x1024x2048_S4x1024x1_S4x1024x2049_d2)
        (constant S_ .f32 0x00000000#32) reducesTo_S4x1024x2049_S4x2049_d1 h_S_)
      (broadcastInDim S4x2049 ![] bcast_S_S4x2049 (constant S_ .f32 0x44800000#32)))
    a5 a6)

/-- The classifier layer over the activations `l` with the sentiment features appended. -/
def stage5 (l : FVec F S4x100 .f32) (a4 : FVec F S4x3 .f32) (a7 : FVec F S103x5 .f32) (a8 : FVec F S5 .f32) : FVec F S4x5 .f32 :=
  addf
    (Host.dotGeneral dot_S4x103_S103x5_S4x5_1_0_0_1_n_n none
      (concatenate S4x103 1 [⟨S4x100, l⟩, ⟨S4x3, a4⟩] concatenates_S4x100_S4x3_S4x103_d1) a7)
    (broadcastInDim S4x5 ![0, 1] bcast_S1x5_S4x5_0_1 (broadcastInDim S1x5 ![1] bcast_S5_S1x5_1 a8))

/-! ## Typed references' transports

A typed reference moves contents between the value's type and its buffer's along `ty_eq`. Written and read back
through the same reference the two transports cancel; at a literal reference each is the identity. They are removed
by rewriting before two stages are compared, so that no comparison ever looks through a transport at a reduction. -/

theorem ofBuf_toBuf {Val : EltTy → Type} {T : BufTy} (x : TRef sig T) (v : T.Contents Val) : x.ofBuf (x.toBuf v) = v := by
  obtain ⟨r, h, _, _⟩ := x
  subst h
  rfl

theorem ofBuf_v0 (p q r) (v : (⟨S4x1024x32000, .f32⟩ : BufTy).Contents (Elt F)) :
    (TRef.of main_v0 p q r : TRef sig ⟨S4x1024x32000, .f32⟩).ofBuf v = v := rfl
theorem toBuf_v1 (p q r) (v : (⟨S4x1024x32000, .f32⟩ : BufTy).Contents (Elt F)) :
    (TRef.of main_v1 p q r : TRef sig ⟨S4x1024x32000, .f32⟩).toBuf v = v := rfl

/-! ## Each chunk's result, over any contents before it -/

theorem val1 (W : Valuation τ sig (Elt F)) :
    after ops1 W (main_v1 : DevRef τ sig) = stage1 (W (main_arg0 : DevRef τ sig)) (W (main_arg1 : DevRef τ sig)) := by
  after_results_simp
  rw [toBuf_v1]
  repeat rw [ofBuf_toBuf]
  repeat rw [ofBuf_v0]
  rfl

theorem val2 (W : Valuation τ sig (Elt F)) :
    after ops2 W (main_v3 : DevRef τ sig) = stage2 (W (main_v1 : DevRef τ sig)) (W (main_arg2 : DevRef τ sig)) := by
  after_results_simp
  rfl

theorem val3 (W : Valuation τ sig (Elt F)) :
    after ops3 W (main_v10 : DevRef τ sig) = stage3 (W (main_v3 : DevRef τ sig)) (W (main_arg3 : DevRef τ sig)) := by
  after_results_simp
  rfl

theorem val4 (W : Valuation τ sig (Elt F)) :
    after ops4 W (main_v19 : DevRef τ sig) = stage4 (W (main_arg0 : DevRef τ sig)) (W (main_v10 : DevRef τ sig)) (W (main_arg5 : DevRef τ sig)) (W (main_arg6 : DevRef τ sig)) := by
  after_results_simp
  rfl

theorem val5 (W : Valuation τ sig (Elt F)) :
    after ops5 W (main_v24 : DevRef τ sig) = stage5 (W (main_v19 : DevRef τ sig)) (W (main_arg4 : DevRef τ sig)) (W (main_arg7 : DevRef τ sig)) (W (main_arg8 : DevRef τ sig)) := by
  after_results_simp
  rfl

/-! ## The arguments a chunk leaves as they were (those read after it) -/

theorem fr1_arg0 (W : Valuation τ sig (Elt F)) : after ops1 W (main_arg0 : DevRef τ sig) = W (main_arg0 : DevRef τ sig) := by
  after_results_simp
theorem fr1_arg2 (W : Valuation τ sig (Elt F)) : after ops1 W (main_arg2 : DevRef τ sig) = W (main_arg2 : DevRef τ sig) := by
  after_results_simp
theorem fr1_arg3 (W : Valuation τ sig (Elt F)) : after ops1 W (main_arg3 : DevRef τ sig) = W (main_arg3 : DevRef τ sig) := by
  after_results_simp
theorem fr1_arg4 (W : Valuation τ sig (Elt F)) : after ops1 W (main_arg4 : DevRef τ sig) = W (main_arg4 : DevRef τ sig) := by
  after_results_simp
theorem fr1_arg5 (W : Valuation τ sig (Elt F)) : after ops1 W (main_arg5 : DevRef τ sig) = W (main_arg5 : DevRef τ sig) := by
  after_results_simp
theorem fr1_arg6 (W : Valuation τ sig (Elt F)) : after ops1 W (main_arg6 : DevRef τ sig) = W (main_arg6 : DevRef τ sig) := by
  after_results_simp
theorem fr1_arg7 (W : Valuation τ sig (Elt F)) : after ops1 W (main_arg7 : DevRef τ sig) = W (main_arg7 : DevRef τ sig) := by
  after_results_simp
theorem fr1_arg8 (W : Valuation τ sig (Elt F)) : after ops1 W (main_arg8 : DevRef τ sig) = W (main_arg8 : DevRef τ sig) := by
  after_results_simp
theorem fr2_arg0 (W : Valuation τ sig (Elt F)) : after ops2 W (main_arg0 : DevRef τ sig) = W (main_arg0 : DevRef τ sig) := by
  after_results_simp
theorem fr2_arg3 (W : Valuation τ sig (Elt F)) : after ops2 W (main_arg3 : DevRef τ sig) = W (main_arg3 : DevRef τ sig) := by
  after_results_simp
theorem fr2_arg4 (W : Valuation τ sig (Elt F)) : after ops2 W (main_arg4 : DevRef τ sig) = W (main_arg4 : DevRef τ sig) := by
  after_results_simp
theorem fr2_arg5 (W : Valuation τ sig (Elt F)) : after ops2 W (main_arg5 : DevRef τ sig) = W (main_arg5 : DevRef τ sig) := by
  after_results_simp
theorem fr2_arg6 (W : Valuation τ sig (Elt F)) : after ops2 W (main_arg6 : DevRef τ sig) = W (main_arg6 : DevRef τ sig) := by
  after_results_simp
theorem fr2_arg7 (W : Valuation τ sig (Elt F)) : after ops2 W (main_arg7 : DevRef τ sig) = W (main_arg7 : DevRef τ sig) := by
  after_results_simp
theorem fr2_arg8 (W : Valuation τ sig (Elt F)) : after ops2 W (main_arg8 : DevRef τ sig) = W (main_arg8 : DevRef τ sig) := by
  after_results_simp
theorem fr3_arg0 (W : Valuation τ sig (Elt F)) : after ops3 W (main_arg0 : DevRef τ sig) = W (main_arg0 : DevRef τ sig) := by
  after_results_simp
theorem fr3_arg4 (W : Valuation τ sig (Elt F)) : after ops3 W (main_arg4 : DevRef τ sig) = W (main_arg4 : DevRef τ sig) := by
  after_results_simp
theorem fr3_arg5 (W : Valuation τ sig (Elt F)) : after ops3 W (main_arg5 : DevRef τ sig) = W (main_arg5 : DevRef τ sig) := by
  after_results_simp
theorem fr3_arg6 (W : Valuation τ sig (Elt F)) : after ops3 W (main_arg6 : DevRef τ sig) = W (main_arg6 : DevRef τ sig) := by
  after_results_simp
theorem fr3_arg7 (W : Valuation τ sig (Elt F)) : after ops3 W (main_arg7 : DevRef τ sig) = W (main_arg7 : DevRef τ sig) := by
  after_results_simp
theorem fr3_arg8 (W : Valuation τ sig (Elt F)) : after ops3 W (main_arg8 : DevRef τ sig) = W (main_arg8 : DevRef τ sig) := by
  after_results_simp
theorem fr4_arg4 (W : Valuation τ sig (Elt F)) : after ops4 W (main_arg4 : DevRef τ sig) = W (main_arg4 : DevRef τ sig) := by
  after_results_simp
theorem fr4_arg7 (W : Valuation τ sig (Elt F)) : after ops4 W (main_arg7 : DevRef τ sig) = W (main_arg7 : DevRef τ sig) := by
  after_results_simp
theorem fr4_arg8 (W : Valuation τ sig (Elt F)) : after ops4 W (main_arg8 : DevRef τ sig) = W (main_arg8 : DevRef τ sig) := by
  after_results_simp

/-! ## The whole line -/

/-- @main's seventy operations in order, the calls unfolded: the five chunks one after the other. -/
abbrev ops : List (HloOp τ sig (Elt F)) :=
  [ binary main_arg0 main_arg1 main_v0 ((fun l r => Host.dotGeneral dot_S4x1024x2048_S2048x32000_S4x1024x32000_2_0_01_1_n_n none l r) : (⟨S4x1024x2048, .f32⟩ : BufTy).Contents (Elt F) → (⟨S2048x32000, .f32⟩ : BufTy).Contents (Elt F) → (⟨S4x1024x32000, .f32⟩ : BufTy).Contents (Elt F)),
    TRef.nullary main_call0.cst (constant S_ .f32 0xFF800000#32),
    TRef.binary (.of main_v0 : TRef sig ⟨S4x1024x32000, .f32⟩) main_call0.cst main_call0.v0 (fun x v => Host.reduce FloatOps.maximumf x v reducesTo_S4x1024x32000_S4x1024_d2 h_S_),
    TRef.nullary main_call0.cst_0 (constant S_ .f32 0xFF800000#32),
    TRef.unary main_call0.cst_0 main_call0.v1 (broadcastInDim S4x1024 ![] bcast_S_S4x1024),
    TRef.binary main_call0.v1 main_call0.v0 main_call0.v2 maximumf,
    TRef.unary main_call0.v2 main_call0.v3 (broadcastInDim S4x1024x1 ![0, 1] bcast_S4x1024_S4x1024x1_0_1),
    TRef.unary main_call0.v3 main_call0.v4 (broadcastInDim S4x1024x32000 ![0, 1, 2] bcast_S4x1024x1_S4x1024x32000_0_1_2),
    TRef.binary (.of main_v0 : TRef sig ⟨S4x1024x32000, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S4x1024x32000_S4x1024_d2 h_S_),
    TRef.unary main_call0.v7 main_call0.v8 (broadcastInDim S4x1024x1 ![0, 1] bcast_S4x1024_S4x1024x1_0_1),
    TRef.unary main_call0.v8 main_call0.v9 Host.log,
    TRef.unary main_call0.v9 main_call0.v10 (broadcastInDim S4x1024x32000 ![0, 1, 2] bcast_S4x1024x1_S4x1024x32000_0_1_2),
    TRef.binary main_call0.v5 main_call0.v10 main_call0.v11 subf,
    unary main_arg2 main_v2 (broadcastInDim S4x1024x1 ![0, 1] bcast_S4x1024_S4x1024x1_0_1 : (⟨S4x1024, .i32⟩ : BufTy).Contents (Elt F) → (⟨S4x1024x1, .i32⟩ : BufTy).Contents (Elt F)),
    TRef.nullary main_call1.c (constantI S_ 32 0#32),
    TRef.unary main_call1.c main_call1.v0 (broadcastInDim S4x1024x1 ![] bcast_S_S4x1024x1),
    TRef.binary (.of main_v2 : TRef sig ⟨S4x1024x1, .i32⟩) main_call1.v0 main_call1.v1 (cmpi .slt),
    TRef.nullary main_call1.c_0 (constantI S_ 32 32000#32),
    TRef.unary main_call1.c_0 main_call1.v2 (broadcastInDim S4x1024x1 ![] bcast_S_S4x1024x1),
    TRef.binary (.of main_v2 : TRef sig ⟨S4x1024x1, .i32⟩) main_call1.v2 main_call1.v3 addi,
    TRef.ternary main_call1.v1 main_call1.v3 (.of main_v2 : TRef sig ⟨S4x1024x1, .i32⟩) main_call1.v4 select,
    TRef.reshape main_call1.v4 main_call1.v5 rfl shapeCasts_S4x1024x1_S4x1024x1x1,
    TRef.nullary main_call1.c_1 (constantI S1 32 31999#32),
    TRef.nullary main_call1.c_2 (constantI S_ 32 0#32),
    TRef.unary main_call1.c_2 main_call1.v6 (broadcastInDim S4x1024x1x1 ![] bcast_S_S4x1024x1x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S4x1024x1x1 ![0, 1, 2, 3] bcast_S1x1x1x1_S4x1024x1x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x1024x1x1_S4x1024x1_d3 h_S_),
    TRef.binary (.of main_v1 : TRef sig ⟨S4x1024x32000, .f32⟩) main_call1.v5 main_call1.v13 (fun x i => Host.gather gather_S4x1024x32000_S4x1024x1x1_S4x1024x1_n_2_01_01_2_3_111 x i),
    TRef.nullary main_call1.cst (constant S_ .f32 0x7FC00000#32),
    TRef.unary main_call1.cst main_call1.v14 (broadcastInDim S4x1024x1 ![] bcast_S_S4x1024x1),
    TRef.ternary main_call1.v12 main_call1.v13 main_call1.v14 main_call1.v15 select,
    reshape main_v3 main_v4 rfl shapeCasts_S4x1024x1_S4x1024,
    unary main_v4 main_v5 (Host.negf : (⟨S4x1024, .f32⟩ : BufTy).Contents (Elt F) → (⟨S4x1024, .f32⟩ : BufTy).Contents (Elt F)),
    nullary main_cst (constant S_ .f32 0x3F317218#32),
    unary main_cst main_v6 (broadcastInDim S4x1024 ![] bcast_S_S4x1024 : (⟨S_, .f32⟩ : BufTy).Contents (Elt F) → (⟨S4x1024, .f32⟩ : BufTy).Contents (Elt F)),
    binary main_v5 main_v6 main_v7 (Host.divf : (⟨S4x1024, .f32⟩ : BufTy).Contents (Elt F) → (⟨S4x1024, .f32⟩ : BufTy).Contents (Elt F) → (⟨S4x1024, .f32⟩ : BufTy).Contents (Elt F)),
    unary main_arg3 main_v8 (sitofp (F := F) .f32 : (⟨S4x1024, .i32⟩ : BufTy).Contents (Elt F) → (⟨S4x1024, .f32⟩ : BufTy).Contents (Elt F)),
    binary main_v7 main_v8 main_v9 (mulf : (⟨S4x1024, .f32⟩ : BufTy).Contents (Elt F) → (⟨S4x1024, .f32⟩ : BufTy).Contents (Elt F) → (⟨S4x1024, .f32⟩ : BufTy).Contents (Elt F)),
    unary main_v9 main_v10 (broadcastInDim S4x1024x1 ![0, 1] bcast_S4x1024_S4x1024x1_0_1 : (⟨S4x1024, .f32⟩ : BufTy).Contents (Elt F) → (⟨S4x1024x1, .f32⟩ : BufTy).Contents (Elt F)),
    binary main_arg0 main_v10 main_v11 ((fun a b => concatenate S4x1024x2049 2 [⟨S4x1024x2048, a⟩, ⟨S4x1024x1, b⟩] concatenates_S4x1024x2048_S4x1024x1_S4x1024x2049_d2) : (⟨S4x1024x2048, .f32⟩ : BufTy).Contents (Elt F) → (⟨S4x1024x1, .f32⟩ : BufTy).Contents (Elt F) → (⟨S4x1024x2049, .f32⟩ : BufTy).Contents (Elt F)),
    nullary main_cst_0 (constant S_ .f32 0x00000000#32),
    binary main_v11 main_cst_0 main_v12 ((fun x v => Host.reduceAdd x v reducesTo_S4x1024x2049_S4x2049_d1 h_S_) : (⟨S4x1024x2049, .f32⟩ : BufTy).Contents (Elt F) → (⟨S_, .f32⟩ : BufTy).Contents (Elt F) → (⟨S4x2049, .f32⟩ : BufTy).Contents (Elt F)),
    nullary main_cst_1 (constant S_ .f32 0x44800000#32),
    unary main_cst_1 main_v13 (broadcastInDim S4x2049 ![] bcast_S_S4x2049 : (⟨S_, .f32⟩ : BufTy).Contents (Elt F) → (⟨S4x2049, .f32⟩ : BufTy).Contents (Elt F)),
    binary main_v12 main_v13 main_v14 (Host.divf : (⟨S4x2049, .f32⟩ : BufTy).Contents (Elt F) → (⟨S4x2049, .f32⟩ : BufTy).Contents (Elt F) → (⟨S4x2049, .f32⟩ : BufTy).Contents (Elt F)),
    binary main_v14 main_arg5 main_v15 ((fun l r => Host.dotGeneral dot_S4x2049_S2049x100_S4x100_1_0_0_1_n_n none l r) : (⟨S4x2049, .f32⟩ : BufTy).Contents (Elt F) → (⟨S2049x100, .f32⟩ : BufTy).Contents (Elt F) → (⟨S4x100, .f32⟩ : BufTy).Contents (Elt F)),
    unary main_arg6 main_v16 (broadcastInDim S1x100 ![1] bcast_S100_S1x100_1 : (⟨S100, .f32⟩ : BufTy).Contents (Elt F) → (⟨S1x100, .f32⟩ : BufTy).Contents (Elt F)),
    unary main_v16 main_v17 (broadcastInDim S4x100 ![0, 1] bcast_S1x100_S4x100_0_1 : (⟨S1x100, .f32⟩ : BufTy).Contents (Elt F) → (⟨S4x100, .f32⟩ : BufTy).Contents (Elt F)),
    binary main_v15 main_v17 main_v18 (addf : (⟨S4x100, .f32⟩ : BufTy).Contents (Elt F) → (⟨S4x100, .f32⟩ : BufTy).Contents (Elt F) → (⟨S4x100, .f32⟩ : BufTy).Contents (Elt F)),
    nullary main_cst_2 (constant S_ .f32 0x3C23D70A#32),
    TRef.nullary main_call2.cst (constant S_ .f32 0x00000000#32),
    TRef.unary main_call2.cst main_call2.v0 (broadcastInDim S4x100 ![] bcast_S_S4x100),
    TRef.binary (.of main_v18 : TRef sig ⟨S4x100, .f32⟩) main_call2.v0 main_call2.v1 (cmpf (F := F) .oge),
    TRef.unary (.of main_cst_2 : TRef sig ⟨S_, .f32⟩) main_call2.v2 id,
    TRef.unary main_call2.v2 main_call2.v3 (broadcastInDim S4x100 ![] bcast_S_S4x100),
    TRef.binary main_call2.v3 (.of main_v18 : TRef sig ⟨S4x100, .f32⟩) main_call2.v4 mulf,
    TRef.ternary main_call2.v1 (.of main_v18 : TRef sig ⟨S4x100, .f32⟩) main_call2.v4 main_call2.call0.v0 select,
    binary main_v19 main_arg4 main_v20 ((fun a b => concatenate S4x103 1 [⟨S4x100, a⟩, ⟨S4x3, b⟩] concatenates_S4x100_S4x3_S4x103_d1) : (⟨S4x100, .f32⟩ : BufTy).Contents (Elt F) → (⟨S4x3, .f32⟩ : BufTy).Contents (Elt F) → (⟨S4x103, .f32⟩ : BufTy).Contents (Elt F)),
    binary main_v20 main_arg7 main_v21 ((fun l r => Host.dotGeneral dot_S4x103_S103x5_S4x5_1_0_0_1_n_n none l r) : (⟨S4x103, .f32⟩ : BufTy).Contents (Elt F) → (⟨S103x5, .f32⟩ : BufTy).Contents (Elt F) → (⟨S4x5, .f32⟩ : BufTy).Contents (Elt F)),
    unary main_arg8 main_v22 (broadcastInDim S1x5 ![1] bcast_S5_S1x5_1 : (⟨S5, .f32⟩ : BufTy).Contents (Elt F) → (⟨S1x5, .f32⟩ : BufTy).Contents (Elt F)),
    unary main_v22 main_v23 (broadcastInDim S4x5 ![0, 1] bcast_S1x5_S4x5_0_1 : (⟨S1x5, .f32⟩ : BufTy).Contents (Elt F) → (⟨S4x5, .f32⟩ : BufTy).Contents (Elt F)),
    binary main_v21 main_v23 main_v24 (addf : (⟨S4x5, .f32⟩ : BufTy).Contents (Elt F) → (⟨S4x5, .f32⟩ : BufTy).Contents (Elt F) → (⟨S4x5, .f32⟩ : BufTy).Contents (Elt F)) ]

theorem ops_split : (ops : List (HloOp τ sig (Elt F))) = ops1 ++ (ops2 ++ (ops3 ++ (ops4 ++ ops5))) := rfl

/-- @main is that straight line: the functions' definitions unfolded at their calls and the records at their
    fields, both sides compute to one chain of `hlo` steps (sequencing reassociates by computation). -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub .., reshape_bufs_sub .., unary_bufs_sub .., nullary_bufs_sub ..,
    unary_bufs_sub .., binary_bufs_sub .., unary_bufs_sub .., binary_bufs_sub .., unary_bufs_sub .., binary_bufs_sub ..,
    nullary_bufs_sub .., binary_bufs_sub .., nullary_bufs_sub .., unary_bufs_sub .., binary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    binary_bufs_sub .., unary_bufs_sub .., unary_bufs_sub .., binary_bufs_sub ..⟩

/-- The result buffer after the whole line: each chunk's result read at the contents the chunks before it leave,
    the arguments carried through the chunks that do not write them; what is left is `Terms.out` with its stages
    unfolded at the cuts. -/
theorem out_eq (V : Valuation τ sig (Elt F)) :
    after ops V (main_v24 : DevRef τ sig) = Terms.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [ops_split, after_append, after_append, after_append, after_append,
    val5, fr4_arg4, fr3_arg4, fr2_arg4, fr1_arg4, fr4_arg7, fr3_arg7, fr2_arg7, fr1_arg7, fr4_arg8, fr3_arg8, fr2_arg8, fr1_arg8,
    val4, fr3_arg0, fr2_arg0, fr1_arg0, fr3_arg5, fr2_arg5, fr1_arg5, fr3_arg6, fr2_arg6, fr1_arg6,
    val3, fr2_arg3, fr1_arg3,
    val2, fr1_arg2,
    val1]
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp
theorem arg8_eq (V : Valuation τ sig (Elt F)) : after ops V (main_arg8 : DevRef τ sig) = V (main_arg8 : DevRef τ sig) := by
  after_results_simp

/-- On every device, for any float values, from any memory with zero counters: every weakly fair execution of
    @main terminates with the result at `Terms.out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = Terms.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v24).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.RefRun

end
-- ==== Proof.KerPieces.lean ====
/-
  What each control case of the kernel body leaves in the three carried scratch rows and in the output block, as
  the body's arithmetic of what it found: at a row block's first point the scratch is reset (running maximum to
  the finite floor, running sum and running pick to zero) before the update; at every point the update maps the
  found maximum, sum and pick to the new ones over the point's logits tile; at the last point the block's result
  is computed from the updated scratch and the mask column.
-/
import proofs.«417803_j80221399155116_3_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a row block's first point: the running maximum after the update, over the reset values. -/
theorem sA0 (c : Dev nD) (i : grid0.Coords) (arg2 : Memref sig .tc .vmem S1024x2048 .bf16) (harg2 : arg2.IsWhole) (arg3 : Memref sig .tc .vmem S2048x1280 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S2048x1280 .bf16) (x2 : Vec F S1024x1 .i32) (x3 : Vec F S1024x1 .f32) :
    sout0_A_0 c i arg2 harg2 arg3 harg3 arg4 harg4 arg5 harg5 arg6 harg6 arg7 harg7 arg8 harg8 arg9 harg9 hc0 hc1 x0 x1 x2 x3
      = k0_pay2 (k0_pay9 x0 x1 k0_pay4) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz2]
  simp only [View.readAt_eq_ld, harg2.read_unread, harg3.read_unread, harg4.read_unread, harg5.read_unread, harg7.read_unread, harg8.read_unread, harg9.read_unread, View.ld_unit_zero (S := S1024x1) hz2, View.ld_unit_zero (S := S1024x2048) hz2, View.ld_unit_zero (S := S2048x1280) hz2, View.readCov_unit_zero (S := S1024x1) _ hz2]

/-- At a row block's first point: the running sum after the update, over the reset values. -/
theorem sA1 (c : Dev nD) (i : grid0.Coords) (arg2 : Memref sig .tc .vmem S1024x2048 .bf16) (harg2 : arg2.IsWhole) (arg3 : Memref sig .tc .vmem S2048x1280 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S2048x1280 .bf16) (x2 : Vec F S1024x1 .i32) (x3 : Vec F S1024x1 .f32) :
    sout0_A_1 c i arg2 harg2 arg3 harg3 arg4 harg4 arg5 harg5 arg6 harg6 arg7 harg7 arg8 harg8 arg9 harg9 hc0 hc1 x0 x1 x2 x3
      = k0_pay10 x0 x1 k0_pay4 k0_pay4 k0_pay5 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz2]
  simp only [View.readAt_eq_ld, harg2.read_unread, harg3.read_unread, harg4.read_unread, harg5.read_unread, harg7.read_unread, harg8.read_unread, harg9.read_unread, View.ld_unit_zero (S := S1024x1) hz2, View.ld_unit_zero (S := S1024x2048) hz2, View.ld_unit_zero (S := S2048x1280) hz2, View.readCov_unit_zero (S := S1024x1) _ hz2]

/-- At a row block's first point: the running pick after the update, over the reset values. -/
theorem sA2 (c : Dev nD) (i : grid0.Coords) (arg2 : Memref sig .tc .vmem S1024x2048 .bf16) (harg2 : arg2.IsWhole) (arg3 : Memref sig .tc .vmem S2048x1280 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S2048x1280 .bf16) (x2 : Vec F S1024x1 .i32) (x3 : Vec F S1024x1 .f32) :
    sout0_A_2 c i arg2 harg2 arg3 harg3 arg4 harg4 arg5 harg5 arg6 harg6 arg7 harg7 arg8 harg8 arg9 harg9 hc0 hc1 x0 x1 x2 x3
      = k0_pay1 (k0_pay7 x0 x1) (k0_pay8 i x2) k0_pay6 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz2]
  simp only [View.readAt_eq_ld, harg2.read_unread, harg3.read_unread, harg4.read_unread, harg5.read_unread, harg7.read_unread, harg8.read_unread, harg9.read_unread, View.ld_unit_zero (S := S1024x1) hz2, View.ld_unit_zero (S := S1024x2048) hz2, View.ld_unit_zero (S := S2048x1280) hz2, View.readCov_unit_zero (S := S1024x1) _ hz2]

/-- At a middle point: the running maximum after the update, over what the point before left. -/
theorem sB0 (c : Dev nD) (i : grid0.Coords) (arg2 : Memref sig .tc .vmem S1024x2048 .bf16) (harg2 : arg2.IsWhole) (arg3 : Memref sig .tc .vmem S2048x1280 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S2048x1280 .bf16) (x2 : Vec F S1024x1 .i32) (x3 : Vec F S1024x1 .f32) (xs0 xs1 xs2 : Vec F S1024x1 .f32) :
    sout0_B_0 c i arg2 harg2 arg3 harg3 arg4 harg4 arg5 harg5 arg6 harg6 arg7 harg7 arg8 harg8 arg9 harg9 hc0 hc1 x0 x1 x2 x3 xs0 xs1 xs2
      = k0_pay2 (k0_pay9 x0 x1 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1024x1) hz2, View.ld_unit_zero (S := S1024x2048) hz2, View.ld_unit_zero (S := S2048x1280) hz2, View.readCov_unit_zero (S := S1024x1) _ hz2]

/-- At a middle point: the running sum after the update, over what the point before left. -/
theorem sB1 (c : Dev nD) (i : grid0.Coords) (arg2 : Memref sig .tc .vmem S1024x2048 .bf16) (harg2 : arg2.IsWhole) (arg3 : Memref sig .tc .vmem S2048x1280 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S2048x1280 .bf16) (x2 : Vec F S1024x1 .i32) (x3 : Vec F S1024x1 .f32) (xs0 xs1 xs2 : Vec F S1024x1 .f32) :
    sout0_B_1 c i arg2 harg2 arg3 harg3 arg4 harg4 arg5 harg5 arg6 harg6 arg7 harg7 arg8 harg8 arg9 harg9 hc0 hc1 x0 x1 x2 x3 xs0 xs1 xs2
      = k0_pay10 x0 x1 xs0 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1024x1) hz2, View.ld_unit_zero (S := S1024x2048) hz2, View.ld_unit_zero (S := S2048x1280) hz2, View.readCov_unit_zero (S := S1024x1) _ hz2]

/-- At a middle point: the running pick after the update, over what the point before left. -/
theorem sB2 (c : Dev nD) (i : grid0.Coords) (arg2 : Memref sig .tc .vmem S1024x2048 .bf16) (harg2 : arg2.IsWhole) (arg3 : Memref sig .tc .vmem S2048x1280 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S2048x1280 .bf16) (x2 : Vec F S1024x1 .i32) (x3 : Vec F S1024x1 .f32) (xs0 xs1 xs2 : Vec F S1024x1 .f32) :
    sout0_B_2 c i arg2 harg2 arg3 harg3 arg4 harg4 arg5 harg5 arg6 harg6 arg7 harg7 arg8 harg8 arg9 harg9 hc0 hc1 x0 x1 x2 x3 xs0 xs1 xs2
      = k0_pay1 (k0_pay7 x0 x1) (k0_pay8 i x2) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1024x1) hz2, View.ld_unit_zero (S := S1024x2048) hz2, View.ld_unit_zero (S := S2048x1280) hz2, View.readCov_unit_zero (S := S1024x1) _ hz2]

/-- At a row block's last point: the running maximum after the update, over what the point before left. -/
theorem sC0 (c : Dev nD) (i : grid0.Coords) (arg2 : Memref sig .tc .vmem S1024x2048 .bf16) (harg2 : arg2.IsWhole) (arg3 : Memref sig .tc .vmem S2048x1280 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S2048x1280 .bf16) (x2 : Vec F S1024x1 .i32) (x3 : Vec F S1024x1 .f32) (xs0 xs1 xs2 : Vec F S1024x1 .f32) :
    sout0_C_0 c i arg2 harg2 arg3 harg3 arg4 harg4 arg5 harg5 arg6 harg6 arg7 harg7 arg8 harg8 arg9 harg9 hc0 hc1 x0 x1 x2 x3 xs0 xs1 xs2
      = k0_pay2 (k0_pay9 x0 x1 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1024x1) hz2, View.ld_unit_zero (S := S1024x2048) hz2, View.ld_unit_zero (S := S2048x1280) hz2, View.readCov_unit_zero (S := S1024x1) _ hz2]

/-- At a row block's last point: the running sum after the update, over what the point before left. -/
theorem sC1 (c : Dev nD) (i : grid0.Coords) (arg2 : Memref sig .tc .vmem S1024x2048 .bf16) (harg2 : arg2.IsWhole) (arg3 : Memref sig .tc .vmem S2048x1280 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S2048x1280 .bf16) (x2 : Vec F S1024x1 .i32) (x3 : Vec F S1024x1 .f32) (xs0 xs1 xs2 : Vec F S1024x1 .f32) :
    sout0_C_1 c i arg2 harg2 arg3 harg3 arg4 harg4 arg5 harg5 arg6 harg6 arg7 harg7 arg8 harg8 arg9 harg9 hc0 hc1 x0 x1 x2 x3 xs0 xs1 xs2
      = k0_pay10 x0 x1 xs0 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1024x1) hz2, View.ld_unit_zero (S := S1024x2048) hz2, View.ld_unit_zero (S := S2048x1280) hz2, View.readCov_unit_zero (S := S1024x1) _ hz2]

/-- At a row block's last point: the running pick after the update, over what the point before left. -/
theorem sC2 (c : Dev nD) (i : grid0.Coords) (arg2 : Memref sig .tc .vmem S1024x2048 .bf16) (harg2 : arg2.IsWhole) (arg3 : Memref sig .tc .vmem S2048x1280 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S2048x1280 .bf16) (x2 : Vec F S1024x1 .i32) (x3 : Vec F S1024x1 .f32) (xs0 xs1 xs2 : Vec F S1024x1 .f32) :
    sout0_C_2 c i arg2 harg2 arg3 harg3 arg4 harg4 arg5 harg5 arg6 harg6 arg7 harg7 arg8 harg8 arg9 harg9 hc0 hc1 x0 x1 x2 x3 xs0 xs1 xs2
      = k0_pay1 (k0_pay7 x0 x1) (k0_pay8 i x2) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1024x1) hz2, View.ld_unit_zero (S := S1024x2048) hz2, View.ld_unit_zero (S := S2048x1280) hz2, View.readCov_unit_zero (S := S1024x1) _ hz2]

/-- At a row block's last point the output block is the surprisal sum computed from the updated scratch and the mask column. -/
theorem oC4 (c : Dev nD) (i : grid0.Coords) (arg2 : Memref sig .tc .vmem S1024x2048 .bf16) (harg2 : arg2.IsWhole) (arg3 : Memref sig .tc .vmem S2048x1280 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S2048x1280 .bf16) (x2 : Vec F S1024x1 .i32) (x3 : Vec F S1024x1 .f32) (xs0 xs1 xs2 : Vec F S1024x1 .f32) :
    out0_C_4 c i arg2 harg2 arg3 harg3 arg4 harg4 arg5 harg5 arg6 harg6 arg7 harg7 arg8 harg8 arg9 harg9 hc0 hc1 x0 x1 x2 x3 xs0 xs1 xs2
      = k0_pay3 (k0_pay2 (k0_pay9 x0 x1 xs0)) (k0_pay10 x0 x1 xs0 xs0 xs1) (k0_pay1 (k0_pay7 x0 x1) (k0_pay8 i x2) xs2) x3 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz3]
  simp only [View.readAt_eq_ld, harg2.read_unread, harg3.read_unread, harg4.read_unread, harg5.read_unread, harg7.read_unread, harg8.read_unread, harg9.read_unread, View.ld_unit_zero (S := S1024x1) hz2, View.ld_unit_zero (S := S1024x2048) hz2, View.ld_unit_zero (S := S2048x1280) hz2, View.readCov_unit_zero (S := S1024x1) _ hz2]

end Cert.KernelIdeal.Pieces

end
-- ==== Proof.KerState.lean ====
/-
  The three scratch rows the kernel carries from one grid point to the next, as a recursion: at the first point
  of a row block (every 25th point) they are one update of the reset values; at any other point they are one
  update of what the point before left; and at the last point of a row block the output block is the block's
  result computed from the updated rows and the mask column.  An update maps (running maximum, running sum,
  running pick) through the point's logits tile.
-/
import proofs.«417803_j80221399155116_3_alg».proof.Proof.KerPieces

set_option maxRecDepth 16384

noncomputable section

namespace Cert.KernelIdeal.State

open Idealize.ShloMosaic Idealize.ShloMosaic.TcCoe
open Idealize.SL Idealize.SL.Sem
open Cert.KernelIdeal Cert.KernelIdeal.Gen Cert.KernelIdeal.Pieces

variable {F : FTy → Type} [FloatOps F]

/-- The carried rows: running maximum, running sum, running pick. -/
abbrev St (F : FTy → Type) [FloatOps F] : Type := Vec F S1024x1 .f32 × Vec F S1024x1 .f32 × Vec F S1024x1 .f32

/-- One update of the carried rows over a point's blocks. -/
def step (i : grid0.Coords) (x0 : Vec F S1024x2048 .bf16) (x1 : Vec F S2048x1280 .bf16) (x2 : Vec F S1024x1 .i32) (s : St F) : St F :=
  (k0_pay2 (k0_pay9 x0 x1 s.1), k0_pay10 x0 x1 s.1 s.1 s.2.1, k0_pay1 (k0_pay7 x0 x1) (k0_pay8 i x2) s.2.2)

/-- The reset values. -/
def init : St F := (k0_pay4, k0_pay5, k0_pay6)

/-- The block's result from the carried rows and the mask column. -/
def fin (s : St F) (x3 : Vec F S1024x1 .f32) : Vec F S1x1x1 .f32 := k0_pay3 s.1 s.2.1 s.2.2 x3

variable (m : (ℓ : Loc nD τ sig) → Buf (Elt F) ℓ)

/-- At the first point of a row block the carried rows are one update of the reset values. -/
theorem scratch_A (c : Dev nD) (t : Fin cfg0.N) (h0 : t.val % 25 = 0) (h1 : ¬t.val % 25 = 24) :
    (outsAt0 m c t.val t.isLt).2 = step (grid0.coords t) (iblk m c 0 t) (iblk m c 1 t) (iblk m c 2 t) init := by
  rw [outsAt0_A m c t h0 h1]
  dsimp only
  exact congrArg₂ Prod.mk
    (sA0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))
    (congrArg₂ Prod.mk
      (sA1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))
      (sA2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)))

/-- At a middle point the carried rows are one update of what the point before left. -/
theorem scratch_B (c : Dev nD) (t : Fin cfg0.N) (h0 : ¬t.val % 25 = 0) (h1 : ¬t.val % 25 = 24) :
    (outsAt0 m c t.val t.isLt).2
      = step (grid0.coords t) (iblk m c 0 t) (iblk m c 1 t) (iblk m c 2 t) (outsAt0 m c (t.val - 1) (Nat.lt_of_le_of_lt (Nat.sub_le _ _) t.isLt)).2 := by
  rw [outsAt0_B m c t h0 h1]
  dsimp only
  exact congrArg₂ Prod.mk
    (sB0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
    (congrArg₂ Prod.mk
      (sB1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
      (sB2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2))

/-- At the last point of a row block the carried rows are, again, one update of what the point before left, … -/
theorem scratch_C (c : Dev nD) (t : Fin cfg0.N) (h0 : ¬t.val % 25 = 0) (h1 : t.val % 25 = 24) :
    (outsAt0 m c t.val t.isLt).2
      = step (grid0.coords t) (iblk m c 0 t) (iblk m c 1 t) (iblk m c 2 t) (outsAt0 m c (t.val - 1) (Nat.lt_of_le_of_lt (Nat.sub_le _ _) t.isLt)).2 := by
  rw [outsAt0_C m c t h0 h1]
  dsimp only
  exact congrArg₂ Prod.mk
    (sC0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
    (congrArg₂ Prod.mk
      (sC1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
      (sC2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2))

/-- … and the output block is the block's result from those updated rows and the mask column. -/
theorem out_C (c : Dev nD) (t : Fin cfg0.N) (h0 : ¬t.val % 25 = 0) (h1 : t.val % 25 = 24) :
    (outsAt0 m c t.val t.isLt).1
      = fin (step (grid0.coords t) (iblk m c 0 t) (iblk m c 1 t) (iblk m c 2 t) (outsAt0 m c (t.val - 1) (Nat.lt_of_le_of_lt (Nat.sub_le _ _) t.isLt)).2) (iblk m c 3 t) := by
  rw [outsAt0_C m c t h0 h1]
  dsimp only
  exact oC4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.State

end
-- ==== Proof.KerPayloads.lean ====
/-
  The kernel body's arithmetic read at an index, on the extended reals.  At a grid point the body holds a
  `1024 × 1280` tile of logits (the contraction of a `1024 × 2048` block of hidden states with a `2048 × 1280`
  block of weights), the one-hot test of each column's vocabulary index against the row's token id, and per row
  a running maximum, a running sum of exponentials rescaled to the new maximum, and a running pick of the
  token's logit; at a row block's last point it turns them into the row's surprisal and sums over the rows.
-/
import proofs.«417803_j80221399155116_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen

/-! ## Layout and reduction readings at the tile's shapes -/

section Layout
variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The sum along a row of the tile. -/
theorem rowSum_apply (src : FVec Ideal S1024x1280 .f32) (r : Fin 1024) :
    multiReduction (F := Ideal) .add [1] S1024 src 0x00000000#32 reduces_S1024x1280_S1024 (.inl rfl) rfl (ix1 r)
      = ∑ k : Fin 1280, src (ix2 r k) := by
  refine (Ideal.multiReduction_add_single src 0x00000000#32 reduces_S1024x1280_S1024 (.inl rfl) rfl (ix1 r)).trans ?_
  refine Finset.sum_congr rfl fun k _ => congrArg src ?_
  funext a; apply Fin.ext
  match a with
  | ⟨0, _⟩ => rfl
  | ⟨1, _⟩ => rfl

/-- The maximum along a row of the tile, from the accumulator's value. -/
theorem rowMax_apply (src : FVec Ideal S1024x1280 .f32) (r : Fin 1024) :
    multiReduction (F := Ideal) .maximumf [1] S1024 src 0xFF800000#32 reduces_S1024x1280_S1024 (.inl rfl) rfl (ix1 r)
      = (Finset.univ : Finset (Fin 1280)).fold max (Ideal.ofBits .f32 0xFF800000#32) (fun k => src (ix2 r k)) := by
  refine (Ideal.multiReduction_maximumf_single src 0xFF800000#32 reduces_S1024x1280_S1024 (.inl rfl) rfl (ix1 r)).trans ?_
  refine congrArg (fun f => (Finset.univ : Finset (Fin 1280)).fold max (Ideal.ofBits .f32 0xFF800000#32) f) ?_
  funext k
  refine congrArg src ?_
  funext a; apply Fin.ext
  match a with
  | ⟨0, _⟩ => rfl
  | ⟨1, _⟩ => rfl

/-- The sum down the one column of a `[1024, 1]` vector. -/
theorem colSum_apply (src : FVec Ideal S1024x1 .f32) (u : Fin 1) :
    multiReduction (F := Ideal) .add [0] S1 src 0x00000000#32 reduces_S1024x1_S1 (.inl rfl) rfl (ix1 u)
      = ∑ r : Fin 1024, src (ix2 r (0 : Fin 1)) := by
  refine (Ideal.multiReduction_add_single src 0x00000000#32 reduces_S1024x1_S1 (.inl rfl) rfl (ix1 u)).trans ?_
  refine Finset.sum_congr rfl fun k _ => congrArg src ?_
  funext a; apply Fin.ext
  match a with
  | ⟨0, _⟩ => rfl
  | ⟨1, _⟩ =>
    show u.val = 0
    omega

/-! ## The tile's contraction read at an index -/

/-- On the row axis the left operand's index is the output's row. -/
theorem lhs_axis0 (j : S1024x1280.Idx) (q : dot_S1024x2048_S2048x1280_S1024x1280_1_0_0_1_n_n.contr.Idx) :
    (dot_S1024x2048_S2048x1280_S1024x1280_1_0_0_1_n_n.lhsIdx j q (0 : Fin 2)).val = (j (0 : Fin 2)).val := by
  simp [DotDims.lhsIdx, dot_S1024x2048_S2048x1280_S1024x1280_1_0_0_1_n_n]; rfl

/-- On the hidden axis the left operand's index is the contraction position. -/
theorem lhs_axis1 (j : S1024x1280.Idx) (q : dot_S1024x2048_S2048x1280_S1024x1280_1_0_0_1_n_n.contr.Idx) :
    (dot_S1024x2048_S2048x1280_S1024x1280_1_0_0_1_n_n.lhsIdx j q (1 : Fin 2)).val = (q ⟨0, Nat.one_pos⟩).val :=
  dot_S1024x2048_S2048x1280_S1024x1280_1_0_0_1_n_n.lhsIdx_val_of_single (cl := (1 : Fin 2)) rfl j q

/-- On the hidden axis the right operand's index is the contraction position. -/
theorem rhs_axis0 (j : S1024x1280.Idx) (q : dot_S1024x2048_S2048x1280_S1024x1280_1_0_0_1_n_n.contr.Idx) :
    (dot_S1024x2048_S2048x1280_S1024x1280_1_0_0_1_n_n.rhsIdx j q (0 : Fin 2)).val = (q ⟨0, Nat.one_pos⟩).val :=
  dot_S1024x2048_S2048x1280_S1024x1280_1_0_0_1_n_n.rhsIdx_val_of_single (cr := (0 : Fin 2)) rfl j q

/-- On the column axis the right operand's index is the output's column. -/
theorem rhs_axis1 (j : S1024x1280.Idx) (q : dot_S1024x2048_S2048x1280_S1024x1280_1_0_0_1_n_n.contr.Idx) :
    (dot_S1024x2048_S2048x1280_S1024x1280_1_0_0_1_n_n.rhsIdx j q (1 : Fin 2)).val = (j (1 : Fin 2)).val := by
  simp [DotDims.rhsIdx, dot_S1024x2048_S2048x1280_S1024x1280_1_0_0_1_n_n]; rfl

/-- An entry of the logits tile is the contraction over the hidden dimension. -/
theorem pay7_apply (x0 : FVec Ideal S1024x2048 .bf16) (x1 : FVec Ideal S2048x1280 .bf16) (r : Fin 1024) (k : Fin 1280) :
    k0_pay7 (F := Ideal) x0 x1 (ix2 r k) = ∑ d : Fin 2048, x0 (ix2 r d) * x1 (ix2 d k) := by
  unfold k0_pay7
  rw [shapeCast_self, shapeCast_self]
  refine (Ideal.matmul_constant_zero_apply dot_S1024x2048_S2048x1280_S1024x1280_1_0_0_1_n_n none x0 x1 (ix2 r k)).trans ?_
  rw [← Equiv.sum_comp (contrEquiv1 dot_S1024x2048_S2048x1280_S1024x1280_1_0_0_1_n_n 2048 rfl rfl).symm]
  refine Finset.sum_congr rfl fun c _ => ?_
  have hc := contrEquiv1_symm_val dot_S1024x2048_S2048x1280_S1024x1280_1_0_0_1_n_n 2048 rfl rfl c
  have hl : dot_S1024x2048_S2048x1280_S1024x1280_1_0_0_1_n_n.lhsIdx (ix2 r k)
      ((contrEquiv1 dot_S1024x2048_S2048x1280_S1024x1280_1_0_0_1_n_n 2048 rfl rfl).symm c) = ix2 r c := by
    funext ax; apply Fin.ext
    match ax with
    | ⟨0, _⟩ => exact lhs_axis0 _ _
    | ⟨1, _⟩ => exact (lhs_axis1 _ _).trans hc
  have hr : dot_S1024x2048_S2048x1280_S1024x1280_1_0_0_1_n_n.rhsIdx (ix2 r k)
      ((contrEquiv1 dot_S1024x2048_S2048x1280_S1024x1280_1_0_0_1_n_n 2048 rfl rfl).symm c) = ix2 c k := by
    funext ax; apply Fin.ext
    match ax with
    | ⟨0, _⟩ => exact (rhs_axis0 _ _).trans hc
    | ⟨1, _⟩ => exact rhs_axis1 _ _
  rw [hl, hr]

/-- The one-hot test at row `r`, tile column `k`: the column's vocabulary index against the row's token id. -/
theorem pay8_apply (i : grid0.Coords) (x2 : IVec S1024x1 32) (r : Fin 1024) (k : Fin 1280) :
    k0_pay8 (F := Ideal) i x2 (ix2 r k)
      = Scalar.cmpi .eq (BitVec.ofNat 32 ((i 1).val * 1280 + k.val)) (x2 (ix2 r (0 : Fin 1))) := by
  unfold k0_pay8
  dsimp only
  -- the column's vocabulary index: the lane number plus the tile's offset
  have e1 : broadcastTo S1024x1280
        (addi (iota Kind.tc S1x1280 32 [1] iota_S1x1280_d1_w32)
          (broadcast S1x1280 (Scalar.muli (BitVec.ofNat 32 (i 1).val) 1280#32)))
        broadcasts_S1x1280_S1024x1280 (ix2 r k)
      = BitVec.ofNat 32 ((i 1).val * 1280 + k.val) := by
    refine (broadcastTo_1b_ab_apply _ _ r k).trans ?_
    show IntOp.addi (iota Kind.tc S1x1280 32 [1] iota_S1x1280_d1_w32 (ix2 (0 : Fin 1) k))
        (IntOp.muli (BitVec.ofNat 32 (i 1).val) 1280#32) = _
    rw [iota_single_apply]
    show BitVec.ofNat 32 k.val + BitVec.ofNat 32 (i 1).val * BitVec.ofNat 32 1280 = _
    rw [← BitVec.ofNat_mul, ← BitVec.ofNat_add, Nat.add_comm]
  -- the row's token id, spread along the row
  have e2 : broadcastTo S1024x1280 (shapeCast S1024x1 x2 shapeCasts_S1024x1_S1024x1) broadcasts_S1024x1_S1024x1280 (ix2 r k)
      = x2 (ix2 r (0 : Fin 1)) := by
    refine (broadcastTo_a1_ab_apply _ _ r k).trans ?_
    rw [shapeCast_self]
  exact congrArg₂ (IntOp.cmpi CmpIPredicate.eq) e1 e2

/-- The new running maximum of row `r`: the old one against the tile's row maximum. -/
theorem pay9_apply (x0 : FVec Ideal S1024x2048 .bf16) (x1 : FVec Ideal S2048x1280 .bf16) (m : FVec Ideal S1024x1 .f32) (r : Fin 1024) :
    k0_pay9 (F := Ideal) x0 x1 m (ix2 r (0 : Fin 1))
      = max (m (ix2 r (0 : Fin 1)))
          ((Finset.univ : Finset (Fin 1280)).fold max (Ideal.ofBits .f32 0xFF800000#32)
            (fun k => k0_pay7 (F := Ideal) x0 x1 (ix2 r k))) := by
  unfold k0_pay9
  refine (maximumf_apply _ _ _).trans ?_
  refine congrArg (max (m (ix2 r (0 : Fin 1)))) ?_
  refine (shapeCast_a_a1_apply _ _ r 0).trans ?_
  exact rowMax_apply _ r

/-- The new running sum of row `r`: the old one rescaled to the new maximum, plus the tile's exponentials. -/
theorem pay10_apply (x0 : FVec Ideal S1024x2048 .bf16) (x1 : FVec Ideal S2048x1280 .bf16)
    (v19 v21 v27 : FVec Ideal S1024x1 .f32) (r : Fin 1024) :
    k0_pay10 (F := Ideal) x0 x1 v19 v21 v27 (ix2 r (0 : Fin 1))
      = Ideal.exp (v21 (ix2 r (0 : Fin 1)) - k0_pay9 (F := Ideal) x0 x1 v19 (ix2 r (0 : Fin 1))) * v27 (ix2 r (0 : Fin 1))
          + ∑ k : Fin 1280, Ideal.exp (k0_pay7 (F := Ideal) x0 x1 (ix2 r k) - k0_pay9 (F := Ideal) x0 x1 v19 (ix2 r (0 : Fin 1))) := by
  unfold k0_pay10
  rw [shapeCast_self]
  refine (addf_apply _ _ _).trans ?_
  refine congrArg₂ (fun a b : EReal => a + b) rfl ?_
  refine (shapeCast_a_a1_apply _ _ r 0).trans ?_
  refine (rowSum_apply _ r).trans ?_
  refine Finset.sum_congr rfl fun k _ => ?_
  show Ideal.exp (k0_pay7 (F := Ideal) x0 x1 (ix2 r k)
      - broadcastTo S1024x1280 (k0_pay9 (F := Ideal) x0 x1 v19) broadcasts_S1024x1_S1024x1280 (ix2 r k)) = _
  rw [broadcastTo_a1_ab_apply]

/-- The new running pick of row `r`: the old one plus the tile's logits where the one-hot test holds. -/
theorem pay1_apply (L : FVec Ideal S1024x1280 .f32) (M : IVec S1024x1280 1) (tok : FVec Ideal S1024x1 .f32) (r : Fin 1024) :
    k0_pay1 (F := Ideal) L M tok (ix2 r (0 : Fin 1))
      = tok (ix2 r (0 : Fin 1)) + ∑ k : Fin 1280, Scalar.select (M (ix2 r k)) (L (ix2 r k)) (0 : EReal) := by
  unfold k0_pay1
  rw [shapeCast_self]
  refine congrArg (tok (ix2 r (0 : Fin 1)) + ·) ?_
  refine (shapeCast_a_a1_apply _ _ r 0).trans ?_
  refine (rowSum_apply _ r).trans ?_
  refine Finset.sum_congr rfl fun k _ => ?_
  show Scalar.select (M (ix2 r k)) (L (ix2 r k)) (Ideal.ofBits .f32 0x00000000#32) = _
  rw [Ideal.ofBits_zero_f32]

/-- The stored running maximum is the computed one. -/
theorem pay2_eq (v : FVec Ideal S1024x1 .f32) : k0_pay2 (F := Ideal) v = v := by
  unfold k0_pay2
  exact shapeCast_self v _

/-- The block's result: the sum over its rows of `((0 - (tok - (m + log l))) / log 2) · mask`. -/
theorem pay3_apply (m l tok mk : FVec Ideal S1024x1 .f32) :
    k0_pay3 (F := Ideal) m l tok mk (ix3 (0 : Fin 1) (0 : Fin 1) (0 : Fin 1))
      = ∑ r : Fin 1024,
          Ideal.div (0 - (tok (ix2 r (0 : Fin 1)) - (m (ix2 r (0 : Fin 1)) + Ideal.log (l (ix2 r (0 : Fin 1))))))
              (Ideal.ofBits .f32 0x3F317218#32)
            * mk (ix2 r (0 : Fin 1)) := by
  unfold k0_pay3
  refine (shapeCast_ab_1ab_apply _ _ (0 : Fin 1) (0 : Fin 1) (0 : Fin 1)).trans ?_
  refine (shapeCast_a_1a_apply _ _ (0 : Fin 1) (0 : Fin 1)).trans ?_
  refine (colSum_apply _ (0 : Fin 1)).trans ?_
  refine Finset.sum_congr rfl fun r _ => ?_
  show Ideal.div (Ideal.ofBits .f32 0x00000000#32
        - (tok (ix2 r (0 : Fin 1)) - (m (ix2 r (0 : Fin 1)) + Ideal.log (l (ix2 r (0 : Fin 1))))))
        (Ideal.ofBits .f32 0x3F317218#32)
      * shapeCast S1024x1 mk shapeCasts_S1024x1_S1024x1 (ix2 r (0 : Fin 1)) = _
  rw [shapeCast_self, Ideal.ofBits_zero_f32]

/-- The running maximum starts at a finite (very negative) literal, … -/
theorem pay4_apply (r : Fin 1024) : k0_pay4 (F := Ideal) (ix2 r (0 : Fin 1)) = Ideal.ofBits .f32 0xFF333332#32 := by
  unfold k0_pay4
  rw [shapeCast_self]
  rfl

/-- … which is a real number; -/
theorem neg_big_real : ∃ q : ℝ, Ideal.ofBits .f32 0xFF333332#32 = (q : EReal) := by
  -- sign 1, exponent 254, mantissa 3355442: the normal number -(2^23 + 3355442) · 2^(254 - 127 - 23)
  refine ⟨-1 * ((2 ^ 23 + 3355442 : ℕ) : ℝ) * (2 : ℝ) ^ (((254 : ℕ) : ℤ) - (2 ^ (8 - 1) - 1) - ((23 : ℕ) : ℤ)), ?_⟩
  show Ideal.ieee 8 23 (0xFF333332#32 : BitVec 32) = _
  have h1 : ((0xFF333332#32 : BitVec 32).extractLsb' (8 + 23) 1 == 1#1) = true := by decide
  have h2 : ((0xFF333332#32 : BitVec 32).extractLsb' 23 8).toNat = 254 := by decide
  have h3 : ((0xFF333332#32 : BitVec 32).extractLsb' 0 23).toNat = 3355442 := by decide
  unfold Ideal.ieee
  simp only [h1, h2, h3]
  rw [if_neg (by norm_num), if_neg (by norm_num), if_pos trivial]

/-- the running sum and the running pick start at zero. -/
theorem pay5_apply (r : Fin 1024) : k0_pay5 (F := Ideal) (ix2 r (0 : Fin 1)) = 0 := by
  unfold k0_pay5
  rw [shapeCast_self]
  exact Ideal.ofBits_zero_f32

theorem pay6_apply (r : Fin 1024) : k0_pay6 (F := Ideal) (ix2 r (0 : Fin 1)) = 0 := by
  unfold k0_pay6
  rw [shapeCast_self]
  exact Ideal.ofBits_zero_f32

end Cert.KernelIdeal.Payloads

end
-- ==== Proof.OnlineSoftmax.lean ====
/-
  Log-sum-exp by running maximum, on the reals, and its reading on the extended reals.

  For a row of logits `x` the quantity `-(x id - log ∑ exp x)` is the token's negative log-probability.
  A softmax may shift every logit by any real `a` first: `log ∑ exp (x - a) = log ∑ exp x - a`
  (`exp (x - a) = exp x · exp (-a)`, the factor leaves the finite sum, the logarithm of a product of
  positives is the sum of the logarithms).  An online softmax keeps a running shift `m` and the running sum
  `l = ∑_{v < n} exp (x v - m)`; moving the shift to `m'` rescales `l` by `exp (m - m')`, so the
  invariant survives a tile of new entries.  All quantities stay real, so the extended-real operations are the
  real ones under the coercion.
-/
import Mathlib.Analysis.SpecialFunctions.Log.Basic
import Mathlib.Data.EReal.Basic
import Idealize.ShloMosaic.PureOps.Ideal

noncomputable section

namespace Cert.Softmax

open Idealize.ShloMosaic

/-- The negative log-probability of entry `id` under the softmax of `x`. -/
def negLogp {n : ℕ} (x : Fin n → ℝ) (id : Fin n) : ℝ := -(x id - Real.log (∑ v, Real.exp (x v)))

/-- A finite sum of reals, coerced, is the sum of the coercions. -/
theorem coe_sum {ι : Type*} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The maximum of a real and a real-or-`⊥` is a real. -/
theorem max_real (m : ℝ) (c : EReal) (h : c = ⊥ ∨ ∃ r : ℝ, c = (r : EReal)) : ∃ r : ℝ, max (m : EReal) c = (r : EReal) := by
  rcases h with h | ⟨r, h⟩
  · exact ⟨m, by rw [h]; exact max_eq_left bot_le⟩
  · rcases le_total m r with hmr | hmr
    · exact ⟨r, by rw [h]; exact max_eq_right (EReal.coe_le_coe_iff.2 hmr)⟩
    · exact ⟨m, by rw [h]; exact max_eq_left (EReal.coe_le_coe_iff.2 hmr)⟩

/-- A running maximum of reals started from `⊥` or a real stays `⊥` or a real, whatever the index set. -/
theorem fold_max_bot_or_real {ι : Type*} [DecidableEq ι] (s : Finset ι) (g : ι → ℝ) (init : EReal)
    (h : init = ⊥ ∨ ∃ r : ℝ, init = (r : EReal)) :
    s.fold max init (fun k => (g k : EReal)) = ⊥ ∨ ∃ r : ℝ, s.fold max init (fun k => (g k : EReal)) = (r : EReal) := by
  refine Finset.induction_on s ?_ ?_
  · simpa using h
  · intro a s ha ih
    rw [Finset.fold_insert ha]
    exact Or.inr (max_real (g a) _ ih)

/-- A maximum over finitely many reals, started from `⊥` or from a real, is a real (at least one entry). -/
theorem fold_max_real {n : ℕ} (f : Fin (n + 1) → ℝ) (init : EReal) (h : init = ⊥ ∨ ∃ r : ℝ, init = (r : EReal)) :
    ∃ r : ℝ, (Finset.univ : Finset (Fin (n + 1))).fold max init (fun k => (f k : EReal)) = (r : EReal) := by
  have hu : (Finset.univ : Finset (Fin (n + 1))) = insert 0 (Finset.univ.erase 0) :=
    (Finset.insert_erase (Finset.mem_univ 0)).symm
  rw [hu, Finset.fold_insert (Finset.notMem_erase 0 _)]
  exact max_real (f 0) _ (fold_max_bot_or_real _ f init h)

/-- One tile of the online softmax: the old running sum at shift `m`, rescaled to shift `m'`, plus the
    tile's exponentials at shift `m'`, is the running sum over the longer prefix at shift `m'`. -/
theorem l_step (x : ℕ → ℝ) (n w : ℕ) (m m' : ℝ) :
    Ideal.exp ((m : EReal) - (m' : EReal)) * ((∑ v ∈ Finset.range n, Real.exp (x v - m) : ℝ) : EReal)
        + ∑ k : Fin w, Ideal.exp ((x (n + k.val) : EReal) - (m' : EReal))
      = ((∑ v ∈ Finset.range (n + w), Real.exp (x v - m') : ℝ) : EReal) := by
  have h1 : Ideal.exp ((m : EReal) - (m' : EReal)) = ((Real.exp (m - m') : ℝ) : EReal) := by
    rw [← EReal.coe_sub]; rfl
  have h2 : ∀ k : Fin w, Ideal.exp ((x (n + k.val) : EReal) - (m' : EReal))
      = ((Real.exp (x (n + k.val) - m') : ℝ) : EReal) := by
    intro k; rw [← EReal.coe_sub]; rfl
  rw [h1, Finset.sum_congr rfl (fun k _ => h2 k), ← coe_sum, ← EReal.coe_mul, ← EReal.coe_add]
  congr 1
  rw [Finset.sum_range_add, Finset.mul_sum, Fin.sum_univ_eq_sum_range (fun k => Real.exp (x (n + k) - m')) w]
  congr 1
  refine Finset.sum_congr rfl ?_
  intro v _
  rw [← Real.exp_add]
  congr 1
  ring

/-- One tile of the one-hot pick: the entry at `id` is added exactly once, in the tile that holds it. -/
theorem tok_step (x : ℕ → ℝ) (n w id : ℕ) :
    (if id < n then (x id : EReal) else 0) + ∑ k : Fin w, (if n + k.val = id then (x (n + k.val) : EReal) else 0)
      = if id < n + w then (x id : EReal) else 0 := by
  by_cases h1 : id < n
  · have hs : ∑ k : Fin w, (if n + k.val = id then (x (n + k.val) : EReal) else 0) = 0 := by
      refine Finset.sum_eq_zero ?_
      intro k _
      rw [if_neg]; omega
    rw [hs, if_pos h1, if_pos (by omega), add_zero]
  · by_cases h2 : id < n + w
    · rw [if_neg h1, if_pos h2, zero_add]
      have hk : id - n < w := by omega
      rw [Finset.sum_eq_single (⟨id - n, hk⟩ : Fin w)]
      · have he : n + (id - n) = id := by omega
        show (if n + (id - n) = id then (x (n + (id - n)) : EReal) else 0) = _
        rw [if_pos he, he]
      · intro k _ hne
        rw [if_neg]
        intro he
        apply hne
        apply Fin.ext
        show k.val = id - n
        omega
      · intro h; exact absurd (Finset.mem_univ _) h
    · have hs : ∑ k : Fin w, (if n + k.val = id then (x (n + k.val) : EReal) else 0) = 0 := by
        refine Finset.sum_eq_zero ?_
        intro k _
        have := k.isLt
        rw [if_neg]; omega
      rw [hs, if_neg h1, if_neg h2, add_zero]

/-- Shifting every logit by `a` keeps the sum of exponentials positive and moves its logarithm by `a`. -/
theorem log_sum_exp_shift {n : ℕ} (hn : 0 < n) (x : Fin n → ℝ) (a : ℝ) :
    0 < ∑ v, Real.exp (x v - a)
      ∧ Real.log (∑ v, Real.exp (x v - a)) = Real.log (∑ v, Real.exp (x v)) - a := by
  have hne : (Finset.univ : Finset (Fin n)).Nonempty := ⟨⟨0, hn⟩, Finset.mem_univ _⟩
  have hpos : ∀ b : ℝ, 0 < ∑ v, Real.exp (x v - b) := fun b =>
    Finset.sum_pos (fun v _ => Real.exp_pos _) hne
  refine ⟨hpos a, ?_⟩
  have hS : 0 < ∑ v, Real.exp (x v) := Finset.sum_pos (fun v _ => Real.exp_pos _) hne
  have hfac : ∑ v, Real.exp (x v - a) = Real.exp (-a) * ∑ v, Real.exp (x v) := by
    rw [Finset.mul_sum]
    refine Finset.sum_congr rfl ?_
    intro v _
    rw [← Real.exp_add]
    congr 1
    ring
  rw [hfac, Real.log_mul (Real.exp_pos _).ne' hS.ne', Real.log_exp]
  ring

/-- The kernel's last step on a row: with `l = ∑ exp (x - m)` and the picked logit, `0 - (tok - (m + log l))`
    is the negative log-probability. -/
theorem ker_row {n : ℕ} (hn : 0 < n) (x : Fin n → ℝ) (id : Fin n) (m : ℝ) :
    (0 : EReal) - ((x id : EReal) - ((m : EReal) + Ideal.log ((∑ v, Real.exp (x v - m) : ℝ) : EReal)))
      = ((negLogp x id : ℝ) : EReal) := by
  obtain ⟨hpos, hlog⟩ := log_sum_exp_shift hn x m
  have hl : Ideal.log ((∑ v, Real.exp (x v - m) : ℝ) : EReal)
      = ((Real.log (∑ v, Real.exp (x v)) - m : ℝ) : EReal) := by
    rw [← hlog]
    exact if_neg (not_le.2 hpos)
  rw [hl, ← EReal.coe_add, ← EReal.coe_sub, ← EReal.coe_zero, ← EReal.coe_sub]
  congr 1
  unfold negLogp
  ring

/-- The reference's row: the log-softmax shifted by any real `M`, picked at `id` and negated, is the negative
    log-probability. -/
theorem ref_row {n : ℕ} (hn : 0 < n) (x : Fin n → ℝ) (id : Fin n) (M : ℝ) :
    -(((x id : EReal) - (M : EReal)) - Ideal.log ((0 : EReal) + ∑ v, Ideal.exp ((x v : EReal) - (M : EReal))))
      = ((negLogp x id : ℝ) : EReal) := by
  obtain ⟨hpos, hlog⟩ := log_sum_exp_shift hn x M
  have h2 : ∀ v : Fin n, Ideal.exp ((x v : EReal) - (M : EReal)) = ((Real.exp (x v - M) : ℝ) : EReal) := by
    intro v; rw [← EReal.coe_sub]; rfl
  have hl : Ideal.log ((∑ v, Real.exp (x v - M) : ℝ) : EReal)
      = ((Real.log (∑ v, Real.exp (x v)) - M : ℝ) : EReal) := by
    rw [← hlog]
    exact if_neg (not_le.2 hpos)
  rw [zero_add, Finset.sum_congr rfl (fun v _ => h2 v), ← coe_sum, hl, ← EReal.coe_sub, ← EReal.coe_sub,
    ← EReal.coe_neg]
  congr 1
  unfold negLogp
  ring

end Cert.Softmax

end
-- ==== Proof.KerStepRow.lean ====
/-
  One update of the carried rows, followed on a single row of the block, on the extended reals.  If the row's
  logits in the point's tile are the reals `xr (n + k)` (`n` the tile's first vocabulary index), the row's token
  id is `idn`, the running maximum is a real `mr`, the running sum is `∑_{v < n} exp (xr v - mr)` and the running
  pick is `xr idn` once `idn < n` (else 0), then after the update the same holds with `n + 1280` for `n` and
  a new real maximum.  The reset values satisfy the statement at `n = 0`.
-/
import proofs.«417803_j80221399155116_3_alg».proof.Proof.KerState
import proofs.«417803_j80221399155116_3_alg».proof.Proof.KerPayloads
import proofs.«417803_j80221399155116_3_alg».proof.Proof.OnlineSoftmax

noncomputable section

namespace Cert.KernelIdeal.StepRow

open Idealize.ShloMosaic Idealize.ShloMosaic.ValueIdx
open Cert.KernelIdeal Cert.KernelIdeal.Gen Cert.KernelIdeal.State Cert.KernelIdeal.Payloads

/-- The word the row maximum starts from denotes `-∞`. -/
theorem neg_inf_word : Ideal.ofBits .f32 0xFF800000#32 = (⊥ : EReal) := by
  -- sign 1, all-ones exponent, zero mantissa
  show Ideal.ieee 8 23 (0xFF800000#32 : BitVec 32) = _
  have h1 : ((0xFF800000#32 : BitVec 32).extractLsb' (8 + 23) 1 == 1#1) = true := by decide
  have h2 : ((0xFF800000#32 : BitVec 32).extractLsb' 23 8).toNat = 255 := by decide
  have h3 : ((0xFF800000#32 : BitVec 32).extractLsb' 0 23).toNat = 0 := by decide
  unfold Ideal.ieee
  simp only [h1, h2, h3]
  rw [if_pos (by norm_num), if_pos trivial, if_pos trivial]

/-- Picking by the equality test of two 32-bit words that hold small naturals is picking by the equality of
    the naturals. -/
theorem select_cmpi_eq (a b : ℕ) (ha : a < 2 ^ 32) (hb : b < 2 ^ 32) (X : EReal) :
    Scalar.select (Scalar.cmpi .eq (BitVec.ofNat 32 a) (BitVec.ofNat 32 b)) X (0 : EReal) = if a = b then X else 0 := by
  by_cases h : a = b
  · subst h
    rw [if_pos rfl]
    have e : Scalar.cmpi .eq (BitVec.ofNat 32 a) (BitVec.ofNat 32 a) = 1#1 := by
      show BitVec.ofBool (BitVec.ofNat 32 a == BitVec.ofNat 32 a) = 1#1
      rw [beq_self_eq_true]; rfl
    rw [e]; exact select_one _ _
  · rw [if_neg h]
    have hne : BitVec.ofNat 32 a ≠ BitVec.ofNat 32 b := by
      intro e
      have e' := congrArg BitVec.toNat e
      rw [BitVec.toNat_ofNat, BitVec.toNat_ofNat, Nat.mod_eq_of_lt ha, Nat.mod_eq_of_lt hb] at e'
      exact h e'
    have e : Scalar.cmpi .eq (BitVec.ofNat 32 a) (BitVec.ofNat 32 b) = 0#1 := by
      show BitVec.ofBool (BitVec.ofNat 32 a == BitVec.ofNat 32 b) = 0#1
      rw [beq_eq_false_iff_ne.mpr hne]; rfl
    rw [e]; exact select_zero _ _

/-- The reset values on a row: a real running maximum, zero running sum, zero running pick. -/
theorem init_row (r : Fin 1024) :
    ∃ q : ℝ, (init (F := Ideal)).1 (ix2 r (0 : Fin 1)) = (q : EReal)
      ∧ (init (F := Ideal)).2.1 (ix2 r (0 : Fin 1)) = 0
      ∧ (init (F := Ideal)).2.2 (ix2 r (0 : Fin 1)) = 0 := by
  obtain ⟨q, hq⟩ := neg_big_real
  refine ⟨q, ?_, ?_, ?_⟩
  · show k0_pay4 (F := Ideal) (ix2 r (0 : Fin 1)) = _
    rw [pay4_apply]; exact hq
  · exact pay5_apply r
  · exact pay6_apply r

/-- One update on a row keeps the online-softmax invariant, over the longer prefix. -/
theorem step_row (i : grid0.Coords) (x0 : FVec Ideal S1024x2048 .bf16) (x1 : FVec Ideal S2048x1280 .bf16) (x2 : IVec S1024x1 32)
    (sm sl st : FVec Ideal S1024x1 .f32) (r : Fin 1024) (xr : ℕ → ℝ) (idn : ℕ) (hidn : idn < 32000) (mr : ℝ)
    (hL : ∀ k : Fin 1280, ∑ d : Fin 2048, x0 (ix2 r d) * x1 (ix2 d k) = ((xr ((i 1).val * 1280 + k.val) : ℝ) : EReal))
    (hid : x2 (ix2 r (0 : Fin 1)) = BitVec.ofNat 32 idn)
    (hm : sm (ix2 r (0 : Fin 1)) = (mr : EReal))
    (hl : sl (ix2 r (0 : Fin 1)) = ((∑ v ∈ Finset.range ((i 1).val * 1280), Real.exp (xr v - mr) : ℝ) : EReal))
    (ht : st (ix2 r (0 : Fin 1)) = if idn < (i 1).val * 1280 then (xr idn : EReal) else 0) :
    ∃ mr' : ℝ, (step (F := Ideal) i x0 x1 x2 (sm, sl, st)).1 (ix2 r (0 : Fin 1)) = (mr' : EReal)
      ∧ (step (F := Ideal) i x0 x1 x2 (sm, sl, st)).2.1 (ix2 r (0 : Fin 1))
          = ((∑ v ∈ Finset.range ((i 1).val * 1280 + 1280), Real.exp (xr v - mr') : ℝ) : EReal)
      ∧ (step (F := Ideal) i x0 x1 x2 (sm, sl, st)).2.2 (ix2 r (0 : Fin 1))
          = if idn < (i 1).val * 1280 + 1280 then (xr idn : EReal) else 0 := by
  -- the tile's logits on this row are the reals `xr (n + k)`
  have h7 : ∀ k : Fin 1280, k0_pay7 (F := Ideal) x0 x1 (ix2 r k) = ((xr ((i 1).val * 1280 + k.val) : ℝ) : EReal) :=
    fun k => (pay7_apply x0 x1 r k).trans (hL k)
  -- so the new running maximum is a real
  have h9 : ∃ mr' : ℝ, k0_pay9 (F := Ideal) x0 x1 sm (ix2 r (0 : Fin 1)) = (mr' : EReal) := by
    rw [pay9_apply, hm,
      show (fun k : Fin 1280 => k0_pay7 (F := Ideal) x0 x1 (ix2 r k))
        = fun k : Fin 1280 => ((xr ((i 1).val * 1280 + k.val) : ℝ) : EReal) from funext h7,
      neg_inf_word]
    obtain ⟨c, hc⟩ := Cert.Softmax.fold_max_real (n := 1279) (fun k => xr ((i 1).val * 1280 + k.val)) ⊥ (Or.inl rfl)
    exact Cert.Softmax.max_real mr _ (Or.inr ⟨c, hc⟩)
  obtain ⟨mr', hmr'⟩ := h9
  refine ⟨mr', ?_, ?_, ?_⟩
  · show k0_pay2 (F := Ideal) (k0_pay9 (F := Ideal) x0 x1 sm) (ix2 r (0 : Fin 1)) = _
    rw [pay2_eq]; exact hmr'
  · show k0_pay10 (F := Ideal) x0 x1 sm sm sl (ix2 r (0 : Fin 1)) = _
    rw [pay10_apply, hmr', hm, hl,
      show ∑ k : Fin 1280, Ideal.exp (k0_pay7 (F := Ideal) x0 x1 (ix2 r k) - (mr' : EReal))
        = ∑ k : Fin 1280, Ideal.exp (((xr ((i 1).val * 1280 + k.val) : ℝ) : EReal) - (mr' : EReal)) from
        Finset.sum_congr rfl fun k _ => by rw [h7 k]]
    exact Cert.Softmax.l_step xr ((i 1).val * 1280) 1280 mr mr'
  · show k0_pay1 (F := Ideal) (k0_pay7 (F := Ideal) x0 x1) (k0_pay8 (F := Ideal) i x2) st (ix2 r (0 : Fin 1)) = _
    have hi : (i 1).val < 25 := (i 1).isLt
    rw [pay1_apply, ht,
      show ∑ k : Fin 1280, Scalar.select (k0_pay8 (F := Ideal) i x2 (ix2 r k)) (k0_pay7 (F := Ideal) x0 x1 (ix2 r k)) (0 : EReal)
        = ∑ k : Fin 1280, (if (i 1).val * 1280 + k.val = idn then ((xr ((i 1).val * 1280 + k.val) : ℝ) : EReal) else 0) from
        Finset.sum_congr rfl fun k _ => by
          rw [pay8_apply, hid, h7 k]
          exact select_cmpi_eq _ _ (by have := k.isLt; omega) (by omega) _]
    exact Cert.Softmax.tok_step xr ((i 1).val * 1280) 1280 idn

/-- The block's result from the carried rows: the sum over the rows of `((0 - (pick - (max + log sum))) / log 2) · mask`. -/
theorem fin_apply (sm sl st x3 : FVec Ideal S1024x1 .f32) :
    fin (F := Ideal) (sm, sl, st) x3 (ix3 (0 : Fin 1) (0 : Fin 1) (0 : Fin 1))
      = ∑ r : Fin 1024,
          Ideal.div (0 - (st (ix2 r (0 : Fin 1)) - (sm (ix2 r (0 : Fin 1)) + Ideal.log (sl (ix2 r (0 : Fin 1))))))
              (Ideal.ofBits .f32 0x3F317218#32)
            * x3 (ix2 r (0 : Fin 1)) := by
  exact pay3_apply sm sl st x3

end Cert.KernelIdeal.StepRow

end
-- ==== Proof.KerRows.lean ====
/-
  The carried rows along a row block, row by row.  Fix the logits `x b s v` (reals), the token ids `id b s`, and
  suppose the blocks the body sees are what the grid says: at point `t` (row block `t / 25`, tile `t % 25`) the
  tile's logits of row `r` are `x (t / 25) r (1280 · (t % 25) + k)` and the row's id word is `id (t / 25) r`.
  Then after point `t` every row's running maximum is a real `μ`, its running sum is
  `∑_{v < 1280 · (t % 25 + 1)} exp (x v - μ)` and its running pick is `x id` once the id's tile has passed: by
  induction on `t`, the first point of a block starting from the reset values and every other point from its
  predecessor.  After a block's last point the prefix is the whole vocabulary, and the block's result is the sum
  over its rows of the negative log-probability divided by `log 2` times the mask entry.
-/
import proofs.«417803_j80221399155116_3_alg».proof.Proof.KerStepRow

noncomputable section

namespace Cert.KernelIdeal.Rows

open Idealize.ShloMosaic Idealize.ShloMosaic.TcCoe Idealize.ShloMosaic.ValueIdx
open Idealize.SL Idealize.SL.Sem
open Cert.KernelIdeal Cert.KernelIdeal.Gen Cert.KernelIdeal.State Cert.KernelIdeal.StepRow Cert.Softmax

/-- A row of logits continued by zero past the vocabulary, so that prefixes can be indexed by naturals. -/
def ext (x : Fin 32000 → ℝ) : ℕ → ℝ := fun n => if h : n < 32000 then x ⟨n, h⟩ else 0

theorem ext_apply (x : Fin 32000 → ℝ) (v : Fin 32000) : ext x v.val = x v := by
  unfold ext; rw [dif_pos v.isLt]

/-- The whole-vocabulary prefix sum is the sum over the vocabulary. -/
theorem sum_ext (x : Fin 32000 → ℝ) (μ : ℝ) :
    ∑ v ∈ Finset.range 32000, Real.exp (ext x v - μ) = ∑ v : Fin 32000, Real.exp (x v - μ) := by
  rw [Finset.sum_range]
  exact Finset.sum_congr rfl fun v _ => by rw [ext_apply]

/-- One update on a row, with the tile's first vocabulary index named. -/
theorem step_row_at (i : grid0.Coords) (x0 : FVec Ideal S1024x2048 .bf16) (x1 : FVec Ideal S2048x1280 .bf16) (x2 : IVec S1024x1 32)
    (sm sl st : FVec Ideal S1024x1 .f32) (r : Fin 1024) (xr : ℕ → ℝ) (idn : ℕ) (hidn : idn < 32000) (mr : ℝ)
    (off : ℕ) (hoff : (i 1).val * 1280 = off)
    (hL : ∀ k : Fin 1280, ∑ d : Fin 2048, x0 (ix2 r d) * x1 (ix2 d k) = ((xr (off + k.val) : ℝ) : EReal))
    (hid : x2 (ix2 r (0 : Fin 1)) = BitVec.ofNat 32 idn)
    (hm : sm (ix2 r (0 : Fin 1)) = (mr : EReal))
    (hl : sl (ix2 r (0 : Fin 1)) = ((∑ v ∈ Finset.range off, Real.exp (xr v - mr) : ℝ) : EReal))
    (ht : st (ix2 r (0 : Fin 1)) = if idn < off then (xr idn : EReal) else 0) :
    ∃ mr' : ℝ, (step (F := Ideal) i x0 x1 x2 (sm, sl, st)).1 (ix2 r (0 : Fin 1)) = (mr' : EReal)
      ∧ (step (F := Ideal) i x0 x1 x2 (sm, sl, st)).2.1 (ix2 r (0 : Fin 1))
          = ((∑ v ∈ Finset.range (off + 1280), Real.exp (xr v - mr') : ℝ) : EReal)
      ∧ (step (F := Ideal) i x0 x1 x2 (sm, sl, st)).2.2 (ix2 r (0 : Fin 1))
          = if idn < off + 1280 then (xr idn : EReal) else 0 := by
  subst hoff
  exact step_row i x0 x1 x2 sm sl st r xr idn hidn mr hL hid hm hl ht

variable (m : (ℓ : Loc nD τ sig) → Buf (Elt Ideal) ℓ) (c : Dev nD)
variable (x : Fin 4 → Fin 1024 → Fin 32000 → ℝ) (id : Fin 4 → Fin 1024 → Fin 32000)
variable (bk : Fin cfg0.N → Fin 4)

/-- A point's block of hidden states, of weights, of token ids and of the mask, at their literal types. -/
abbrev blk0 (t : Fin cfg0.N) : FVec Ideal S1024x2048 .bf16 := iblk m c 0 t
abbrev blk1 (t : Fin cfg0.N) : FVec Ideal S2048x1280 .bf16 := iblk m c 1 t
abbrev blk2 (t : Fin cfg0.N) : IVec S1024x1 32 := iblk m c 2 t
abbrev blk3 (t : Fin cfg0.N) : FVec Ideal S1024x1 .f32 := iblk m c 3 t

/-- What the blocks are assumed to hold (the grid's reading of the windows). -/
structure Blocks : Prop where
  bk_val : ∀ t : Fin cfg0.N, (bk t).val = t.val / 25
  tile : ∀ t : Fin cfg0.N, ((grid0.coords t) 1).val = t.val % 25
  logit : ∀ (t : Fin cfg0.N) (r : Fin 1024) (k : Fin 1280),
    ∑ d : Fin 2048, blk0 m c t (ix2 r d) * blk1 m c t (ix2 d k)
      = ((ext (x (bk t) r) (t.val % 25 * 1280 + k.val) : ℝ) : EReal)
  ids : ∀ (t : Fin cfg0.N) (r : Fin 1024), blk2 m c t (ix2 r (0 : Fin 1)) = BitVec.ofNat 32 (id (bk t) r).val

variable {m c x id bk}

/-- The row invariant after every grid point. -/
theorem inv (H : Blocks m c x id bk) : ∀ (n : ℕ) (hn : n < cfg0.N) (r : Fin 1024), ∃ μ : ℝ,
    (outsAt0 m c n hn).2.1 (ix2 r (0 : Fin 1)) = (μ : EReal)
    ∧ (outsAt0 m c n hn).2.2.1 (ix2 r (0 : Fin 1))
        = ((∑ v ∈ Finset.range (n % 25 * 1280 + 1280), Real.exp (ext (x (bk ⟨n, hn⟩) r) v - μ) : ℝ) : EReal)
    ∧ (outsAt0 m c n hn).2.2.2 (ix2 r (0 : Fin 1))
        = if (id (bk ⟨n, hn⟩) r).val < n % 25 * 1280 + 1280 then (ext (x (bk ⟨n, hn⟩) r) (id (bk ⟨n, hn⟩) r).val : EReal) else 0 := by
  intro n
  induction n with
  | zero =>
    intro hn r
    have hS := scratch_A m c ⟨0, hn⟩ (Nat.zero_mod 25) (by show ¬(0 % 25 = 24); decide)
    obtain ⟨q, h1, h2, h3⟩ := init_row r
    obtain ⟨μ, e1, e2, e3⟩ := step_row_at (grid0.coords ⟨0, hn⟩) (blk0 m c ⟨0, hn⟩) (blk1 m c ⟨0, hn⟩) (blk2 m c ⟨0, hn⟩)
      (init (F := Ideal)).1 (init (F := Ideal)).2.1 (init (F := Ideal)).2.2 r (ext (x (bk ⟨0, hn⟩) r))
      (id (bk ⟨0, hn⟩) r).val (id (bk ⟨0, hn⟩) r).isLt q 0 (by rw [H.tile ⟨0, hn⟩]; rfl)
      (fun k => H.logit ⟨0, hn⟩ r k) (H.ids ⟨0, hn⟩ r) h1
      (by rw [h2]; simp) (by rw [h3]; simp)
    refine ⟨μ, ?_, ?_, ?_⟩
    · exact (congrArg (fun s : St Ideal => s.1 (ix2 r (0 : Fin 1))) hS).trans e1
    · exact (congrArg (fun s : St Ideal => s.2.1 (ix2 r (0 : Fin 1))) hS).trans e2
    · exact (congrArg (fun s : St Ideal => s.2.2 (ix2 r (0 : Fin 1))) hS).trans e3
  | succ n ih =>
    intro hn r
    by_cases h0 : (n + 1) % 25 = 0
    · have h24 : ¬(n + 1) % 25 = 24 := by omega
      have hS := scratch_A m c ⟨n + 1, hn⟩ h0 h24
      obtain ⟨q, h1, h2, h3⟩ := init_row r
      obtain ⟨μ, e1, e2, e3⟩ := step_row_at (grid0.coords ⟨n + 1, hn⟩) (blk0 m c ⟨n + 1, hn⟩) (blk1 m c ⟨n + 1, hn⟩) (blk2 m c ⟨n + 1, hn⟩)
        (init (F := Ideal)).1 (init (F := Ideal)).2.1 (init (F := Ideal)).2.2 r (ext (x (bk ⟨n + 1, hn⟩) r))
        (id (bk ⟨n + 1, hn⟩) r).val (id (bk ⟨n + 1, hn⟩) r).isLt q 0 (by rw [H.tile ⟨n + 1, hn⟩]; show (n + 1) % 25 * 1280 = 0; rw [h0])
        (fun k => by have := H.logit ⟨n + 1, hn⟩ r k; rw [show (⟨n + 1, hn⟩ : Fin cfg0.N).val % 25 = 0 from h0] at this; exact this)
        (H.ids ⟨n + 1, hn⟩ r) h1 (by rw [h2]; simp) (by rw [h3]; simp)
      refine ⟨μ, ?_, ?_, ?_⟩
      · exact (congrArg (fun s : St Ideal => s.1 (ix2 r (0 : Fin 1))) hS).trans e1
      · rw [h0]; exact (congrArg (fun s : St Ideal => s.2.1 (ix2 r (0 : Fin 1))) hS).trans e2
      · rw [h0]; exact (congrArg (fun s : St Ideal => s.2.2 (ix2 r (0 : Fin 1))) hS).trans e3
    · have hn' : n < cfg0.N := Nat.lt_of_succ_lt hn
      have hS : (outsAt0 m c (n + 1) hn).2
          = step (grid0.coords ⟨n + 1, hn⟩) (iblk m c 0 ⟨n + 1, hn⟩) (iblk m c 1 ⟨n + 1, hn⟩) (iblk m c 2 ⟨n + 1, hn⟩)
              (outsAt0 m c n hn').2 := by
        by_cases h1 : (n + 1) % 25 = 24
        · exact scratch_C m c ⟨n + 1, hn⟩ h0 h1
        · exact scratch_B m c ⟨n + 1, hn⟩ h0 h1
      have hbk : bk ⟨n + 1, hn⟩ = bk ⟨n, hn'⟩ := Fin.ext (by rw [H.bk_val, H.bk_val]; show (n + 1) / 25 = n / 25; omega)
      have hoff : n % 25 * 1280 + 1280 = (n + 1) % 25 * 1280 := by omega
      obtain ⟨μ0, p1, p2, p3⟩ := ih hn' r
      rw [← hbk, hoff] at p2 p3
      obtain ⟨μ, e1, e2, e3⟩ := step_row_at (grid0.coords ⟨n + 1, hn⟩) (blk0 m c ⟨n + 1, hn⟩) (blk1 m c ⟨n + 1, hn⟩) (blk2 m c ⟨n + 1, hn⟩)
        (outsAt0 m c n hn').2.1 (outsAt0 m c n hn').2.2.1 (outsAt0 m c n hn').2.2.2 r (ext (x (bk ⟨n + 1, hn⟩) r))
        (id (bk ⟨n + 1, hn⟩) r).val (id (bk ⟨n + 1, hn⟩) r).isLt μ0 ((n + 1) % 25 * 1280) (by rw [H.tile ⟨n + 1, hn⟩])
        (fun k => H.logit ⟨n + 1, hn⟩ r k) (H.ids ⟨n + 1, hn⟩ r) p1 p2 p3
      refine ⟨μ, ?_, ?_, ?_⟩
      · exact (congrArg (fun s : St Ideal => s.1 (ix2 r (0 : Fin 1))) hS).trans e1
      · exact (congrArg (fun s : St Ideal => s.2.1 (ix2 r (0 : Fin 1))) hS).trans e2
      · exact (congrArg (fun s : St Ideal => s.2.2 (ix2 r (0 : Fin 1))) hS).trans e3

/-- After a row block's last point the output block holds the block's masked surprisal sum. -/
theorem value (H : Blocks m c x id bk) (b : Fin 4) (hb : 25 * b.val + 24 < cfg0.N) (hbk : bk ⟨25 * b.val + 24, hb⟩ = b)
    (mk : Fin 1024 → EReal)
    (hM : ∀ r : Fin 1024, blk3 m c ⟨25 * b.val + 24, hb⟩ (ix2 r (0 : Fin 1)) = mk r) :
    (outsAt0 m c (25 * b.val + 24) hb).1 (ix3 (0 : Fin 1) (0 : Fin 1) (0 : Fin 1))
      = ∑ r : Fin 1024, Ideal.div ((negLogp (x b r) (id b r) : ℝ) : EReal) (Ideal.ofBits .f32 0x3F317218#32) * mk r := by
  have h0 : ¬(25 * b.val + 24) % 25 = 0 := by omega
  have h1 : (25 * b.val + 24) % 25 = 24 := by omega
  have hO := out_C m c ⟨25 * b.val + 24, hb⟩ h0 h1
  have hS := scratch_C m c ⟨25 * b.val + 24, hb⟩ h0 h1
  rw [← hS] at hO
  refine (congrFun hO _).trans ?_
  refine (fin_apply (outsAt0 m c (25 * b.val + 24) hb).2.1 (outsAt0 m c (25 * b.val + 24) hb).2.2.1
    (outsAt0 m c (25 * b.val + 24) hb).2.2.2 (blk3 m c ⟨25 * b.val + 24, hb⟩)).trans ?_
  refine Finset.sum_congr rfl fun r _ => ?_
  obtain ⟨μ, e1, e2, e3⟩ := inv H (25 * b.val + 24) hb r
  have hfull : (25 * b.val + 24) % 25 * 1280 + 1280 = 32000 := by omega
  rw [hbk, hfull, sum_ext] at e2
  rw [hbk, hfull, if_pos (id b r).isLt, ext_apply] at e3
  rw [e1, e2, e3, hM r]
  exact congrArg (fun z => Ideal.div z (Ideal.ofBits .f32 0x3F317218#32) * mk r) (ker_row (by norm_num) (x b r) (id b r) μ)

end Cert.KernelIdeal.Rows

end
-- ==== Proof.KerBlocks.lean ====
/-
  The pallas_call's blocks and its output array.  The grid is `4 × 25`: point `t` is row block `t / 25`, vocabulary
  tile `t % 25`.  Window 0's block at `t` is rows `1024 · (t / 25) + r` of the flattened hidden states, window 1's is
  columns `1280 · (t % 25) + k` of the weights, windows 2 and 3 are rows `1024 · (t / 25) + r` of the id and mask
  columns.  The output window's `1 × 1 × 1` block for row block `b` is written back once, at the block's last point
  `25 · b + 24`, so after the call the output array holds at `(b, 0, 0)` what that point left.
-/
import proofs.«417803_j80221399155116_3_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- The second grid coordinate of point `t` is its vocabulary tile. -/
theorem coords1 (t : Fin cfg0.N) : ((grid0.coords t) 1).val = t.val % 25 := by
  exact (by decide +kernel : ∀ t : Fin grid0.N, ((grid0.coords t) 1).val = t.val % 25) t

/-- The printed index maps over the grid: the row-block windows move with `t / 25`, the weight window with `t % 25`. -/
theorem blockIndex_facts : ∀ t : Fin cfg0.N,
    win0_0.index t (0 : Fin 2) = t.val / 25 ∧ win0_0.index t (1 : Fin 2) = 0
    ∧ win0_1.index t (0 : Fin 2) = 0 ∧ win0_1.index t (1 : Fin 2) = t.val % 25
    ∧ win0_2.index t (0 : Fin 2) = t.val / 25 ∧ win0_2.index t (1 : Fin 2) = 0
    ∧ win0_3.index t (0 : Fin 2) = t.val / 25 ∧ win0_3.index t (1 : Fin 2) = 0
    ∧ win0_4.index t (0 : Fin 3) = t.val / 25 ∧ win0_4.index t (1 : Fin 3) = 0 ∧ win0_4.index t (2 : Fin 3) = 0 :=
  (by decide +kernel : ∀ t : Fin grid0.N, _)

/-- Window 0's block: rows of the flattened hidden states. -/
theorem iblk0_apply (c : Dev nD) (t : Fin cfg0.N) (r : Fin 1024) (d : Fin 2048) (hb : 1024 * (t.val / 25) + r.val < 4096) :
    (iblk m c 0 t : FVec F S1024x2048 .bf16) (ix2 r d)
      = (V m c main_v1 : FVec F S4096x2048 .bf16) (ix2 (⟨1024 * (t.val / 25) + r.val, hb⟩ : Fin 4096) d) := by
  obtain ⟨e0, e1, -⟩ := blockIndex_facts t
  unfold iblk
  rw [View.read_apply]
  show V m c main_v1 (((cfg0.win 0).blk t).view.emb (ix2 r d)) = V m c main_v1 _
  refine congrArg _ ?_
  funext a
  apply Fin.ext
  match a with
  | ⟨0, _⟩ => show win0_0.index t (0 : Fin 2) * 1024 + 1 * r.val = 1024 * (t.val / 25) + r.val; omega
  | ⟨1, _⟩ => show win0_0.index t (1 : Fin 2) * 2048 + 1 * d.val = d.val; omega

/-- Window 1's block: columns of the weights. -/
theorem iblk1_apply (c : Dev nD) (t : Fin cfg0.N) (d : Fin 2048) (k : Fin 1280) (hb : 1280 * (t.val % 25) + k.val < 32000) :
    (iblk m c 1 t : FVec F S2048x1280 .bf16) (ix2 d k)
      = (V m c main_v2 : FVec F S2048x32000 .bf16) (ix2 d (⟨1280 * (t.val % 25) + k.val, hb⟩ : Fin 32000)) := by
  obtain ⟨-, -, e0, e1, -⟩ := blockIndex_facts t
  unfold iblk
  rw [View.read_apply]
  show V m c main_v2 (((cfg0.win 1).blk t).view.emb (ix2 d k)) = V m c main_v2 _
  refine congrArg _ ?_
  funext a
  apply Fin.ext
  match a with
  | ⟨0, _⟩ => show win0_1.index t (0 : Fin 2) * 2048 + 1 * d.val = d.val; omega
  | ⟨1, _⟩ => show win0_1.index t (1 : Fin 2) * 1280 + 1 * k.val = 1280 * (t.val % 25) + k.val; omega

/-- Window 2's block: rows of the id column. -/
theorem iblk2_apply (c : Dev nD) (t : Fin cfg0.N) (r : Fin 1024) (hb : 1024 * (t.val / 25) + r.val < 4096) :
    (iblk m c 2 t : IVec S1024x1 32) (ix2 r (0 : Fin 1))
      = (V m c main_v4 : IVec S4096x1 32) (ix2 (⟨1024 * (t.val / 25) + r.val, hb⟩ : Fin 4096) (0 : Fin 1)) := by
  obtain ⟨-, -, -, -, e0, e1, -⟩ := blockIndex_facts t
  unfold iblk
  rw [View.read_apply]
  show V m c main_v4 (((cfg0.win 2).blk t).view.emb (ix2 r (0 : Fin 1))) = V m c main_v4 _
  refine congrArg _ ?_
  funext a
  apply Fin.ext
  match a with
  | ⟨0, _⟩ => show win0_2.index t (0 : Fin 2) * 1024 + 1 * r.val = 1024 * (t.val / 25) + r.val; omega
  | ⟨1, _⟩ => show win0_2.index t (1 : Fin 2) * 1 + 1 * 0 = 0; omega

/-- Window 3's block: rows of the mask column. -/
theorem iblk3_apply (c : Dev nD) (t : Fin cfg0.N) (r : Fin 1024) (hb : 1024 * (t.val / 25) + r.val < 4096) :
    (iblk m c 3 t : FVec F S1024x1 .f32) (ix2 r (0 : Fin 1))
      = (V m c main_v6 : FVec F S4096x1 .f32) (ix2 (⟨1024 * (t.val / 25) + r.val, hb⟩ : Fin 4096) (0 : Fin 1)) := by
  obtain ⟨-, -, -, -, -, -, e0, e1, -⟩ := blockIndex_facts t
  unfold iblk
  rw [View.read_apply]
  show V m c main_v6 (((cfg0.win 3).blk t).view.emb (ix2 r (0 : Fin 1))) = V m c main_v6 _
  refine congrArg _ ?_
  funext a
  apply Fin.ext
  match a with
  | ⟨0, _⟩ => show win0_3.index t (0 : Fin 2) * 1024 + 1 * r.val = 1024 * (t.val / 25) + r.val; omega
  | ⟨1, _⟩ => show win0_3.index t (1 : Fin 2) * 1 + 1 * 0 = 0; omega

/-- What grid position `n` leaves in the output block, as a total function of the position (the first position's
    contents past the grid's end, which nothing reads). -/
def leftAt (c : Dev nD) (n : ℕ) : Vec F S1x1x1 .f32 :=
  if h : n < cfg0.N then (outsAt0 m c n h).1 else (outsAt0 m c 0 (by rw [show cfg0.N = 100 from N_0]; decide)).1

theorem leftAt_of_lt (c : Dev nD) (n : ℕ) (h : n < cfg0.N) : leftAt m c n = (outsAt0 m c n h).1 := dif_pos h

/-- The output array as one function of its index: at `(b, _, _)` what the last point of row block `b` left. -/
def lastOf (c : Dev nD) : S4x1x1.Idx → Elt F .f32 :=
  fun i => leftAt m c (25 * (i 0).val + 24) (ix3 (0 : Fin 1) (0 : Fin 1) (0 : Fin 1))

/-- The `1 × 1 × 1` block has one index. -/
theorem unitIdx_eq (j : S1x1x1.Idx) : j = ix3 (0 : Fin 1) (0 : Fin 1) (0 : Fin 1) := by
  funext a
  apply Fin.ext
  match a with
  | ⟨0, _⟩ => have h : (j 0).val < 1 := (j 0).isLt; show (j 0).val = 0; omega
  | ⟨1, _⟩ => have h : (j 1).val < 1 := (j 1).isLt; show (j 1).val = 0; omega
  | ⟨2, _⟩ => have h : (j 2).val < 1 := (j 2).isLt; show (j 2).val = 0; omega

/-- A point that writes the output block back writes block `t` of `lastOf`. -/
theorem lastPoint_writes (c : Dev nD) (t : Fin cfg0.N) (hf : (cfg0.win 4).flush t = true) :
    (dats m 0 c).flushed 4 t = ((cfg0.win 4).blk t).view.read (Elt F) (lastOf m c) := by
  have h24 : t.val % 25 = 24 := (flush0_4 t).mp hf
  obtain ⟨-, -, -, -, -, -, -, -, e0, e1, e2⟩ := blockIndex_facts t
  show (cfg0.win 4).cut (grid0.coords t) ((dats m 0 c).after 4 t) = _
  rw [after0_4]
  funext j
  rw [View.read_apply]
  show (outsAt0 m c t.val t.isLt).1 ((cfg0.win 4).xinj (grid0.coords t) j)
    = leftAt m c (25 * ((((cfg0.win 4).blk t).view.emb j) 0).val + 24) (ix3 (0 : Fin 1) (0 : Fin 1) (0 : Fin 1))
  have hn : 25 * ((((cfg0.win 4).blk t).view.emb j) 0).val + 24 = t.val := by
    show 25 * (win0_4.index t (0 : Fin 3) * 1 + 1 * (j 0).val) + 24 = t.val
    have hj : (j 0).val < 1 := (j 0).isLt
    omega
  refine Eq.trans ?_ (congrArg (fun n => leftAt m c n (ix3 (0 : Fin 1) (0 : Fin 1) (0 : Fin 1))) hn.symm)
  show _ = leftAt m c t.val (ix3 (0 : Fin 1) (0 : Fin 1) (0 : Fin 1))
  rw [leftAt_of_lt m c t.val t.isLt]
  exact congrArg _ (unitIdx_eq _)

/-- An index of the output array is in point `t`'s block iff each coordinate is in the block's range on its axis. -/
theorem mem_outBlock (t : Fin cfg0.N) (i : S4x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v7).slice (win0_4.rect t)).set ↔ _
  rw [View.set_slice_whole, Rect.mem_set_unit]
  exact Iff.rfl

/-- Every index `(b, 0, 0)` of the output array is in the block of row block `b`'s last point, which writes it back. -/
theorem outIdx_covered (i : S4x1x1.Idx) :
    ∃ t : Fin cfg0.N, (cfg0.win 4).flush t = true ∧ i ∈ ((cfg0.win 4).blk t).view.set := by
  have hN : cfg0.N = 100 := N_0
  have h0 : (i 0).val < 4 := (i 0).isLt
  have h1 : (i 1).val < 1 := (i 1).isLt
  have h2 : (i 2).val < 1 := (i 2).isLt
  obtain ⟨t, ht⟩ : ∃ t : Fin cfg0.N, t.val = 25 * (i 0).val + 24 := ⟨⟨25 * (i 0).val + 24, by omega⟩, rfl⟩
  obtain ⟨-, -, -, -, -, -, -, -, e0, e1, e2⟩ := blockIndex_facts t
  refine ⟨t, (flush0_4 t).mpr (by omega), ?_⟩
  rw [mem_outBlock]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 1 ≤ (i 2).val ∧ (i 2).val < win0_4.index t (2 : Fin 3) * 1 + 1; omega

/-- So the output array ends holding `lastOf`. -/
theorem outArray_eq (c : Dev nD) : (dats m 0 c).arrAt 4 cfg0.N = lastOf m c :=
  (dats m 0 c).arrAt_eq_of_cover 4 (lastOf m c) (fun t hf => lastPoint_writes m c t hf) outIdx_covered

/-- After the call the output array holds, for row block `b`, what the block's last point left in the output block. -/
theorem region_apply (c : Dev nD) (b : Fin 4) (hb : 25 * b.val + 24 < cfg0.N) :
    ((dats m 0 c).arrAt 4 cfg0.N : FVec F S4x1x1 .f32) (ix3 b (0 : Fin 1) (0 : Fin 1))
      = (outsAt0 m c (25 * b.val + 24) hb).1 (ix3 (0 : Fin 1) (0 : Fin 1) (0 : Fin 1)) := by
  refine (congrFun (outArray_eq m c) _).trans ?_
  show leftAt m c (25 * b.val + 24) (ix3 (0 : Fin 1) (0 : Fin 1) (0 : Fin 1)) = _
  rw [leftAt_of_lt m c _ hb]

end Cert.KernelIdeal.Blocks

end
-- ==== Proof.KerTerms.lean ====
/-
  The kernel program's host side as named pure stages.  Before the pallas_call: the hidden states flattened
  to `(4·1024, 2048)` and the head's weights, both narrowed to bf16 (the identity on extended reals); the token
  ids clipped to `[0, 31999]` and laid out as a column; the attention mask converted to float, as a column.
  After it: the call's result (one surprisal sum per batch row) divided by the sequence length and appended
  to the mean of the hidden states over the sequence, then the same two-layer head as the reference.
-/
import proofs.«417803_j80221399155116_3_alg».proof.KernelIdeal

noncomputable section

namespace Cert.KernelIdeal.Terms

open Idealize.ShloMosaic Cert.KernelIdeal
open Cert.KernelIdeal.Facts₀ Cert.KernelIdeal.Facts

variable {F : FTy → Type} [FloatOps F] [Facts]

/-- Window 0's array: the hidden states, flattened over (batch, position), in bf16. -/
def hidFlat (a0 : FVec F S4x1024x2048 .f32) : FVec F S4096x2048 .bf16 :=
  (truncf .bf16 · bitsLt_bf16_f32) (shapeCast S4096x2048 a0 shapeCasts_S4x1024x2048_S4096x2048)

/-- Window 1's array: the head's weights in bf16. -/
def wBf (a1 : FVec F S2048x32000 .f32) : FVec F S2048x32000 .bf16 :=
  (truncf .bf16 · bitsLt_bf16_f32) a1

/-- The token ids clipped to `[0, 31999]`. -/
def idsClip (a2 : IVec S4x1024 32) : IVec S4x1024 32 :=
  minsi (broadcastInDim S4x1024 ![] bcast_S_S4x1024 (id (constantI S_ 32 31999#32)))
    (maxsi (broadcastInDim S4x1024 ![] bcast_S_S4x1024 (id (constantI S_ 32 0#32))) a2)

/-- Window 2's array: the clipped ids as a column over (batch, position). -/
def idsFlat (a2 : IVec S4x1024 32) : IVec S4096x1 32 :=
  shapeCast S4096x1 (idsClip a2) shapeCasts_S4x1024_S4096x1

/-- Window 3's array: the mask as floats, as a column over (batch, position). -/
def maskFlat (a3 : IVec S4x1024 32) : FVec F S4096x1 .f32 :=
  shapeCast S4096x1 (sitofp .f32 a3 : FVec F S4x1024 .f32) shapeCasts_S4x1024_S4096x1

/-- The pooled features: the mean of the hidden states over the sequence, and the call's per-row surprisal
    sum divided by the sequence length as one more column. -/
def pooled (a0 : FVec F S4x1024x2048 .f32) (ko : FVec F S4x1x1 .f32) : FVec F S4x2049 .f32 :=
  concatenate S4x2049 1
    [⟨S4x2048, Host.divf (Host.reduceAdd a0 (constant S_ .f32 0x00000000#32) reducesTo_S4x1024x2048_S4x2048_d1 h_S_)
        (broadcastInDim S4x2048 ![] bcast_S_S4x2048 (constant S_ .f32 0x44800000#32))⟩,
     ⟨S4x1, Host.divf (shapeCast S4x1 ko shapeCasts_S4x1x1_S4x1)
        (broadcastInDim S4x1 ![] bcast_S_S4x1 (constant S_ .f32 0x44800000#32))⟩]
    concatenates_S4x2048_S4x1_S4x2049_d1

/-- The first layer before its activation: `pooled · reducer_w + reducer_b`. -/
def pre (p : FVec F S4x2049 .f32) (a5 : FVec F S2049x100 .f32) (a6 : FVec F S100 .f32) : FVec F S4x100 .f32 :=
  addf (Host.dotGeneral dot_S4x2049_S2049x100_S4x100_1_0_0_1_n_n none p a5)
    (broadcastInDim S4x100 ![0, 1] bcast_S1x100_S4x100_0_1 (broadcastInDim S1x100 ![1] bcast_S100_S1x100_1 a6))

/-- The leaky rectifier with slope `0.01`. -/
def leaky (h : FVec F S4x100 .f32) : FVec F S4x100 .f32 :=
  select (cmpf .oge h (broadcastInDim S4x100 ![] bcast_S_S4x100 (constant S_ .f32 0x00000000#32))) h
    (mulf (broadcastInDim S4x100 ![] bcast_S_S4x100 (id (constant S_ .f32 0x3C23D70A#32))) h)

/-- The head: activation, the sentiment features appended, the classifier layer. -/
def tail (p : FVec F S4x2049 .f32) (a4 : FVec F S4x3 .f32) (a5 : FVec F S2049x100 .f32) (a6 : FVec F S100 .f32)
    (a7 : FVec F S103x5 .f32) (a8 : FVec F S5 .f32) : FVec F S4x5 .f32 :=
  addf
    (Host.dotGeneral dot_S4x103_S103x5_S4x5_1_0_0_1_n_n none
      (concatenate S4x103 1 [⟨S4x100, leaky (pre p a5 a6)⟩, ⟨S4x3, a4⟩] concatenates_S4x100_S4x3_S4x103_d1) a7)
    (broadcastInDim S4x5 ![0, 1] bcast_S1x5_S4x5_0_1 (broadcastInDim S1x5 ![1] bcast_S5_S1x5_1 a8))

end Cert.KernelIdeal.Terms

end
-- ==== Proof.KerArgs.lean ====
/-
  The arrays the pallas_call's input windows stage, read at an index on the extended reals: row `1024 · b + s` of
  the flattened hidden states is position `s` of batch row `b` (the narrowing to bf16 is the identity); the weights
  are unchanged; a token id already in `[0, 32000)` is unchanged by the clip; the mask column holds the converted
  mask entries.
-/
import proofs.«417803_j80221399155116_3_alg».proof.Proof.KerTerms
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.KerArgs

open Idealize.ShloMosaic Idealize.ShloMosaic.ValueIdx Cert.KernelIdeal
open Cert.KernelIdeal.Facts₀ Cert.KernelIdeal.Facts

variable [Facts]

/-- Position `(b, s)` of a `[4, 1024]` array and row `1024 · b + s` of a `[4096, 1]` column are the same place in
    row-major order. -/
theorem rowMajor_col (b : Fin 4) (s : Fin 1024) (hb : 1024 * b.val + s.val < 4096) :
    (S4x1024.rowMajor (ix2 b s)).val
      = (S4096x1.rowMajor (ix2 (⟨1024 * b.val + s.val, hb⟩ : Fin 4096) (0 : Fin 1))).val := by
  refine (Shape.rowMajor_val_two (d := ![4, 1024]) (ix2 b s)).trans ?_
  refine Eq.trans ?_ (Shape.rowMajor_val_two (d := ![4096, 1]) (ix2 (⟨1024 * b.val + s.val, hb⟩ : Fin 4096) (0 : Fin 1))).symm
  show b.val * 1024 + s.val = (1024 * b.val + s.val) * 1 + 0
  omega

/-- Clipping to `[0, 31999]` as signed words leaves the word of a natural number below 32000 unchanged: its signed
    value is the number itself, neither below 0 nor above 31999. -/
theorem clip_id (n : Nat) (hn : n < 32000) :
    IntOp.minsi 31999#32 (IntOp.maxsi 0#32 (BitVec.ofNat 32 n)) = BitVec.ofNat 32 n := by
  have hn' : (BitVec.ofNat 32 n).toInt = n := StableHlo.Predicate.toInt_ofNat_small n (by omega)
  have z : (0#32 : BitVec 32).toInt = 0 := by decide
  have t : (31999#32 : BitVec 32).toInt = 31999 := by decide
  have h1 : (BitVec.ofNat 32 n).slt 0#32 = false := by
    simp only [BitVec.slt, hn', z, decide_eq_false_iff_not]; omega
  have h2 : (31999#32 : BitVec 32).slt (BitVec.ofNat 32 n) = false := by
    simp only [BitVec.slt, hn', t, decide_eq_false_iff_not]; omega
  simp only [IntOp.minsi, IntOp.maxsi, h1, h2, Bool.false_eq_true, ↓reduceIte]

/-- The flattened hidden states at row `1024 · b + s`. -/
theorem hidFlat_apply (a0 : FVec Ideal S4x1024x2048 .f32) (b : Fin 4) (s : Fin 1024) (d : Fin 2048)
    (hb : 1024 * b.val + s.val < 4096) :
    Terms.hidFlat (F := Ideal) a0 (ix2 (⟨1024 * b.val + s.val, hb⟩ : Fin 4096) d) = a0 (ix3 b s d) := by
  show shapeCast S4096x2048 a0 shapeCasts_S4x1024x2048_S4096x2048 (ix2 (⟨1024 * b.val + s.val, hb⟩ : Fin 4096) d)
    = a0 (ix3 b s d)
  refine shapeCast_apply a0 shapeCasts_S4x1024x2048_S4096x2048 _ (ix3 b s d) ?_
  refine (Shape.rowMajor_val_three (d := ![4, 1024, 2048]) (ix3 b s d)).trans ?_
  refine Eq.trans ?_ (Shape.rowMajor_val_two (d := ![4096, 2048]) (ix2 (⟨1024 * b.val + s.val, hb⟩ : Fin 4096) d)).symm
  show (b.val * 1024 + s.val) * 2048 + d.val = (1024 * b.val + s.val) * 2048 + d.val
  omega

/-- The weights are unchanged by the narrowing. -/
theorem wBf_apply (a1 : FVec Ideal S2048x32000 .f32) (d : Fin 2048) (v : Fin 32000) :
    Terms.wBf (F := Ideal) a1 (ix2 d v) = a1 (ix2 d v) := by
  rfl

/-- A token id in range is unchanged by the clip, and sits at row `1024 · b + s` of the id column. -/
theorem idsFlat_apply (a2 : IVec S4x1024 32) (b : Fin 4) (s : Fin 1024) (hb : 1024 * b.val + s.val < 4096)
    (id : Fin 32000) (hid : a2 (ix2 b s) = BitVec.ofNat 32 id.val) :
    Terms.idsFlat a2 (ix2 (⟨1024 * b.val + s.val, hb⟩ : Fin 4096) (0 : Fin 1)) = BitVec.ofNat 32 id.val := by
  unfold Terms.idsFlat
  refine (shapeCast_apply (Terms.idsClip a2) shapeCasts_S4x1024_S4096x1 _ (ix2 b s) (rowMajor_col b s hb)).trans ?_
  show IntOp.minsi 31999#32 (IntOp.maxsi 0#32 (a2 (ix2 b s))) = BitVec.ofNat 32 id.val
  rw [hid]
  exact clip_id id.val id.isLt

/-- The mask column at row `1024 · b + s` is the converted mask entry at `(b, s)`. -/
theorem maskFlat_apply (a3 : IVec S4x1024 32) (b : Fin 4) (s : Fin 1024) (hb : 1024 * b.val + s.val < 4096) :
    Terms.maskFlat (F := Ideal) a3 (ix2 (⟨1024 * b.val + s.val, hb⟩ : Fin 4096) (0 : Fin 1))
      = (sitofp .f32 a3 : FVec Ideal S4x1024 .f32) (ix2 b s) := by
  unfold Terms.maskFlat
  exact shapeCast_apply (sitofp .f32 a3 : FVec Ideal S4x1024 .f32) shapeCasts_S4x1024_S4096x1 _ (ix2 b s)
    (rowMajor_col b s hb)

end Cert.KernelIdeal.KerArgs

end
-- ==== Proof.KerHost.lean ====
/-
  The kernel program's host side around its one pallas_call.  The four arrays the call's input windows stage are
  the named stages of the arguments (the flattened bf16 hidden states, the bf16 weights, the clipped token ids
  as a column, the float mask as a column); and every weakly fair execution ends with the result buffer at the
  head applied to the pooled features built from the call's output array, the arguments unchanged.
-/
import proofs.«417803_j80221399155116_3_alg».proof.Proof.KerTerms
import proofs.«417803_j80221399155116_3_alg».proof.Proof.Gen.KernelIdeal.Frame
import Idealize.ShloMosaic.Lib.StableHlo.Run
import Idealize.ShloMosaic.Lib.Pipeline.Value

noncomputable section

namespace Cert.KernelIdeal.KerHost

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Window 0's array as the region finds it. -/
theorem V_hid (c : Dev nD) : (V m c main_v1 : FVec F S4096x2048 .bf16) = Terms.hidFlat (m ((c.tc : Thread nD τ).loc main_arg0)) := by
  dsimp only [Gen.V, Gen.V0]
  simp only [Gen.hostOps0, Gen.hostOps0_1, Gen.hostOps0_2, List.flatten_cons, List.flatten_nil, List.append_nil, List.cons_append, List.nil_append]
  unfold Terms.hidFlat
  after_results
  rfl

/-- Window 1's array as the region finds it. -/
theorem V_w (c : Dev nD) : (V m c main_v2 : FVec F S2048x32000 .bf16) = Terms.wBf (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  unfold Terms.wBf
  after_results

/-- Window 2's array as the region finds it. -/
theorem V_ids (c : Dev nD) : (V m c main_v4 : IVec S4096x1 32) = Terms.idsFlat (m ((c.tc : Thread nD τ).loc main_arg2)) := by
  dsimp only [Gen.V, Gen.V0]
  simp only [Gen.hostOps0, Gen.hostOps0_1, Gen.hostOps0_2, List.flatten_cons, List.flatten_nil, List.append_nil, List.cons_append, List.nil_append]
  unfold Terms.idsFlat Terms.idsClip
  after_results
  rfl

/-- Window 3's array as the region finds it. -/
theorem V_mask (c : Dev nD) : (V m c main_v6 : FVec F S4096x1 .f32) = Terms.maskFlat (m ((c.tc : Thread nD τ).loc main_arg3)) := by
  dsimp only [Gen.V, Gen.V0]
  simp only [Gen.hostOps0, Gen.hostOps0_1, Gen.hostOps0_2, List.flatten_cons, List.flatten_nil, List.append_nil, List.cons_append, List.nil_append]
  unfold Terms.maskFlat
  after_results
  rfl

-- twenty-seven operations, each read at its own result buffer and skipped at every other
set_option maxHeartbeats 8000000 in
/-- The lines after the call, run from any contents `W`: the result buffer holds the head applied to the pooled
    features built from `W`'s hidden states and `W`'s contents of the call's output buffer. -/
theorem tail_after (W : Valuation τ sig (Elt F)) :
    (StableHlo.after (List.flatten [(hostOps1 : List (HloOp τ sig (Elt F))), hostOps1_1, hostOps1_2]) W (Proc.devRef .tc main_v24) : FVec F S4x5 .f32)
      = Terms.tail (Terms.pooled (W (Proc.devRef .tc main_arg0) : FVec F S4x1024x2048 .f32) (W (Proc.devRef .tc main_v7) : FVec F S4x1x1 .f32))
          (W (Proc.devRef .tc main_arg4)) (W (Proc.devRef .tc main_arg5)) (W (Proc.devRef .tc main_arg6))
          (W (Proc.devRef .tc main_arg7)) (W (Proc.devRef .tc main_arg8)) := by
  simp only [Gen.hostOps1, Gen.hostOps1_1, Gen.hostOps1_2, List.flatten_cons, List.flatten_nil, List.append_nil, List.cons_append, List.nil_append]
  unfold Terms.tail Terms.leaky Terms.pre Terms.pooled
  after_results
  rfl

/-- The result buffer after the lines that follow the call: the region leaves the call's output array at what the
    pipeline computed and every other buffer as it found it, an argument at its launch contents. -/
theorem tail_v24 (c : Dev nD) :
    Pipeline.afterTail₀ cfgs (dats m) 0 (V0 m) [hostOps1, hostOps1_1, hostOps1_2] c main_v24
      = Terms.tail (Terms.pooled (m ((c.tc : Thread nD τ).loc main_arg0)) ((dats m 0 c).arrAt 4 cfg0.N))
          (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Pipeline.afterTail₀
  refine (tail_after _).trans ?_
  have hk (b : Ref sig .tc) (hb : ∀ w, Pipeline.arrRef spec0 w ≠ b) :
      Pipeline.withArrays (cfgs 0).spec c (V0 m c) (fun w => (dats m 0 c).arrAt w (cfgs 0).N) (Proc.devRef .tc b) = V m c b :=
    Pipeline.withArrays_of_ne _ c (V0 m c) _ b hb
  have h7 : Pipeline.withArrays (cfgs 0).spec c (V0 m c) (fun w => (dats m 0 c).arrAt w (cfgs 0).N) (Proc.devRef .tc main_v7) = (dats m 0 c).arrAt 4 cfg0.N :=
    Pipeline.withArrays_arr spec0 launch0.win.arr_inj c _ _ 4
  rw [h7, hk main_arg0 (by decide), hk main_arg4 (by decide), hk main_arg5 (by decide), hk main_arg6 (by decide), hk main_arg7 (by decide), hk main_arg8 (by decide),
    V_main_arg0, V_main_arg4, V_main_arg5, V_main_arg6, V_main_arg7, V_main_arg8]

/-- The run: the result buffer at the head of the pooled features built from the call's output array. -/
theorem run : θ_run defs (onTc (τ := τ) (main (F := F))) ⟨m, fun _ => 0, ρ⟩ fun r => ∀ c : Dev nD,
      r.2.mem ((c.tc : Thread nD τ).loc main_v24) = Terms.tail (Terms.pooled (m ((c.tc : Thread nD τ).loc main_arg0)) ((dats m 0 c).arrAt 4 cfg0.N))
          (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).2 main_v24 (Pipeline.mem_restRefs_of main_v24 (by decide) (by decide))).trans (tail_v24 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.KernelIdeal.KerHost

end
-- ==== Proof.KerValue.lean ====
/-
  The pallas_call's output array as a function of the argument arrays, on the extended reals.  Where every logit
  `∑ d, hidden[b, s, d] · w[d, v]` is a real `x b s v` and every token id word is `id b s < 32000`, the output at
  `(b, 0, 0)` is the sum over the sequence of the token's negative log-probability divided by `log 2` times the
  mask entry: the blocks the body sees are the grid's reading of the window arrays, the window arrays are the
  named stages of the arguments, and the carried rows follow the online-softmax invariant row by row.
-/
import proofs.«417803_j80221399155116_3_alg».proof.Proof.KerRows
import proofs.«417803_j80221399155116_3_alg».proof.Proof.KerBlocks
import proofs.«417803_j80221399155116_3_alg».proof.Proof.KerArgs
import proofs.«417803_j80221399155116_3_alg».proof.Proof.KerHost

noncomputable section

namespace Cert.KernelIdeal.Value

open Idealize.ShloMosaic Idealize.ShloMosaic.TcCoe Idealize.ShloMosaic.ValueIdx
open Idealize.SL Idealize.SL.Sem
open Cert.KernelIdeal Cert.KernelIdeal.Gen Cert.Softmax

theorem lt100 (t : Fin cfg0.N) : t.val < 100 := lt_of_lt_of_eq t.isLt (show cfg0.N = 100 from N_0)

/-- The row block of a grid point. -/
def bk (t : Fin cfg0.N) : Fin 4 := ⟨t.val / 25, by have := lt100 t; omega⟩

variable (m : (ℓ : Loc nD τ sig) → Buf (Elt Ideal) ℓ) (c : Dev nD)
variable (x : Fin 4 → Fin 1024 → Fin 32000 → ℝ) (id : Fin 4 → Fin 1024 → Fin 32000)

/-- The argument arrays at their literal types. -/
abbrev a0v : FVec Ideal S4x1024x2048 .f32 := m ((c.tc : Thread nD τ).loc main_arg0)
abbrev a1v : FVec Ideal S2048x32000 .f32 := m ((c.tc : Thread nD τ).loc main_arg1)
abbrev a2v : IVec S4x1024 32 := m ((c.tc : Thread nD τ).loc main_arg2)
abbrev a3v : IVec S4x1024 32 := m ((c.tc : Thread nD τ).loc main_arg3)

/-- The blocks are the grid's reading of the arguments. -/
theorem blocks
    (hx : ∀ (b : Fin 4) (s : Fin 1024) (v : Fin 32000),
      ∑ d : Fin 2048, a0v m c (ix3 b s d) * a1v m c (ix2 d v) = ((x b s v : ℝ) : EReal))
    (hid : ∀ (b : Fin 4) (s : Fin 1024), a2v m c (ix2 b s) = BitVec.ofNat 32 (id b s).val) :
    Rows.Blocks m c x id bk where
  bk_val := fun _ => rfl
  tile := fun t => Blocks.coords1 t
  logit := fun t r k => by
    have ht := lt100 t
    have hb : 1024 * (t.val / 25) + r.val < 4096 := by have := r.isLt; omega
    have hv : 1280 * (t.val % 25) + k.val < 32000 := by have := k.isLt; omega
    have e0 : ∀ d : Fin 2048, Rows.blk0 m c t (ix2 r d)
        = a0v m c (ix3 (bk t) r d) := fun d =>
      (Blocks.iblk0_apply m c t r d hb).trans
        ((congrFun (KerHost.V_hid m c) _).trans (KerArgs.hidFlat_apply _ (bk t) r d hb))
    have e1 : ∀ d : Fin 2048, Rows.blk1 m c t (ix2 d k)
        = a1v m c (ix2 d (⟨1280 * (t.val % 25) + k.val, hv⟩ : Fin 32000)) := fun d =>
      (Blocks.iblk1_apply m c t d k hv).trans
        ((congrFun (KerHost.V_w m c) _).trans (KerArgs.wBf_apply _ d _))
    have hsum := hx (bk t) r (⟨1280 * (t.val % 25) + k.val, hv⟩ : Fin 32000)
    have hext : Rows.ext (x (bk t) r) (t.val % 25 * 1280 + k.val) = x (bk t) r (⟨1280 * (t.val % 25) + k.val, hv⟩ : Fin 32000) := by
      have := Rows.ext_apply (x (bk t) r) (⟨1280 * (t.val % 25) + k.val, hv⟩ : Fin 32000)
      rw [← this]; exact congrArg _ (by show t.val % 25 * 1280 + k.val = 1280 * (t.val % 25) + k.val; omega)
    rw [hext, ← hsum]
    exact Finset.sum_congr rfl fun d _ => by rw [e0 d, e1 d]
  ids := fun t r => by
    have ht := lt100 t
    have hb : 1024 * (t.val / 25) + r.val < 4096 := by have := r.isLt; omega
    exact (Blocks.iblk2_apply m c t r hb).trans
      ((congrFun (KerHost.V_ids m c) _).trans (KerArgs.idsFlat_apply _ (bk t) r hb (id (bk t) r) (hid (bk t) r)))

/-- The call's result for batch row `b`: the masked surprisal summed over the sequence. -/
theorem region_value
    (hx : ∀ (b : Fin 4) (s : Fin 1024) (v : Fin 32000),
      ∑ d : Fin 2048, a0v m c (ix3 b s d) * a1v m c (ix2 d v) = ((x b s v : ℝ) : EReal))
    (hid : ∀ (b : Fin 4) (s : Fin 1024), a2v m c (ix2 b s) = BitVec.ofNat 32 (id b s).val)
    (b : Fin 4) :
    ((dats m 0 c).arrAt 4 cfg0.N : FVec Ideal S4x1x1 .f32) (ix3 b (0 : Fin 1) (0 : Fin 1))
      = ∑ s : Fin 1024, Ideal.div ((negLogp (x b s) (id b s) : ℝ) : EReal) (Ideal.ofBits .f32 0x3F317218#32)
          * (sitofp .f32 (a3v m c) : FVec Ideal S4x1024 .f32) (ix2 b s) := by
  have hb : 25 * b.val + 24 < cfg0.N := by rw [show cfg0.N = 100 from N_0]; have := b.isLt; omega
  have hbk : bk ⟨25 * b.val + 24, hb⟩ = b := Fin.ext (by show (25 * b.val + 24) / 25 = b.val; omega)
  refine (Blocks.region_apply m c b hb).trans ?_
  refine Rows.value (blocks m c x id hx hid) b hb hbk _ fun r => ?_
  have hr : 1024 * ((25 * b.val + 24) / 25) + r.val < 4096 := by have := b.isLt; have := r.isLt; omega
  have hr' : 1024 * b.val + r.val < 4096 := by have := b.isLt; have := r.isLt; omega
  have e : (⟨1024 * ((25 * b.val + 24) / 25) + r.val, hr⟩ : Fin 4096) = ⟨1024 * b.val + r.val, hr'⟩ :=
    Fin.ext (by show 1024 * ((25 * b.val + 24) / 25) + r.val = 1024 * b.val + r.val; omega)
  refine (Blocks.iblk3_apply m c ⟨25 * b.val + 24, hb⟩ r hr).trans ((congrFun (KerHost.V_mask m c) _).trans ?_)
  exact (congrArg (fun i : Fin 4096 => Terms.maskFlat (F := Ideal) (a3v m c) (ix2 i (0 : Fin 1))) e).trans
    (KerArgs.maskFlat_apply (a3v m c) b r hr')

end Cert.KernelIdeal.Value

end
-- ==== Proof.RefValue.lean ====
/-
  The reference's stages read at an index, on the extended reals.

  A logit is the contraction `∑ d, hidden[b, s, d] · w[d, v]`.  Where every logit of a row is a real number and the
  token id lies in `[0, 32000)`, the gather picks the log-softmax entry at that id (no wrap, no fill), the
  row's shift is a real number, and the masked surprisal at `(b, s)` is the token's negative log-probability
  divided by the literal `log 2` and multiplied by the mask entry.  The pooled features are, per batch row, the
  sequence sums divided by the literal `1024`: of the hidden states in the first 2048 columns, of the surprisal
  in the last.
-/
import proofs.«417803_j80221399155116_3_alg».proof.Proof.RefTerms
import proofs.«417803_j80221399155116_3_alg».proof.Proof.OnlineSoftmax
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValue

open Idealize.ShloMosaic Idealize.ShloMosaic.ValueIdx Cert.ReferenceIdeal
open Cert.ReferenceIdeal.Facts₀ Cert.ReferenceIdeal.Facts

variable [Facts]

/-! ## The logits -/

/-- The left operand's index keeps the result's batch coordinate … -/
theorem lhs_logits_0 (i : S4x1024x32000.Idx) (q : dot_S4x1024x2048_S2048x32000_S4x1024x32000_2_0_01_1_n_n.contr.Idx) :
    (dot_S4x1024x2048_S2048x32000_S4x1024x32000_2_0_01_1_n_n.lhsIdx i q 0).val = (i 0).val := by
  unfold DotDims.lhsIdx
  rw [dif_neg (show ¬(0 : Fin S4x1024x2048.rank) ∈ dot_S4x1024x2048_S2048x32000_S4x1024x32000_2_0_01_1_n_n.lhsBatch from List.not_mem_nil),
    dif_pos (show (0 : Fin S4x1024x2048.rank) ∈ dot_S4x1024x2048_S2048x32000_S4x1024x32000_2_0_01_1_n_n.lhsNonContracting from List.mem_cons_self)]
  rfl
/-- … and its position coordinate. -/
theorem lhs_logits_1 (i : S4x1024x32000.Idx) (q : dot_S4x1024x2048_S2048x32000_S4x1024x32000_2_0_01_1_n_n.contr.Idx) :
    (dot_S4x1024x2048_S2048x32000_S4x1024x32000_2_0_01_1_n_n.lhsIdx i q 1).val = (i 1).val := by
  unfold DotDims.lhsIdx
  rw [dif_neg (show ¬(1 : Fin S4x1024x2048.rank) ∈ dot_S4x1024x2048_S2048x32000_S4x1024x32000_2_0_01_1_n_n.lhsBatch from List.not_mem_nil),
    dif_pos (show (1 : Fin S4x1024x2048.rank) ∈ dot_S4x1024x2048_S2048x32000_S4x1024x32000_2_0_01_1_n_n.lhsNonContracting from List.mem_cons_of_mem _ List.mem_cons_self)]
  rfl
/-- The right operand's index keeps the result's vocabulary coordinate. -/
theorem rhs_logits_1 (i : S4x1024x32000.Idx) (q : dot_S4x1024x2048_S2048x32000_S4x1024x32000_2_0_01_1_n_n.contr.Idx) :
    (dot_S4x1024x2048_S2048x32000_S4x1024x32000_2_0_01_1_n_n.rhsIdx i q 1).val = (i 2).val := by
  unfold DotDims.rhsIdx
  rw [dif_neg (show ¬(1 : Fin S2048x32000.rank) ∈ dot_S4x1024x2048_S2048x32000_S4x1024x32000_2_0_01_1_n_n.rhsBatch from List.not_mem_nil),
    dif_pos (show (1 : Fin S2048x32000.rank) ∈ dot_S4x1024x2048_S2048x32000_S4x1024x32000_2_0_01_1_n_n.rhsNonContracting from List.mem_cons_self)]
  rfl

/-- A logit is the contraction over the hidden dimension. -/
theorem logits_apply (a0 : FVec Ideal S4x1024x2048 .f32) (a1 : FVec Ideal S2048x32000 .f32)
    (b : Fin 4) (s : Fin 1024) (v : Fin 32000) :
    Terms.logits (F := Ideal) a0 a1 (ix3 b s v) = ∑ d : Fin 2048, a0 (ix3 b s d) * a1 (ix2 d v) := by
  unfold Terms.logits
  simp only [Host.dotGeneral]
  rw [Ideal.dotGeneral_apply, ← Equiv.sum_comp (contrEquiv1 dot_S4x1024x2048_S2048x32000_S4x1024x32000_2_0_01_1_n_n 2048 rfl rfl).symm]
  refine Finset.sum_congr rfl fun k _ => ?_
  have hk := contrEquiv1_symm_val dot_S4x1024x2048_S2048x32000_S4x1024x32000_2_0_01_1_n_n 2048 rfl rfl k
  have el : dot_S4x1024x2048_S2048x32000_S4x1024x32000_2_0_01_1_n_n.lhsIdx (ix3 b s v) ((contrEquiv1 dot_S4x1024x2048_S2048x32000_S4x1024x32000_2_0_01_1_n_n 2048 rfl rfl).symm k) = ix3 b s k :=
    funext fun a => Fin.ext (by
      match a with
      | ⟨0, _⟩ => exact lhs_logits_0 _ _
      | ⟨1, _⟩ => exact lhs_logits_1 _ _
      | ⟨2, _⟩ => exact (dot_S4x1024x2048_S2048x32000_S4x1024x32000_2_0_01_1_n_n.lhsIdx_val_of_single rfl _ _).trans hk)
  have er : dot_S4x1024x2048_S2048x32000_S4x1024x32000_2_0_01_1_n_n.rhsIdx (ix3 b s v) ((contrEquiv1 dot_S4x1024x2048_S2048x32000_S4x1024x32000_2_0_01_1_n_n 2048 rfl rfl).symm k) = ix2 k v :=
    funext fun a => Fin.ext (by
      match a with
      | ⟨0, _⟩ => exact (dot_S4x1024x2048_S2048x32000_S4x1024x32000_2_0_01_1_n_n.rhsIdx_val_of_single rfl _ _).trans hk
      | ⟨1, _⟩ => exact rhs_logits_1 _ _)
  rw [el, er]

/-! ## Layout operations at an index -/

/-- A scalar splat broadcast to any shape reads the value its word encodes. -/
theorem bcast_scalar_apply {t : Shape} (h : S_.BroadcastsInDim t (![] : Fin 0 → Fin t.rank)) (w : BitVec 32) (j : t.Idx) :
    broadcastInDim t ![] h (constant (F := Ideal) S_ .f32 w) j = Ideal.ofBits .f32 w := rfl

/-- A `[4, 1024]` array as a `[4, 1024, 1]` column reads the array at the first two coordinates. -/
theorem bcast_col_apply {α : Type} (h : S4x1024.BroadcastsInDim S4x1024x1 (![0, 1] : Fin 2 → Fin S4x1024x1.rank))
    (y : S4x1024.Idx → α) (b : Fin 4) (s : Fin 1024) (c : Fin 1) :
    broadcastInDim S4x1024x1 ![0, 1] h y (ix3 b s c) = y (ix2 b s) :=
  broadcastInDim_apply _ h y _ _ fun a => match a with
    | ⟨0, _⟩ => rfl
    | ⟨1, _⟩ => rfl

/-! ## The host's pointwise operations at an index, on the extended reals -/

/-- The host's logarithm at an index. -/
theorem hostLog_apply {t : Shape} (y : FVec Ideal t .f32) (i : t.Idx) : Host.log y i = Ideal.log (y i) := rfl
/-- The host's exponential at an index. -/
theorem hostExp_apply {t : Shape} (y : FVec Ideal t .f32) (i : t.Idx) : Host.exp y i = Ideal.exp (y i) := rfl
/-- The host's negation at an index. -/
theorem hostNegf_apply {t : Shape} (y : FVec Ideal t .f32) (i : t.Idx) : Host.negf y i = -(y i) := rfl
/-- The host's division at an index. -/
theorem hostDivf_apply {t : Shape} (y z : FVec Ideal t .f32) (i : t.Idx) : Host.divf y z i = Ideal.div (y i) (z i) := rfl

/-- A `[4, 1024, 1]` column broadcast along the vocabulary axis reads the column at the first two coordinates. -/
theorem bcast_row_apply {α : Type} (h : S4x1024x1.BroadcastsInDim S4x1024x32000 (![0, 1, 2] : Fin 3 → Fin S4x1024x32000.rank))
    (y : S4x1024x1.Idx → α) (b : Fin 4) (s : Fin 1024) (v : Fin 32000) :
    broadcastInDim S4x1024x32000 ![0, 1, 2] h y (ix3 b s v) = y (ix3 b s 0) :=
  broadcastInDim_apply _ h y _ _ fun a => match a with
    | ⟨0, _⟩ => rfl
    | ⟨1, _⟩ => rfl
    | ⟨2, _⟩ => rfl

/-- A `[4, 1024, 1]` column cast to `[4, 1024]` reads the column at `(b, s, 0)`. -/
theorem cast_dropCol_apply {α : Type} (y : S4x1024x1.Idx → α) (h : S4x1024x1.ShapeCasts S4x1024) (b : Fin 4) (s : Fin 1024) :
    shapeCast S4x1024 y h (ix2 b s) = y (ix3 b s 0) :=
  shapeCast_apply y h _ _ (by
    rw [Shape.rowMajor_val_three, Shape.rowMajor_val_two]
    show (b.val * 1024 + s.val) * 1 + 0 = b.val * 1024 + s.val
    omega)

/-- A `[4, 1024, 1]` column cast to `[4, 1024, 1, 1]` reads the column at `(b, s, 0)`. -/
theorem cast_addUnit_apply {α : Type} (y : S4x1024x1.Idx → α) (h : S4x1024x1.ShapeCasts S4x1024x1x1) (b : Fin 4) (s : Fin 1024) :
    shapeCast S4x1024x1x1 y h (ix4 b s 0 0) = y (ix3 b s 0) :=
  shapeCast_apply y h _ _ (by
    rw [Shape.rowMajor_val_three, Shape.rowMajor_val_four]
    show (b.val * 1024 + s.val) * 1 + 0 = ((b.val * 1024 + s.val) * 1 + 0) * 1 + 0
    omega)

/-! ## The log-softmax of a row of reals -/

/-- The literal `-inf` is the bottom extended real. -/
theorem ofBits_negInf : Ideal.ofBits .f32 0xFF800000#32 = (⊥ : EReal) := by simp [Ideal.ofBits, Ideal.ieee]

/-- The index `(b, s)` with the vocabulary coordinate put back is `(b, s, v)`. -/
theorem lift_vocab (h : S4x1024x32000.Reduces [2] S4x1024) (b : Fin 4) (s : Fin 1024) (k : Fin (S4x1024x32000.size 2)) :
    h.lift (ix2 b s) k = ix3 b s (⟨k.val, k.isLt⟩ : Fin 32000) :=
  funext fun c => Fin.ext (by match c with | ⟨0, _⟩ => rfl | ⟨1, _⟩ => rfl | ⟨2, _⟩ => rfl)

/-- The row sum of a `[4, 1024, 32000]` array at `(b, s)`: the initial value plus the sum over the vocabulary. -/
theorem rowSum_apply (y : FVec Ideal S4x1024x32000 .f32) (b : Fin 4) (s : Fin 1024) :
    Host.reduceAdd (F := Ideal) y (constant S_ .f32 0x00000000#32) reducesTo_S4x1024x32000_S4x1024_d2 h_S_ (ix2 b s)
      = Ideal.ofBits .f32 0x00000000#32 + ∑ v : Fin 32000, y (ix3 b s v) := by
  unfold Host.reduceAdd
  rw [Ideal.hostReduceAdd_def, Ideal.hostReduceAdd_single reducesTo_S4x1024x32000_S4x1024_d2 (by decide)]
  refine congrArg (_ + ·) (Finset.sum_congr rfl fun k _ => ?_)
  exact congrArg y (funext fun a => Fin.ext (by match a with | ⟨0, _⟩ => rfl | ⟨1, _⟩ => rfl | ⟨2, _⟩ => rfl))

/-- Where the row's entries are real numbers, so is the row maximum. -/
theorem rowMax_real (x : FVec Ideal S4x1024x32000 .f32) (b : Fin 4) (s : Fin 1024) (xr : Fin 32000 → ℝ)
    (hx : ∀ v, x (ix3 b s v) = ((xr v : ℝ) : EReal)) : ∃ M : ℝ, Terms.rowMax x (ix2 b s) = ((M : ℝ) : EReal) := by
  have hR : S4x1024x32000.Reduces [2] S4x1024 := by decide
  obtain ⟨r, hr⟩ := Softmax.fold_max_real (n := 31999) xr (Ideal.ofBits .f32 0xFF800000#32) (Or.inl ofBits_negInf)
  refine ⟨r, ?_⟩
  unfold Terms.rowMax
  refine (maximumf_apply _ _ _).trans ?_
  have hf : (x ∘ hR.lift (ix2 b s)) = fun k : Fin 32000 => ((xr k : ℝ) : EReal) :=
    funext fun k => (congrArg x (lift_vocab hR b s k)).trans (hx _)
  have e : Host.reduce FloatOps.maximumf x (constant S_ .f32 0xFF800000#32) reducesTo_S4x1024x32000_S4x1024_d2 h_S_ (ix2 b s)
      = ((r : ℝ) : EReal) :=
    (Host.reduce_eq_fold_single FloatOps.maximumf x _ reducesTo_S4x1024x32000_S4x1024_d2 hR h_S_ (ix2 b s)).trans
      ((congrArg (fun f => Finset.fold max (Ideal.ofBits .f32 0xFF800000#32) f (Finset.univ : Finset (Fin 32000))) hf).trans hr)
  rw [e, bcast_scalar_apply, ofBits_negInf]
  exact max_eq_right bot_le

/-- A shifted logit is the logit less its row's maximum. -/
theorem shifted_apply (x : FVec Ideal S4x1024x32000 .f32) (b : Fin 4) (s : Fin 1024) (v : Fin 32000) :
    Terms.shifted x (ix3 b s v) = x (ix3 b s v) - Terms.rowMax x (ix2 b s) := by
  unfold Terms.shifted
  refine (subf_apply _ _ _).trans ?_
  exact congrArg (x (ix3 b s v) - ·) ((bcast_row_apply _ _ b s v).trans (bcast_col_apply _ _ b s 0))

/-- The log-sum-exp column at `(b, s)`: the logarithm of the row sum of the exponentials of the shifted logits. -/
theorem logSumExp_apply (x : FVec Ideal S4x1024x32000 .f32) (b : Fin 4) (s : Fin 1024) (c : Fin 1) :
    Terms.logSumExp x (ix3 b s c)
      = Ideal.log (Ideal.ofBits .f32 0x00000000#32 + ∑ v : Fin 32000, Ideal.exp (Terms.shifted x (ix3 b s v))) := by
  unfold Terms.logSumExp
  refine (hostLog_apply _ _).trans (congrArg Ideal.log ((bcast_col_apply _ _ b s c).trans ?_))
  refine (rowSum_apply (Host.exp (Terms.shifted x)) b s).trans ?_
  exact congrArg (Ideal.ofBits .f32 0x00000000#32 + ·) (Finset.sum_congr rfl fun v _ => hostExp_apply _ _)

/-- A log-softmax entry: the shifted logit less its row's log-sum-exp. -/
theorem logSoftmax_apply (x : FVec Ideal S4x1024x32000 .f32) (b : Fin 4) (s : Fin 1024) (v : Fin 32000) :
    Terms.logSoftmax x (ix3 b s v) = Terms.shifted x (ix3 b s v) - Terms.logSumExp x (ix3 b s 0) := by
  unfold Terms.logSoftmax
  refine (subf_apply _ _ _).trans ?_
  exact congrArg (Terms.shifted x (ix3 b s v) - ·) (bcast_row_apply _ _ b s v)

/-- On a row of real logits the negated log-softmax entry is the negative log-probability. -/
theorem logSoftmax_real (x : FVec Ideal S4x1024x32000 .f32) (b : Fin 4) (s : Fin 1024) (xr : Fin 32000 → ℝ)
    (hx : ∀ v, x (ix3 b s v) = ((xr v : ℝ) : EReal)) (id : Fin 32000) :
    -(Terms.logSoftmax x (ix3 b s id)) = ((Softmax.negLogp xr id : ℝ) : EReal) := by
  obtain ⟨M, hM⟩ := rowMax_real x b s xr hx
  have hs : ∀ v, Terms.shifted x (ix3 b s v) = ((xr v : ℝ) : EReal) - ((M : ℝ) : EReal) := fun v => by
    rw [shifted_apply, hx, hM]
  rw [logSoftmax_apply, logSumExp_apply, hs id, Finset.sum_congr rfl (fun v _ => congrArg Ideal.exp (hs v)),
    Ideal.ofBits_zero_f32]
  exact Softmax.ref_row (by decide) xr id M

/-! ## The gather along the vocabulary axis at an in-range token id -/

/-- A token id below 32000, as a 32-bit word, has itself as value. -/
theorem toNat_id (id : Fin 32000) : (BitVec.ofNat 32 id.val).toNat = id.val := by
  rw [BitVec.toNat_ofNat]; have := id.isLt; omega

/-- The start index of an in-range token id is the id: it is not negative, so nothing is added. -/
theorem takeIdx_apply (i : IVec S4x1024x1 32) (b : Fin 4) (s : Fin 1024) (id : Fin 32000)
    (hi : i (ix3 b s 0) = BitVec.ofNat 32 id.val) : Terms.takeIdx i (ix4 b s 0 0) = BitVec.ofNat 32 id.val := by
  unfold Terms.takeIdx
  refine (cast_addUnit_apply _ _ b s).trans ?_
  refine (select_apply _ _ _ _).trans ?_
  have h0 : cmpi .slt i (broadcastInDim S4x1024x1 ![] bcast_S_S4x1024x1 (constantI S_ 32 0#32)) (ix3 b s 0) = 0#1 := by
    show IntOp.cmpi .slt (i (ix3 b s 0)) 0#32 = 0#1
    rw [hi]
    refine eq_zero_of_ne_one fun h => ?_
    have := (StableHlo.Predicate.slt_iff_toNat (by rw [toNat_id]; have := id.isLt; omega) (by decide)).1 h
    simp at this
  rw [h0, select_zero]
  exact hi

/-- A fold over the one-element index set is one application of the operation. -/
theorem fold_fin_one {β : Type} (op : β → β → β) [Std.Commutative op] [Std.Associative op] (init : β) (f : Fin 1 → β) :
    (Finset.univ : Finset (Fin 1)).fold op init f = op (f 0) init := by
  rw [Finset.univ_unique, Finset.fold_singleton]
  rfl

/-- A reduce by `and` from 1 over the trailing unit axis reads the operand's one element there. -/
theorem reduce_andi_unit (X : IVec S4x1024x1x1 1) (b : Fin 4) (s : Fin 1024) (c : Fin 1) :
    Host.reduce IntOp.andi X (constantI S_ 1 1#1) reducesTo_S4x1024x1x1_S4x1024x1_d3 h_S_ (ix3 b s c) = X (ix4 b s c 0) := by
  have hR : S4x1024x1x1.Reduces [3] S4x1024x1 := by decide
  refine (Host.reduce_eq_fold_single IntOp.andi X _ reducesTo_S4x1024x1x1_S4x1024x1_d3 hR h_S_ (ix3 b s c)).trans ?_
  refine (fold_fin_one IntOp.andi 1#1 (X ∘ hR.lift (ix3 b s c))).trans ?_
  have hl : hR.lift (ix3 b s c) (0 : Fin 1) = ix4 b s c 0 :=
    funext fun a => Fin.ext (by match a with | ⟨0, _⟩ => rfl | ⟨1, _⟩ => rfl | ⟨2, _⟩ => rfl | ⟨3, _⟩ => rfl)
  refine (congrArg (fun i => IntOp.andi (X i) 1#1) hl).trans ?_
  generalize X (ix4 b s c 0) = y
  rcases BitVec.eq_zero_or_eq_one y with rfl | rfl <;> rfl

/-- An in-range start index passes the range test. -/
theorem takeOk_apply (j : IVec S4x1024x1x1 32) (b : Fin 4) (s : Fin 1024) (id : Fin 32000)
    (hj : j (ix4 b s 0 0) = BitVec.ofNat 32 id.val) : Terms.takeOk j (ix3 b s 0) = 1#1 := by
  unfold Terms.takeOk
  refine (reduce_andi_unit _ b s 0).trans ?_
  show IntOp.andi (IntOp.cmpi .sge (j (ix4 b s 0 0)) 0#32) (IntOp.cmpi .sle (j (ix4 b s 0 0)) 31999#32) = 1#1
  have hlt : (BitVec.ofNat 32 id.val).toNat < 2 ^ 31 := by rw [toNat_id]; have := id.isLt; omega
  rw [hj, (StableHlo.Predicate.sge_iff_toNat hlt (by decide)).2 (Nat.zero_le _),
    (StableHlo.Predicate.sle_iff_toNat hlt (by decide)).2 (by rw [toNat_id]; have := id.isLt; simp; omega)]
  rfl

/-- The gathered operand index keeps the batch coordinate … -/
theorem gather_axis0 (j : IVec S4x1024x1x1 32) (b : Fin 4) (s : Fin 1024) (c : Fin 1) :
    (gather_S4x1024x32000_S4x1024x1x1_S4x1024x1_n_2_01_01_2_3_111.operandIdx (ix3 b s c) j 0).val = b.val := by
  have hm : (0 : Fin S4x1024x32000.rank) ∈ gather_S4x1024x32000_S4x1024x1x1_S4x1024x1_n_2_01_01_2_3_111.operandBatchingDims := List.mem_cons_self
  show gather_S4x1024x32000_S4x1024x1x1_S4x1024x1_n_2_01_01_2_3_111.start (ix3 b s c) j 0 + gather_S4x1024x32000_S4x1024x1x1_S4x1024x1_n_2_01_01_2_3_111.batchCoord (ix3 b s c) 0 + gather_S4x1024x32000_S4x1024x1x1_S4x1024x1_n_2_01_01_2_3_111.offCoord (ix3 b s c) 0 = b.val
  rw [gather_S4x1024x32000_S4x1024x1x1_S4x1024x1_n_2_01_01_2_3_111.start_batching _ _ _ hm, gather_S4x1024x32000_S4x1024x1x1_S4x1024x1_n_2_01_01_2_3_111.offCoord_eq_zero _ _ (fun h => ((gather_S4x1024x32000_S4x1024x1x1_S4x1024x1_n_2_01_01_2_3_111.mem_sKept _).1 h).2 hm),
    Nat.zero_add, Nat.add_zero]
  unfold GatherDims.batchCoord
  rw [dif_pos hm]
  rfl
/-- … and the position coordinate … -/
theorem gather_axis1 (j : IVec S4x1024x1x1 32) (b : Fin 4) (s : Fin 1024) (c : Fin 1) :
    (gather_S4x1024x32000_S4x1024x1x1_S4x1024x1_n_2_01_01_2_3_111.operandIdx (ix3 b s c) j 1).val = s.val := by
  have hm : (1 : Fin S4x1024x32000.rank) ∈ gather_S4x1024x32000_S4x1024x1x1_S4x1024x1_n_2_01_01_2_3_111.operandBatchingDims := List.mem_cons_of_mem _ List.mem_cons_self
  show gather_S4x1024x32000_S4x1024x1x1_S4x1024x1_n_2_01_01_2_3_111.start (ix3 b s c) j 1 + gather_S4x1024x32000_S4x1024x1x1_S4x1024x1_n_2_01_01_2_3_111.batchCoord (ix3 b s c) 1 + gather_S4x1024x32000_S4x1024x1x1_S4x1024x1_n_2_01_01_2_3_111.offCoord (ix3 b s c) 1 = s.val
  rw [gather_S4x1024x32000_S4x1024x1x1_S4x1024x1_n_2_01_01_2_3_111.start_batching _ _ _ hm, gather_S4x1024x32000_S4x1024x1x1_S4x1024x1_n_2_01_01_2_3_111.offCoord_eq_zero _ _ (fun h => ((gather_S4x1024x32000_S4x1024x1x1_S4x1024x1_n_2_01_01_2_3_111.mem_sKept _).1 h).2 hm),
    Nat.zero_add, Nat.add_zero]
  unfold GatherDims.batchCoord
  rw [dif_pos hm]
  rfl
/-- … and on the vocabulary axis reads the start index, which an in-range token id is. -/
theorem gather_axis2 (j : IVec S4x1024x1x1 32) (b : Fin 4) (s : Fin 1024) (id : Fin 32000)
    (hj : j (ix4 b s 0 0) = BitVec.ofNat 32 id.val) : (gather_S4x1024x32000_S4x1024x1x1_S4x1024x1_n_2_01_01_2_3_111.operandIdx (ix3 b s 0) j 2).val = id.val := by
  have hb : (2 : Fin S4x1024x32000.rank) ∉ gather_S4x1024x32000_S4x1024x1x1_S4x1024x1_n_2_01_01_2_3_111.operandBatchingDims :=
    (by decide : (2 : Fin 3) ∉ ([0, 1] : List (Fin 3)))
  have hc : (2 : Fin S4x1024x32000.rank) ∈ gather_S4x1024x32000_S4x1024x1x1_S4x1024x1_n_2_01_01_2_3_111.collapsedSliceDims := List.mem_cons_self
  have hm : (2 : Fin S4x1024x32000.rank) ∈ gather_S4x1024x32000_S4x1024x1x1_S4x1024x1_n_2_01_01_2_3_111.startIndexMap := List.mem_cons_self
  show gather_S4x1024x32000_S4x1024x1x1_S4x1024x1_n_2_01_01_2_3_111.start (ix3 b s 0) j 2 + gather_S4x1024x32000_S4x1024x1x1_S4x1024x1_n_2_01_01_2_3_111.batchCoord (ix3 b s 0) 2 + gather_S4x1024x32000_S4x1024x1x1_S4x1024x1_n_2_01_01_2_3_111.offCoord (ix3 b s 0) 2 = id.val
  rw [gather_S4x1024x32000_S4x1024x1x1_S4x1024x1_n_2_01_01_2_3_111.batchCoord_eq_zero _ _ hb, gather_S4x1024x32000_S4x1024x1x1_S4x1024x1_n_2_01_01_2_3_111.offCoord_eq_zero _ _ (fun h => ((gather_S4x1024x32000_S4x1024x1x1_S4x1024x1_n_2_01_01_2_3_111.mem_sKept _).1 h).1 hc),
    Nat.add_zero]
  unfold GatherDims.start
  rw [dif_pos hm]
  have hsi : gather_S4x1024x32000_S4x1024x1x1_S4x1024x1_n_2_01_01_2_3_111.siIdx (ix3 b s 0) ⟨List.idxOf (2 : Fin S4x1024x32000.rank) gather_S4x1024x32000_S4x1024x1x1_S4x1024x1_n_2_01_01_2_3_111.startIndexMap,
      List.idxOf_lt_length_iff.2 hm⟩ = ix4 b s 0 0 :=
    funext fun e => Fin.ext (by match e with | ⟨0, _⟩ => rfl | ⟨1, _⟩ => rfl | ⟨2, _⟩ => rfl | ⟨3, _⟩ => rfl)
  rw [hsi, hj]
  show min (BitVec.ofNat 32 id.val).toInt.toNat (32000 - 1) = id.val
  rw [StableHlo.Predicate.toInt_ofNat_small _ (by have := id.isLt; omega), Int.toNat_natCast]
  have := id.isLt; omega

/-- The gather at `(b, s)` with an in-range token id reads the operand at `(b, s, id)`. -/
theorem gather_apply {α : Type} (lp : S4x1024x32000.Idx → α) (j : IVec S4x1024x1x1 32) (b : Fin 4) (s : Fin 1024) (id : Fin 32000)
    (hj : j (ix4 b s 0 0) = BitVec.ofNat 32 id.val) :
    Host.gather gather_S4x1024x32000_S4x1024x1x1_S4x1024x1_n_2_01_01_2_3_111 lp j (ix3 b s 0) = lp (ix3 b s id) := by
  unfold Host.gather
  exact congrArg lp (funext fun a => Fin.ext (by
    match a with
    | ⟨0, _⟩ => exact gather_axis0 j b s 0
    | ⟨1, _⟩ => exact gather_axis1 j b s 0
    | ⟨2, _⟩ => exact gather_axis2 j b s id hj))

/-- `take_along_axis` at an in-range token id is the entry at that id: the range test passes, so no fill. -/
theorem takeAlong_apply (lp : FVec Ideal S4x1024x32000 .f32) (i : IVec S4x1024x1 32) (b : Fin 4) (s : Fin 1024) (id : Fin 32000)
    (hi : i (ix3 b s 0) = BitVec.ofNat 32 id.val) : Terms.takeAlong lp i (ix3 b s 0) = lp (ix3 b s id) := by
  unfold Terms.takeAlong
  refine (select_apply _ _ _ _).trans ?_
  rw [takeOk_apply _ b s id (takeIdx_apply i b s id hi), select_one]
  exact gather_apply lp _ b s id (takeIdx_apply i b s id hi)

/-- The masked surprisal at `(b, s)`, where the row's logits are the reals `x b s` and the token id is `id`. -/
theorem surp_apply (a0 : FVec Ideal S4x1024x2048 .f32) (a1 : FVec Ideal S2048x32000 .f32) (a2 a3 : IVec S4x1024 32)
    (x : Fin 4 → Fin 1024 → Fin 32000 → ℝ)
    (hx : ∀ b s v, Terms.logits (F := Ideal) a0 a1 (ix3 b s v) = ((x b s v : ℝ) : EReal))
    (b : Fin 4) (s : Fin 1024) (id : Fin 32000) (hid : a2 (ix2 b s) = BitVec.ofNat 32 id.val) :
    Terms.surp (F := Ideal) a0 a1 a2 a3 (ix2 b s)
      = Ideal.div ((Softmax.negLogp (x b s) id : ℝ) : EReal) (Ideal.ofBits .f32 0x3F317218#32)
          * (sitofp .f32 a3 : FVec Ideal S4x1024 .f32) (ix2 b s) := by
  unfold Terms.surp
  refine (mulf_apply _ _ _).trans ?_
  refine congrArg (· * (sitofp .f32 a3 : FVec Ideal S4x1024 .f32) (ix2 b s)) ?_
  refine (hostDivf_apply _ _ _).trans ?_
  rw [bcast_scalar_apply]
  refine congrArg (fun z => Ideal.div z (Ideal.ofBits .f32 0x3F317218#32)) ?_
  refine (hostNegf_apply _ _).trans ?_
  rw [cast_dropCol_apply, takeAlong_apply _ _ b s id ((bcast_col_apply _ a2 b s 0).trans hid)]
  exact logSoftmax_real _ b s (x b s) (hx b s) id

/-! ## The pooled features -/

/-- The sequence sum of a `[4, 1024, 2049]` array at `(b, c)`: the initial value plus the sum over the positions. -/
theorem seqSum_apply (x : FVec Ideal S4x1024x2049 .f32) (b : Fin 4) (c : Fin 2049) :
    Host.reduceAdd (F := Ideal) x (constant S_ .f32 0x00000000#32) reducesTo_S4x1024x2049_S4x2049_d1 h_S_ (ix2 b c)
      = Ideal.ofBits .f32 0x00000000#32 + ∑ t : Fin 1024, x (ix3 b t c) := by
  unfold Host.reduceAdd
  rw [Ideal.hostReduceAdd_def, Ideal.hostReduceAdd_single reducesTo_S4x1024x2049_S4x2049_d1 (by decide)]
  refine congrArg (_ + ·) (Finset.sum_congr rfl fun k _ => ?_)
  exact congrArg x (funext fun a => Fin.ext (by match a with | ⟨0, _⟩ => rfl | ⟨1, _⟩ => rfl | ⟨2, _⟩ => rfl))

/-- Among the first 2048 columns the concatenation reads the hidden states. -/
theorem cat_apply_hidden (a0 : FVec Ideal S4x1024x2048 .f32) (y : FVec Ideal S4x1024x1 .f32) (b : Fin 4) (t : Fin 1024) (j : Fin 2048) :
    concatenate S4x1024x2049 2 [⟨S4x1024x2048, a0⟩, ⟨S4x1024x1, y⟩] concatenates_S4x1024x2048_S4x1024x1_S4x1024x2049_d2
      (ix3 b t (Fin.castSucc j)) = a0 (ix3 b t j) :=
  concatenate_pair_apply_left (t := S4x1024x2049) 2 a0 y concatenates_S4x1024x2048_S4x1024x1_S4x1024x2049_d2
    (ix3 b t (Fin.castSucc j)) rfl (ix3 b t j) fun c => match c with
    | ⟨0, _⟩ => rfl
    | ⟨1, _⟩ => rfl
    | ⟨2, _⟩ => rfl

/-- In the last column it reads the appended column. -/
theorem cat_apply_last (a0 : FVec Ideal S4x1024x2048 .f32) (y : FVec Ideal S4x1024x1 .f32) (b : Fin 4) (t : Fin 1024) :
    concatenate S4x1024x2049 2 [⟨S4x1024x2048, a0⟩, ⟨S4x1024x1, y⟩] concatenates_S4x1024x2048_S4x1024x1_S4x1024x2049_d2
      (ix3 b t (Fin.last 2048)) = y (ix3 b t 0) :=
  concatenate_pair_apply_right (t := S4x1024x2049) 2 a0 y concatenates_S4x1024x2048_S4x1024x1_S4x1024x2049_d2
    (ix3 b t (Fin.last 2048)) rfl rfl (ix3 b t 0)
    (fun c hc => match c, hc with
      | ⟨0, _⟩, _ => rfl
      | ⟨1, _⟩, _ => rfl
      | ⟨2, _⟩, hc => absurd rfl hc)
    rfl

/-- A pooled feature: the sequence sum of its column of the concatenation, divided by the literal 1024. -/
theorem pooled_apply (a0 : FVec Ideal S4x1024x2048 .f32) (s : FVec Ideal S4x1024 .f32) (b : Fin 4) (c : Fin 2049) :
    Terms.pooled (F := Ideal) a0 s (ix2 b c)
      = Ideal.div (Ideal.ofBits .f32 0x00000000#32 + ∑ t : Fin 1024,
          concatenate S4x1024x2049 2 [⟨S4x1024x2048, a0⟩, ⟨S4x1024x1, broadcastInDim S4x1024x1 ![0, 1] bcast_S4x1024_S4x1024x1_0_1 s⟩]
            concatenates_S4x1024x2048_S4x1024x1_S4x1024x2049_d2 (ix3 b t c))
          (Ideal.ofBits .f32 0x44800000#32) := by
  unfold Terms.pooled
  show Ideal.div _ _ = _
  rw [seqSum_apply, bcast_scalar_apply]

/-- A pooled feature among the first 2048: the sequence sum of that hidden column, divided by 1024. -/
theorem pooled_apply_hidden (a0 : FVec Ideal S4x1024x2048 .f32) (s : FVec Ideal S4x1024 .f32) (b : Fin 4) (j : Fin 2048) :
    Terms.pooled (F := Ideal) a0 s (ix2 b (Fin.castSucc j))
      = Ideal.div (Ideal.ofBits .f32 0x00000000#32 + ∑ t : Fin 1024, a0 (ix3 b t j)) (Ideal.ofBits .f32 0x44800000#32) := by
  rw [pooled_apply]
  exact congrArg (fun z => Ideal.div (Ideal.ofBits .f32 0x00000000#32 + z) (Ideal.ofBits .f32 0x44800000#32))
    (Finset.sum_congr rfl fun t _ => cat_apply_hidden a0 _ b t j)

/-- The last pooled feature: the sequence sum of the surprisal, divided by 1024. -/
theorem pooled_apply_surp (a0 : FVec Ideal S4x1024x2048 .f32) (s : FVec Ideal S4x1024 .f32) (b : Fin 4) :
    Terms.pooled (F := Ideal) a0 s (ix2 b (Fin.last 2048))
      = Ideal.div (Ideal.ofBits .f32 0x00000000#32 + ∑ t : Fin 1024, s (ix2 b t)) (Ideal.ofBits .f32 0x44800000#32) := by
  rw [pooled_apply]
  exact congrArg (fun z => Ideal.div (Ideal.ofBits .f32 0x00000000#32 + z) (Ideal.ofBits .f32 0x44800000#32))
    (Finset.sum_congr rfl fun t _ => (cat_apply_last a0 _ b t).trans (bcast_col_apply _ s b t 0))

end Cert.ReferenceIdeal.RefValue

end
-- ==== Proof.KerPooled.lean ====
/-
  The kernel program's pooled features read at an index, on the extended reals: per batch row, the first 2048
  columns are the sequence sums of the hidden columns divided by the literal 1024, and the last column is the
  pallas_call's result for that row divided by the literal 1024.
-/
import proofs.«417803_j80221399155116_3_alg».proof.Proof.KerTerms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerPooled

open Idealize.ShloMosaic Idealize.ShloMosaic.ValueIdx Cert.KernelIdeal
open Cert.KernelIdeal.Facts₀ Cert.KernelIdeal.Facts

variable [Facts]

/-- The shape fact of the sum over the sequence axis, in the form that names the inserted index. -/
theorem reduces_seq : S4x1024x2048.Reduces [1] S4x2048 := by decide

/-- The index the sum over the sequence axis inserts at `(b, j)`, position `t`, is `(b, t, j)`. -/
theorem lift_seq (b : Fin 4) (j : Fin 2048) (t : Fin 1024) : reduces_seq.lift (ix2 b j) t = ix3 b t j := by
  funext d
  apply Fin.ext
  match d with
  | ⟨0, _⟩ => rfl
  | ⟨1, _⟩ => rfl
  | ⟨2, _⟩ => rfl

/-- A pooled feature among the first 2048: the sequence sum of that hidden column, divided by 1024. -/
theorem pooled_apply_hidden (a0 : FVec Ideal S4x1024x2048 .f32) (ko : FVec Ideal S4x1x1 .f32) (b : Fin 4) (j : Fin 2048) :
    Terms.pooled (F := Ideal) a0 ko (ix2 b (Fin.castSucc j))
      = Ideal.div (Ideal.ofBits .f32 0x00000000#32 + ∑ t : Fin 1024, a0 (ix3 b t j)) (Ideal.ofBits .f32 0x44800000#32) := by
  unfold Terms.pooled
  refine (concatenate_pair_apply_left (1 : Fin S4x2049.rank) _ _ concatenates_S4x2048_S4x1_S4x2049_d1
    (ix2 b (Fin.castSucc j)) rfl (ix2 b j) ?_).trans ?_
  · intro d
    match d with
    | ⟨0, _⟩ => rfl
    | ⟨1, _⟩ => rfl
  · show Ideal.div (Ideal.hostReduceAdd reducesTo_S4x1024x2048_S4x2048_d1 a0 (Ideal.ofBits .f32 0x00000000#32) (ix2 b j))
        (Ideal.ofBits .f32 0x44800000#32) = _
    refine congrArg (fun z => Ideal.div z (Ideal.ofBits .f32 0x44800000#32)) ?_
    refine (Ideal.hostReduceAdd_single reducesTo_S4x1024x2048_S4x2048_d1 reduces_seq a0 _ (ix2 b j)).trans ?_
    refine congrArg (fun z => Ideal.ofBits .f32 0x00000000#32 + z) ?_
    exact Finset.sum_congr rfl (fun t _ => congrArg a0 (lift_seq b j t))

/-- The last pooled feature: the call's result for the batch row, divided by 1024. -/
theorem pooled_apply_surp (a0 : FVec Ideal S4x1024x2048 .f32) (ko : FVec Ideal S4x1x1 .f32) (b : Fin 4) :
    Terms.pooled (F := Ideal) a0 ko (ix2 b (Fin.last 2048))
      = Ideal.div (ko (ix3 b (0 : Fin 1) (0 : Fin 1))) (Ideal.ofBits .f32 0x44800000#32) := by
  unfold Terms.pooled
  refine (concatenate_pair_apply_right (1 : Fin S4x2049.rank) _ _ concatenates_S4x2048_S4x1_S4x2049_d1
    (ix2 b (Fin.last 2048)) rfl rfl (ix2 b (0 : Fin 1)) ?_ ?_).trans ?_
  · intro d hd
    match d with
    | ⟨0, _⟩ => rfl
    | ⟨1, _⟩ => exact absurd rfl hd
  · rfl
  · show Ideal.div (shapeCast S4x1 ko shapeCasts_S4x1x1_S4x1 (ix2 b (0 : Fin 1))) (Ideal.ofBits .f32 0x44800000#32) = _
    refine congrArg (fun z => Ideal.div z (Ideal.ofBits .f32 0x44800000#32)) ?_
    refine shapeCast_apply ko shapeCasts_S4x1x1_S4x1 (ix2 b (0 : Fin 1)) (ix3 b (0 : Fin 1) (0 : Fin 1)) ?_
    refine (Shape.rowMajor_val_three (d := ![4, 1, 1]) (ix3 b (0 : Fin 1) (0 : Fin 1))).trans ?_
    refine Eq.trans ?_ (Shape.rowMajor_val_two (d := ![4, 1]) (ix2 b (0 : Fin 1))).symm
    show (b.val * 1 + 0) * 1 + 0 = b.val * 1 + 0
    omega

end Cert.KernelIdeal.KerPooled

end
-- ==== Proof.Glue.lean ====
/-
  Three joints between the two programs.  The two-layer head is the same composition of host operations in both
  programs; the pooled features agree as soon as, for every batch row, the reference's sequence sum of the
  surprisal is the kernel call's result for that row (the hidden-state columns are the same sums on both sides);
  and where both factors are real entry by entry, every logit is a real number.
-/
import proofs.«417803_j80221399155116_3_alg».proof.Proof.RefValue
import proofs.«417803_j80221399155116_3_alg».proof.Proof.KerPooled

noncomputable section

namespace Cert.Glue

open Idealize.ShloMosaic Idealize.ShloMosaic.ValueIdx

variable [Cert.ReferenceIdeal.Facts] [Cert.KernelIdeal.Facts]

/-- The head is one function in both programs. -/
theorem tail_eq {F : FTy → Type} [FloatOps F] (p : FVec F Cert.KernelIdeal.S4x2049 .f32) (a4 : FVec F Cert.KernelIdeal.S4x3 .f32)
    (a5 : FVec F Cert.KernelIdeal.S2049x100 .f32) (a6 : FVec F Cert.KernelIdeal.S100 .f32)
    (a7 : FVec F Cert.KernelIdeal.S103x5 .f32) (a8 : FVec F Cert.KernelIdeal.S5 .f32) :
    Cert.ReferenceIdeal.Terms.tail p a4 a5 a6 a7 a8 = Cert.KernelIdeal.Terms.tail p a4 a5 a6 a7 a8 := by
  rfl

/-- The pooled features agree once the surprisal's sequence sums are the call's results. -/
theorem pooled_eq (a0 : FVec Ideal Cert.KernelIdeal.S4x1024x2048 .f32) (s : FVec Ideal Cert.KernelIdeal.S4x1024 .f32)
    (ko : FVec Ideal Cert.KernelIdeal.S4x1x1 .f32)
    (h : ∀ b : Fin 4, ∑ t : Fin 1024, s (ix2 b t) = ko (ix3 b (0 : Fin 1) (0 : Fin 1))) :
    Cert.ReferenceIdeal.Terms.pooled (F := Ideal) a0 s = Cert.KernelIdeal.Terms.pooled (F := Ideal) a0 ko := by
  funext i
  obtain ⟨b, j, rfl⟩ : ∃ (b : Fin 4) (j : Fin 2049), i = ix2 b j := ⟨i 0, i 1, eq_ix2 i⟩
  rcases Fin.eq_castSucc_or_eq_last (n := 2048) j with ⟨j', rfl⟩ | rfl
  · exact (Cert.ReferenceIdeal.RefValue.pooled_apply_hidden a0 s b j').trans (Cert.KernelIdeal.KerPooled.pooled_apply_hidden a0 ko b j').symm
  · refine (Cert.ReferenceIdeal.RefValue.pooled_apply_surp a0 s b).trans (Eq.trans ?_ (Cert.KernelIdeal.KerPooled.pooled_apply_surp a0 ko b).symm)
    refine congrArg (fun z => Ideal.div z (Ideal.ofBits .f32 0x44800000#32)) ?_
    rw [Ideal.ofBits_zero_f32, zero_add]
    exact h b

/-- Products and finite sums of reals are reals: the contraction of real-valued factors is real-valued. -/
theorem logits_real (a0 : FVec Ideal Cert.KernelIdeal.S4x1024x2048 .f32) (a1 : FVec Ideal Cert.KernelIdeal.S2048x32000 .f32)
    (h0 : ∀ i, ∃ r : ℝ, a0 i = (r : EReal)) (h1 : ∀ i, ∃ r : ℝ, a1 i = (r : EReal)) :
    ∃ x : Fin 4 → Fin 1024 → Fin 32000 → ℝ, ∀ (b : Fin 4) (s : Fin 1024) (v : Fin 32000),
      ∑ d : Fin 2048, a0 (ix3 b s d) * a1 (ix2 d v) = ((x b s v : ℝ) : EReal) := by
  choose f hf using h0
  choose g hg using h1
  refine ⟨fun b s v => ∑ d : Fin 2048, f (ix3 b s d) * g (ix2 d v), fun b s v => ?_⟩
  rw [Cert.Softmax.coe_sum]
  refine Finset.sum_congr rfl fun d _ => ?_
  rw [hf, hg]
  exact (EReal.coe_mul _ _).symm

end Cert.Glue

end
-- ==== Proof.PreFacts.lean ====
/-
  What the precondition says of the argument arrays: it is the conjunction, reduced to one bit, of seven
  "every entry has absolute value below +inf" tests and one "every token id lies in [0, 32000)" test.  On the
  extended reals an entry whose absolute value is below `⊤` is a real number; a 32-bit word that is at least 0
  and below 32000 as a signed integer is the word of a natural number below 32000.
-/
import proofs.«417803_j80221399155116_3_alg».proof.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

namespace Cert.PreFacts

open Idealize.ShloMosaic Cert.Pre_finite_inputs

variable [Cert.Pre_finite_inputs.Facts]

/-- The scalar shape has one index. -/
instance : Subsingleton S_.Idx := ⟨fun a b => funext fun d => d.elim0⟩

/-- The word `0x7F800000` is `+inf`: sign 0, exponent all ones, fraction 0. -/
theorem inf_word : Ideal.ofBits .f32 0x7F800000#32 = (⊤ : EReal) := by
  simp [Ideal.ofBits, Ideal.ieee]

/-- An extended real whose absolute value `max x (-x)` is below `⊤` is a real number: both infinities have
    absolute value `⊤`. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- One entry's test `|x| < +inf` coming out true says the entry is a real number. -/
theorem real_of_test (x : Ideal .f32)
    (h : FloatOps.cmpf (F := Ideal) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [inf_word] at h'
  unfold Ideal.cmp at h'
  rw [StableHlo.Predicate.ofBool_eq_one_iff, decide_eq_true_eq] at h'
  exact real_of_abs_lt_top x h'

/-- A 32-bit word that is at least 0 and below 32000 as a signed integer is the word of a natural number below
    32000: a nonnegative signed value is the unsigned value. -/
theorem id_of_range (w : BitVec 32) (h0 : IntOp.cmpi .sge w 0#32 = 1#1) (h1 : IntOp.cmpi .slt w 32000#32 = 1#1) :
    ∃ id : Fin 32000, w = BitVec.ofNat 32 id.val := by
  rw [IntOp.cmpi_sge] at h0
  rw [IntOp.cmpi_slt] at h1
  have z : (0#32 : BitVec 32).toInt = 0 := by decide
  have t : (32000#32 : BitVec 32).toInt = 32000 := by decide
  rw [z] at h0
  rw [t] at h1
  have hw := w.isLt
  rw [BitVec.toInt_eq_toNat_cond] at h0 h1
  have hlt : w.toNat < 32000 := by
    split at h0 <;> omega
  refine ⟨⟨w.toNat, hlt⟩, ?_⟩
  apply BitVec.eq_of_toNat_eq
  simp only [BitVec.toNat_ofNat]
  omega

/-- Under the precondition the hidden states and the head's weights are real numbers entry by entry, and every
    token id is the word of a natural number below 32000. -/
theorem of_pre (a0 : FVec Ideal S4x1024x2048 .f32) (a1 : FVec Ideal S2048x32000 .f32) (a2 a3 : IVec S4x1024 32)
    (a4 : FVec Ideal S4x3 .f32) (a5 : FVec Ideal S2049x100 .f32) (a6 : FVec Ideal S100 .f32)
    (a7 : FVec Ideal S103x5 .f32) (a8 : FVec Ideal S5 .f32)
    (h : fn (F := Ideal) a0 a1 a2 a3 a4 a5 a6 a7 a8 = fun _ => 1#1) :
    (∀ i, ∃ r : ℝ, a0 i = (r : EReal)) ∧ (∀ i, ∃ r : ℝ, a1 i = (r : EReal))
      ∧ (∀ i, ∃ id : Fin 32000, a2 i = BitVec.ofNat 32 id.val) := by
  have e := congrFun h ValueIdx.ix0
  dsimp only [fn, fn_part1, fn_part2, andi] at e
  simp only [IntOp.andi_eq_one] at e
  obtain ⟨⟨⟨⟨⟨⟨⟨h0, h1⟩, -⟩, -⟩, -⟩, -⟩, -⟩, h2⟩ := e
  have A0 := Host.reduce_andi_all _ _ _ _ _ h0
  have A1 := Host.reduce_andi_all _ _ _ _ _ h1
  have A2 := Host.reduce_andi_all _ _ _ _ _ h2
  refine ⟨fun i => ?_, fun i => ?_, fun i => ?_⟩
  · exact real_of_test (a0 i) (A0 i)
  · exact real_of_test (a1 i) (A1 i)
  · have hi : IntOp.andi (IntOp.cmpi .sge (a2 i) 0#32) (IntOp.cmpi .slt (a2 i) 32000#32) = 1#1 := A2 i
    rw [IntOp.andi_eq_one] at hi
    exact id_of_range (a2 i) hi.1 hi.2

end Cert.PreFacts

end
-- ==== Proof.lean ====
/-
  A language-model head with an online softmax against its plain reference, over the extended reals.

  The kernel program narrows the hidden states and the head's weights to bf16 (the identity on extended reals),
  clips the token ids to the vocabulary, and runs one pallas_call over a `4 × 25` grid: row block `b` is batch row
  `b`'s whole sequence, tile `j` is vocabulary entries `1280 j … 1280 j + 1279`.  Along the tiles it carries, per
  sequence position, a running maximum `μ`, the running sum `∑ exp (logit - μ)` rescaled whenever `μ` moves, and
  the logit picked where the vocabulary index equals the token id; at the last tile it forms
  `((0 - (pick - (μ + log sum))) / log 2) · mask` and sums it over the sequence.  The reference computes the same
  logits as one contraction, takes a log-softmax shifted by the row maximum, gathers the token's entry, and forms
  `(-logp / log 2) · mask`.  Since `log ∑ exp (x - a) = log ∑ exp x - a` for every real shift `a`, both are the
  token's negative log-probability over `log 2` times the mask: the running maximum need not be the maximum for
  this, only a real number, which it is because the inputs are finite.  The token ids are required to lie in
  `[0, 32000)`: outside that range the reference's gather wraps a negative index or answers its fill value while
  the kernel clips, so the two programs are not meant to agree there.  The rest is shared: the mean over the
  sequence of the hidden states, with the mean surprisal appended (the kernel divides its per-row sum by 1024,
  the reference sums the concatenated features and divides by 1024), and the same two-layer head.

  The modules: `RefTerms` / `KerTerms` name the programs' pure stages; `RefRun` and `KerHost` run the two programs
  to those stages; `OnlineSoftmax` is the mathematics on ℝ and its reading on the extended reals; `RefValue`,
  `KerPooled`, `KerArgs`, `KerPayloads` read stages and the kernel body's arithmetic at an index; `KerPieces`,
  `KerState`, `KerBlocks` read the carried rows, the blocks and the output array off the kernel's frame;
  `KerStepRow`, `KerRows`, `KerValue` follow one row through the tiles; `PreFacts` decodes the precondition;
  `Glue` joins the pooled features and the heads.
-/
import proofs.«417803_j80221399155116_3_alg».proof.Defs
import proofs.«417803_j80221399155116_3_alg».proof.Proof.Gen.Kernel
import proofs.«417803_j80221399155116_3_alg».proof.Proof.Gen.Kernel.Skeleton
import proofs.«417803_j80221399155116_3_alg».proof.Proof.Gen.Kernel.Launch
import proofs.«417803_j80221399155116_3_alg».proof.Proof.Gen.Kernel.Points
import proofs.«417803_j80221399155116_3_alg».proof.Proof.Gen.Kernel.Frame
import proofs.«417803_j80221399155116_3_alg».proof.Proof.Gen.KernelIdeal
import proofs.«417803_j80221399155116_3_alg».proof.Proof.Gen.KernelIdeal.Skeleton
import proofs.«417803_j80221399155116_3_alg».proof.Proof.Gen.KernelIdeal.Launch
import proofs.«417803_j80221399155116_3_alg».proof.Proof.Gen.KernelIdeal.Points
import proofs.«417803_j80221399155116_3_alg».proof.Proof.Gen.KernelIdeal.Frame
import proofs.«417803_j80221399155116_3_alg».proof.Proof.Gen.ReferenceIdeal
import proofs.«417803_j80221399155116_3_alg».proof.Proof.Gen.Pre_finite_inputs
import proofs.«417803_j80221399155116_3_alg».proof.Proof.RefRun
import proofs.«417803_j80221399155116_3_alg».proof.Proof.KerValue
import proofs.«417803_j80221399155116_3_alg».proof.Proof.Glue
import proofs.«417803_j80221399155116_3_alg».proof.Proof.PreFacts
import Idealize.ShloMosaic.Adequacy
import Idealize.ShloMosaic.Init

noncomputable section

namespace Cert.Proof

open Idealize.ShloMosaic Idealize.ShloMosaic.ValueIdx Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Under the precondition the reference's sequence sum of the surprisal is the kernel call's result, row by row. -/
theorem surp_sum (m : (ℓ : Loc Cert.KernelIdeal.nD Cert.KernelIdeal.τ Cert.KernelIdeal.sig) → Buf (Elt Ideal) ℓ) (hpre : Cert.Pre_KernelIdeal m)
    (c : Dev Cert.KernelIdeal.nD) (b : Fin 4) :
    ∑ t : Fin 1024, Cert.ReferenceIdeal.Terms.surp (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (ix2 b t)
      = ((Cert.KernelIdeal.Gen.dats m 0 c).arrAt 4 Cert.KernelIdeal.cfg0.N : FVec Ideal Cert.KernelIdeal.S4x1x1 .f32) (ix3 b (0 : Fin 1) (0 : Fin 1)) := by
  obtain ⟨h0, h1, h2⟩ := Cert.PreFacts.of_pre _ _ _ _ _ _ _ _ _ (hpre c)
  obtain ⟨x, hx⟩ := Cert.Glue.logits_real _ _ h0 h1
  choose idf hidf using h2
  have hx' : ∀ (b : Fin 4) (s : Fin 1024) (v : Fin 32000),
      Cert.ReferenceIdeal.Terms.logits (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (ix3 b s v) = ((x b s v : ℝ) : EReal) :=
    fun b s v => (Cert.ReferenceIdeal.RefValue.logits_apply _ _ b s v).trans (hx b s v)
  rw [Cert.KernelIdeal.Value.region_value m c x (fun b s => idf (ix2 b s)) hx (fun b s => hidf (ix2 b s)) b]
  exact Finset.sum_congr rfl fun t _ =>
    Cert.ReferenceIdeal.RefValue.surp_apply _ _ _ _ x hx' b t (idf (ix2 b t)) (hidf (ix2 b t))

/-- Both programs end, from memories agreeing on the arguments, with equal results. -/
theorem algebraic : Cert.algebraic_KernelIdeal_ReferenceIdeal := by
  intro m ρ m' ρ' hpre hagree
  refine ⟨_, Cert.KernelIdeal.KerHost.run m ρ, ?_⟩
  refine (θ_run Cert.ReferenceIdeal.defs _ _).mono (fun _ h c => ⟨(h c).1.trans ?_, (h c).2⟩) (Cert.ReferenceIdeal.RefRun.run (F := Ideal) m' ρ')
  obtain ⟨e0, e1, e2, e3, e4, e5, e6, e7, e8⟩ := hagree c
  rw [e0, e1, e2, e3, e4, e5, e6, e7, e8]
  unfold Cert.ReferenceIdeal.Terms.out
  rw [Cert.Glue.tail_eq]
  have hp : Cert.ReferenceIdeal.Terms.pooled (F := Ideal) (m ((c.tc : Thread Cert.KernelIdeal.nD Cert.KernelIdeal.τ).loc Cert.KernelIdeal.main_arg0))
        (Cert.ReferenceIdeal.Terms.surp (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      = Cert.KernelIdeal.Terms.pooled (F := Ideal) (m ((c.tc : Thread Cert.KernelIdeal.nD Cert.KernelIdeal.τ).loc Cert.KernelIdeal.main_arg0)) ((Cert.KernelIdeal.Gen.dats m 0 c).arrAt 4 Cert.KernelIdeal.cfg0.N) :=
    Cert.Glue.pooled_eq (m ((c.tc : Thread Cert.KernelIdeal.nD Cert.KernelIdeal.τ).loc Cert.KernelIdeal.main_arg0))
      (Cert.ReferenceIdeal.Terms.surp (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      ((Cert.KernelIdeal.Gen.dats m 0 c).arrAt 4 Cert.KernelIdeal.cfg0.N) (surp_sum m hpre c)
  rw [hp]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
